-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v23_1)) (v1 : (c : Dev Cert.KernelIdeal.nD) → Buf (Elt Ideal) ((c.tc : Thread Cert.KernelIdeal.nD Cert.KernelIdeal.τ).loc Cert.KernelIdeal.main_v23_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_1) = v0 c
          ∧ r.2.mem ((c.tc : Thread Cert.KernelIdeal.nD Cert.KernelIdeal.τ).loc Cert.KernelIdeal.main_v23_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x3 : Shape := ⟨2, ![2048, 3]⟩
abbrev S2048x256 : Shape := ⟨2, ![2048, 256]⟩
abbrev S32768x2 : Shape := ⟨2, ![32768, 2]⟩
abbrev S2048x32768 : Shape := ⟨2, ![2048, 32768]⟩
abbrev S2048x8 : Shape := ⟨2, ![2048, 8]⟩
abbrev S32768x4 : Shape := ⟨2, ![32768, 4]⟩
abbrev S517x256 : Shape := ⟨2, ![517, 256]⟩
abbrev S256 : Shape := ⟨1, ![256]⟩
abbrev S256x256 : Shape := ⟨2, ![256, 256]⟩
abbrev S256x1 : Shape := ⟨2, ![256, 1]⟩
abbrev S520x256 : Shape := ⟨2, ![520, 256]⟩
abbrev S1 : Shape := ⟨1, ![1]⟩
abbrev S_ : Shape := ⟨0, ![]⟩

class Facts : Prop where
  bcast_S_S2048x3 : S_.BroadcastsInDim S2048x3 (![] : Fin 0 → Fin S2048x3.rank)
  reducesTo_S2048x3_S_d0_1 : S2048x3.ReducesTo [0, 1] S_
  h_S_ : 0 < S_.numel
  bcast_S_S2048x256 : S_.BroadcastsInDim S2048x256 (![] : Fin 0 → Fin S2048x256.rank)
  reducesTo_S2048x256_S_d0_1 : S2048x256.ReducesTo [0, 1] S_
  bcast_S_S2048x32768 : S_.BroadcastsInDim S2048x32768 (![] : Fin 0 → Fin S2048x32768.rank)
  reducesTo_S2048x32768_S_d0_1 : S2048x32768.ReducesTo [0, 1] S_
  bcast_S_S2048x8 : S_.BroadcastsInDim S2048x8 (![] : Fin 0 → Fin S2048x8.rank)
  reducesTo_S2048x8_S_d0_1 : S2048x8.ReducesTo [0, 1] S_
  bcast_S_S32768x4 : S_.BroadcastsInDim S32768x4 (![] : Fin 0 → Fin S32768x4.rank)
  reducesTo_S32768x4_S_d0_1 : S32768x4.ReducesTo [0, 1] S_
  bcast_S_S517x256 : S_.BroadcastsInDim S517x256 (![] : Fin 0 → Fin S517x256.rank)
  reducesTo_S517x256_S_d0_1 : S517x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S520x256 : S_.BroadcastsInDim S520x256 (![] : Fin 0 → Fin S520x256.rank)
  reducesTo_S520x256_S_d0_1 : S520x256.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg19 : FVec F S256x1 .f32) (main_arg20 : FVec F S1 .f32) (main_v83 : IVec S_ 1) (main_v84 : FVec F S256 .f32) (main_cst_32 : FVec F S_ .f32) : IVec S_ 1 :=
  let main_v85 : FVec F S256 .f32 := broadcastInDim S256 ![] bcast_S_S256 main_cst_32
  let main_v86 : IVec S256 1 := cmpf .olt main_v84 main_v85
  let main_c_33 : IVec S_ 1 := constantI S_ 1 1#1
  let main_v87 : IVec S_ 1 := (fun x v => Host.reduce IntOp.andi x v reducesTo_S256_S_d0 h_S_) main_v86 main_c_33
  let main_v88 : IVec S_ 1 := andi main_v83 main_v87
  let main_v89 : FVec F S256x1 .f32 := Host.absf main_arg19
  let main_cst_34 : FVec F S_ .f32 := constant S_ .f32 0x7F800000#32
  let main_v90 : FVec F S256x1 .f32 := broadcastInDim S256x1 ![] bcast_S_S256x1 main_cst_34
  let main_v91 : IVec S256x1 1 := cmpf .olt main_v89 main_v90
  let main_c_35 : IVec S_ 1 := constantI S_ 1 1#1
  let main_v92 : IVec S_ 1 := (fun x v => Host.reduce IntOp.andi x v reducesTo_S256x1_S_d0_1 h_S_) main_v91 main_c_35
  let main_v93 : IVec S_ 1 := andi main_v88 main_v92
  let main_v94 : FVec F S1 .f32 := Host.absf main_arg20
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  main_v98

def fn_part4 {F : FTy → Type} [FloatOps F] (main_arg15 : FVec F S520x256 .f32) (main_arg16 : FVec F S256 .f32) (main_arg17 : FVec F S256x256 .f32) (main_arg18 : FVec F S256 .f32) (main_arg19 : FVec F S256x1 .f32) (main_arg20 : FVec F S1 .f32) (main_v63 : IVec S_ 1) (main_v67 : IVec S_ 1) : IVec S_ 1 :=
  let main_v68 : IVec S_ 1 := andi main_v63 main_v67
  let main_v69 : FVec F S520x256 .f32 := Host.absf main_arg15
  let main_cst_26 : FVec F S_ .f32 := constant S_ .f32 0x7F800000#32
  let main_v70 : FVec F S520x256 .f32 := broadcastInDim S520x256 ![] bcast_S_S520x256 main_cst_26
  let main_v71 : IVec S520x256 1 := cmpf .olt main_v69 main_v70
  let main_c_27 : IVec S_ 1 := constantI S_ 1 1#1
  let main_v72 : IVec S_ 1 := (fun x v => Host.reduce IntOp.andi x v reducesTo_S520x256_S_d0_1 h_S_) main_v71 main_c_27
  let main_v73 : IVec S_ 1 := andi main_v68 main_v72
  let main_v74 : FVec F S256 .f32 := Host.absf main_arg16
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x256 .f32 := Host.absf main_arg17
  let main_cst_30 : FVec F S_ .f32 := constant S_ .f32 0x7F800000#32
  let main_v80 : FVec F S256x256 .f32 := broadcastInDim S256x256 ![] bcast_S_S256x256 main_cst_30
  let main_v81 : IVec S256x256 1 := cmpf .olt main_v79 main_v80
  let main_c_31 : IVec S_ 1 := constantI S_ 1 1#1
  let main_v82 : IVec S_ 1 := (fun x v => Host.reduce IntOp.andi x v reducesTo_S256x256_S_d0_1 h_S_) main_v81 main_c_31
  let main_v83 : IVec S_ 1 := andi main_v78 main_v82
  let main_v84 : FVec F S256 .f32 := Host.absf main_arg18
  let main_cst_32 : FVec F S_ .f32 := constant S_ .f32 0x7F800000#32
  fn_part5 (F := F) main_arg19 main_arg20 main_v83 main_v84 main_cst_32

def fn_part3 {F : FTy → Type} [FloatOps F] (main_arg12 : FVec F S256x256 .f32) (main_arg13 : FVec F S256 .f32) (main_arg14 : FVec F S256x1 .f32) (main_arg15 : FVec F S520x256 .f32) (main_arg16 : FVec F S256 .f32) (main_arg17 : FVec F S256x256 .f32) (main_arg18 : FVec F S256 .f32) (main_arg19 : FVec F S256x1 .f32) (main_arg20 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg12
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg13
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x1 .f32 := Host.absf main_arg14
  let main_cst_24 : FVec F S_ .f32 := constant S_ .f32 0x7F800000#32
  let main_v65 : FVec F S256x1 .f32 := broadcastInDim S256x1 ![] bcast_S_S256x1 main_cst_24
  let main_v66 : IVec S256x1 1 := cmpf .olt main_v64 main_v65
  let main_c_25 : IVec S_ 1 := constantI S_ 1 1#1
  let main_v67 : IVec S_ 1 := (fun x v => Host.reduce IntOp.andi x v reducesTo_S256x1_S_d0_1 h_S_) main_v66 main_c_25
  fn_part4 (F := F) main_arg15 main_arg16 main_arg17 main_arg18 main_arg19 main_arg20 main_v63 main_v67

def fn_part2 {F : FTy → Type} [FloatOps F] (main_arg8 : FVec F S256x256 .f32) (main_arg9 : FVec F S256 .f32) (main_arg10 : FVec F S517x256 .f32) (main_arg11 : FVec F S256 .f32) (main_arg12 : FVec F S256x256 .f32) (main_arg13 : FVec F S256 .f32) (main_arg14 : FVec F S256x1 .f32) (main_arg15 : FVec F S520x256 .f32) (main_arg16 : FVec F S256 .f32) (main_arg17 : FVec F S256x256 .f32) (main_arg18 : FVec F S256 .f32) (main_arg19 : FVec F S256x1 .f32) (main_arg20 : FVec F S1 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S517x256 .f32 := Host.absf main_arg10
  let main_cst_16 : FVec F S_ .f32 := constant S_ .f32 0x7F800000#32
  let main_v45 : FVec F S517x256 .f32 := broadcastInDim S517x256 ![] bcast_S_S517x256 main_cst_16
  let main_v46 : IVec S517x256 1 := cmpf .olt main_v44 main_v45
  let main_c_17 : IVec S_ 1 := constantI S_ 1 1#1
  let main_v47 : IVec S_ 1 := (fun x v => Host.reduce IntOp.andi x v reducesTo_S517x256_S_d0_1 h_S_) main_v46 main_c_17
  let main_v48 : IVec S_ 1 := andi main_v43 main_v47
  let main_v49 : FVec F S256 .f32 := Host.absf main_arg11
  let main_cst_18 : FVec F S_ .f32 := constant S_ .f32 0x7F800000#32
  let main_v50 : FVec F S256 .f32 := broadcastInDim S256 ![] bcast_S_S256 main_cst_18
  fn_part3 (F := F) main_arg12 main_arg13 main_arg14 main_arg15 main_arg16 main_arg17 main_arg18 main_arg19 main_arg20 main_v48 main_v49 main_v50

def fn_part1 {F : FTy → Type} [FloatOps F] (main_arg5 : FVec F S32768x4 .f32) (main_arg6 : FVec F S517x256 .f32) (main_arg7 : FVec F S256 .f32) (main_arg8 : FVec F S256x256 .f32) (main_arg9 : FVec F S256 .f32) (main_arg10 : FVec F S517x256 .f32) (main_arg11 : FVec F S256 .f32) (main_arg12 : FVec F S256x256 .f32) (main_arg13 : FVec F S256 .f32) (main_arg14 : FVec F S256x1 .f32) (main_arg15 : FVec F S520x256 .f32) (main_arg16 : FVec F S256 .f32) (main_arg17 : FVec F S256x256 .f32) (main_arg18 : FVec F S256 .f32) (main_arg19 : FVec F S256x1 .f32) (main_arg20 : FVec F S1 .f32) (main_v13 : IVec S_ 1) (main_v16 : IVec S2048x8 1) : IVec S_ 1 :=
  let main_c_5 : IVec S_ 1 := constantI S_ 1 1#1
  let main_v17 : IVec S_ 1 := (fun x v => Host.reduce IntOp.andi x v reducesTo_S2048x8_S_d0_1 h_S_) main_v16 main_c_5
  let main_v18 : IVec S_ 1 := andi main_v13 main_v17
  let main_v19 : FVec F S32768x4 .f32 := Host.absf main_arg5
  let main_cst_6 : FVec F S_ .f32 := constant S_ .f32 0x7F800000#32
  let main_v20 : FVec F S32768x4 .f32 := broadcastInDim S32768x4 ![] bcast_S_S32768x4 main_cst_6
  let main_v21 : IVec S32768x4 1 := cmpf .olt main_v19 main_v20
  let main_c_7 : IVec S_ 1 := constantI S_ 1 1#1
  let main_v22 : IVec S_ 1 := (fun x v => Host.reduce IntOp.andi x v reducesTo_S32768x4_S_d0_1 h_S_) main_v21 main_c_7
  let main_v23 : IVec S_ 1 := andi main_v18 main_v22
  let main_v24 : FVec F S517x256 .f32 := Host.absf main_arg6
  let main_cst_8 : FVec F S_ .f32 := constant S_ .f32 0x7F800000#32
  let main_v25 : FVec F S517x256 .f32 := broadcastInDim S517x256 ![] bcast_S_S517x256 main_cst_8
  let main_v26 : IVec S517x256 1 := cmpf .olt main_v24 main_v25
  let main_c_9 : IVec S_ 1 := constantI S_ 1 1#1
  let main_v27 : IVec S_ 1 := (fun x v => Host.reduce IntOp.andi x v reducesTo_S517x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_v33

def fn {F : FTy → Type} [FloatOps F] (main_arg0 : FVec F S2048x3 .f32) (main_arg1 : FVec F S2048x256 .f32) (main_arg2 : IVec S32768x2 32) (main_arg3 : FVec F S2048x32768 .f32) (main_arg4 : FVec F S2048x8 .f32) (main_arg5 : FVec F S32768x4 .f32) (main_arg6 : FVec F S517x256 .f32) (main_arg7 : FVec F S256 .f32) (main_arg8 : FVec F S256x256 .f32) (main_arg9 : FVec F S256 .f32) (main_arg10 : FVec F S517x256 .f32) (main_arg11 : FVec F S256 .f32) (main_arg12 : FVec F S256x256 .f32) (main_arg13 : FVec F S256 .f32) (main_arg14 : FVec F S256x1 .f32) (main_arg15 : FVec F S520x256 .f32) (main_arg16 : FVec F S256 .f32) (main_arg17 : FVec F S256x256 .f32) (main_arg18 : FVec F S256 .f32) (main_arg19 : FVec F S256x1 .f32) (main_arg20 : FVec F S1 .f32) : IVec S_ 1 :=
  let main_v0 : FVec F S2048x3 .f32 := Host.absf main_arg0
  let main_cst : FVec F S_ .f32 := constant S_ .f32 0x7F800000#32
  let main_v1 : FVec F S2048x3 .f32 := broadcastInDim S2048x3 ![] bcast_S_S2048x3 main_cst
  let main_v2 : IVec S2048x3 1 := cmpf .olt main_v0 main_v1
  let main_c : IVec S_ 1 := constantI S_ 1 1#1
  let main_v3 : IVec S_ 1 := (fun x v => Host.reduce IntOp.andi x v reducesTo_S2048x3_S_d0_1 h_S_) main_v2 main_c
  let main_v4 : FVec F S2048x256 .f32 := Host.absf main_arg1
  let main_cst_0 : FVec F S_ .f32 := constant S_ .f32 0x7F800000#32
  let main_v5 : FVec F S2048x256 .f32 := broadcastInDim S2048x256 ![] bcast_S_S2048x256 main_cst_0
  let main_v6 : IVec S2048x256 1 := cmpf .olt main_v4 main_v5
  let main_c_1 : IVec S_ 1 := constantI S_ 1 1#1
  let main_v7 : IVec S_ 1 := (fun x v => Host.reduce IntOp.andi x v reducesTo_S2048x256_S_d0_1 h_S_) main_v6 main_c_1
  let main_v8 : IVec S_ 1 := andi main_v3 main_v7
  let main_v9 : FVec F S2048x32768 .f32 := Host.absf main_arg3
  let main_cst_2 : FVec F S_ .f32 := constant S_ .f32 0x7F800000#32
  let main_v10 : FVec F S2048x32768 .f32 := broadcastInDim S2048x32768 ![] bcast_S_S2048x32768 main_cst_2
  let main_v11 : IVec S2048x32768 1 := cmpf .olt main_v9 main_v10
  let main_c_3 : IVec S_ 1 := constantI S_ 1 1#1
  let main_v12 : IVec S_ 1 := (fun x v => Host.reduce IntOp.andi x v reducesTo_S2048x32768_S_d0_1 h_S_) main_v11 main_c_3
  let main_v13 : IVec S_ 1 := andi main_v8 main_v12
  let main_v14 : FVec F S2048x8 .f32 := Host.absf main_arg4
  let main_cst_4 : FVec F S_ .f32 := constant S_ .f32 0x7F800000#32
  let main_v15 : FVec F S2048x8 .f32 := broadcastInDim S2048x8 ![] bcast_S_S2048x8 main_cst_4
  let main_v16 : IVec S2048x8 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S2048x3 : Shape := ⟨2, ![2048, 3]⟩
abbrev S2048x256 : Shape := ⟨2, ![2048, 256]⟩
abbrev S32768x2 : Shape := ⟨2, ![32768, 2]⟩
abbrev S2048x32768 : Shape := ⟨2, ![2048, 32768]⟩
abbrev S2048x8 : Shape := ⟨2, ![2048, 8]⟩
abbrev S32768x4 : Shape := ⟨2, ![32768, 4]⟩
abbrev S517x256 : Shape := ⟨2, ![517, 256]⟩
abbrev S256 : Shape := ⟨1, ![256]⟩
abbrev S256x256 : Shape := ⟨2, ![256, 256]⟩
abbrev S256x1 : Shape := ⟨2, ![256, 1]⟩
abbrev S520x256 : Shape := ⟨2, ![520, 256]⟩
abbrev S1 : Shape := ⟨1, ![1]⟩
abbrev S_ : Shape := ⟨0, ![]⟩
abbrev S32768x2x1 : Shape := ⟨3, ![32768, 2, 1]⟩
abbrev S32768x2x3 : Shape := ⟨3, ![32768, 2, 3]⟩
abbrev S32768x1x3 : Shape := ⟨3, ![32768, 1, 3]⟩
abbrev S32768x3 : Shape := ⟨2, ![32768, 3]⟩
abbrev S32768x2x256 : Shape := ⟨3, ![32768, 2, 256]⟩
abbrev S32768x512 : Shape := ⟨2, ![32768, 512]⟩
abbrev S32768x7 : Shape := ⟨2, ![32768, 7]⟩
abbrev S32768x259 : Shape := ⟨2, ![32768, 259]⟩
abbrev S1024x512 : Shape := ⟨2, ![1024, 512]⟩
abbrev S1024x7 : Shape := ⟨2, ![1024, 7]⟩
abbrev S1024x259 : Shape := ⟨2, ![1024, 259]⟩
abbrev S1024x3 : Shape := ⟨2, ![1024, 3]⟩
abbrev S1024x4 : Shape := ⟨2, ![1024, 4]⟩
abbrev S1024 : Shape := ⟨1, ![1024]⟩
abbrev S1024x1 : Shape := ⟨2, ![1024, 1]⟩
abbrev S1024x517 : Shape := ⟨2, ![1024, 517]⟩
abbrev S1024x256 : Shape := ⟨2, ![1024, 256]⟩
abbrev S1x256 : Shape := ⟨2, ![1, 256]⟩
abbrev S1x1 : Shape := ⟨2, ![1, 1]⟩
abbrev S2048x259 : Shape := ⟨2, ![2048, 259]⟩
abbrev S2048x1024 : Shape := ⟨2, ![2048, 1024]⟩
abbrev S2048x520 : Shape := ⟨2, ![2048, 520]⟩

abbrev nBuf : Space → Nat
  | .hbm => 50
  | .vmem => 32
  | .smem => 0
  | _ => 0

abbrev bufTy : (tb : Table) → Fin (tcTables nBuf tb) → BufTy
  | .hbm, ⟨0, _⟩ => ⟨S2048x3, .f32⟩
  | .hbm, ⟨1, _⟩ => ⟨S2048x256, .f32⟩
  | .hbm, ⟨2, _⟩ => ⟨S32768x2, .i32⟩
  | .hbm, ⟨3, _⟩ => ⟨S2048x32768, .f32⟩
  | .hbm, ⟨4, _⟩ => ⟨S2048x8, .f32⟩
  | .hbm, ⟨5, _⟩ => ⟨S32768x4, .f32⟩
  | .hbm, ⟨6, _⟩ => ⟨S517x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S517x256, .f32⟩
  | .hbm, ⟨11, _⟩ => ⟨S256, .f32⟩
  | .hbm, ⟨12, _⟩ => ⟨S256x256, .f32⟩
  | .hbm, ⟨13, _⟩ => ⟨S256, .f32⟩
  | .hbm, ⟨14, _⟩ => ⟨S256x1, .f32⟩
  | .hbm, ⟨15, _⟩ => ⟨S520x256, .f32⟩
  | .hbm, ⟨16, _⟩ => ⟨S256, .f32⟩
  | .hbm, ⟨17, _⟩ => ⟨S256x256, .f32⟩
  | .hbm, ⟨18, _⟩ => ⟨S256, .f32⟩
  | .hbm, ⟨19, _⟩ => ⟨S256x1, .f32⟩
  | .hbm, ⟨20, _⟩ => ⟨S1, .f32⟩
  | .hbm, ⟨21, _⟩ => ⟨S_, .i32⟩
  | .hbm, ⟨22, _⟩ => ⟨S32768x2, .i32⟩
  | .hbm, ⟨23, _⟩ => ⟨S32768x2, .i1⟩
  | .hbm, ⟨24, _⟩ => ⟨S_, .i32⟩
  | .hbm, ⟨25, _⟩ => ⟨S32768x2, .i32⟩
  | .hbm, ⟨26, _⟩ => ⟨S32768x2, .i32⟩
  | .hbm, ⟨27, _⟩ => ⟨S32768x2, .i32⟩
  | .hbm, ⟨28, _⟩ => ⟨S32768x2x1, .i32⟩
  | .hbm, ⟨29, _⟩ => ⟨S32768x2x3, .f32⟩
  | .hbm, ⟨30, _⟩ => ⟨S32768x1x3, .f32⟩
  | .hbm, ⟨31, _⟩ => ⟨S32768x3, .f32⟩
  | .hbm, ⟨32, _⟩ => ⟨S32768x1x3, .f32⟩
  | .hbm, ⟨33, _⟩ => ⟨S32768x3, .f32⟩
  | .hbm, ⟨34, _⟩ => ⟨S32768x3, .f32⟩
  | .hbm, ⟨35, _⟩ => ⟨S_, .i32⟩
  | .hbm, ⟨36, _⟩ => ⟨S32768x2, .i32⟩
  | .hbm, ⟨37, _⟩ => ⟨S32768x2, .i1⟩
  | .hbm, ⟨38, _⟩ => ⟨S_, .i32⟩
  | .hbm, ⟨39, _⟩ => ⟨S32768x2, .i32⟩
  | .hbm, ⟨40, _⟩ => ⟨S32768x2, .i32⟩
  | .hbm, ⟨41, _⟩ => ⟨S32768x2, .i32⟩
  | .hbm, ⟨42, _⟩ => ⟨S32768x2x1, .i32⟩
  | .hbm, ⟨43, _⟩ => ⟨S32768x2x256, .f32⟩
  | .hbm, ⟨44, _⟩ => ⟨S32768x512, .f32⟩
  | .hbm, ⟨45, _⟩ => ⟨S32768x7, .f32⟩
  | .hbm, ⟨46, _⟩ => ⟨S32768x259, .f32⟩
  | .hbm, ⟨47, _⟩ => ⟨S2048x259, .f32⟩
  | .hbm, ⟨48, _⟩ => ⟨S2048x256, .f32⟩
  | .hbm, ⟨49, _⟩ => ⟨S2048x3, .f32⟩
  | .local _ .vmem, ⟨0, _⟩ => ⟨S1024x512, .f32⟩
  | .local _ .vmem, ⟨1, _⟩ => ⟨S1024x512, .f32⟩
  | .local _ .vmem, ⟨2, _⟩ => ⟨S1024x7, .f32⟩
  | .local _ .vmem, ⟨3, _⟩ => ⟨S1024x7, .f32⟩
  | .local _ .vmem, ⟨4, _⟩ => ⟨S517x256, .f32⟩
  | .local _ .vmem, ⟨5, _⟩ => ⟨S256, .f32⟩
  | .local _ .vmem, ⟨6, _⟩ => ⟨S256x256, .f32⟩
  | .local _ .vmem, ⟨7, _⟩ => ⟨S256, .f32⟩
  | .local _ .vmem, ⟨8, _⟩ => ⟨S517x256, .f32⟩
  | .local _ .vmem, ⟨9, _⟩ => ⟨S256, .f32⟩
  | .local _ .vmem, ⟨10, _⟩ => ⟨S256x256, .f32⟩
  | .local _ .vmem, ⟨11, _⟩ => ⟨S256, .f32⟩
  | .local _ .vmem, ⟨12, _⟩ => ⟨S256x1, .f32⟩
  | .local _ .vmem, ⟨13, _⟩ => ⟨S256x1, .f32⟩
  | .local _ .vmem, ⟨14, _⟩ => ⟨S1, .f32⟩
  | .local _ .vmem, ⟨15, _⟩ => ⟨S1024x259, .f32⟩
  | .local _ .vmem, ⟨16, _⟩ => ⟨S1024x259, .f32⟩
  | .local _ .vmem, ⟨17, _⟩ => ⟨S2048x1024, .f32⟩
  | .local _ .vmem, ⟨18, _⟩ => ⟨S2048x1024, .f32⟩
  | .local _ .vmem, ⟨19, _⟩ => ⟨S1024x259, .f32⟩
  | .local _ .vmem, ⟨20, _⟩ => ⟨S1024x259, .f32⟩
  | .local _ .vmem, ⟨21, _⟩ => ⟨S2048x259, .f32⟩
  | .local _ .vmem, ⟨22, _⟩ => ⟨S2048x256, .f32⟩
  | .local _ .vmem, ⟨23, _⟩ => ⟨S2048x259, .f32⟩
  | .local _ .vmem, ⟨24, _⟩ => ⟨S2048x8, .f32⟩
  | .local _ .vmem, ⟨25, _⟩ => ⟨S2048x3, .f32⟩
  | .local _ .vmem, ⟨26, _⟩ => ⟨S520x256, .f32⟩
  | .local _ .vmem, ⟨27, _⟩ => ⟨S256, .f32⟩
  | .local _ .vmem, ⟨28, _⟩ => ⟨S256x256, .f32⟩
  | .local _ .vmem, ⟨29, _⟩ => ⟨S256, .f32⟩
  | .local _ .vmem, ⟨30, _⟩ => ⟨S2048x256, .f32⟩
  | .local _ .vmem, ⟨31, _⟩ => ⟨S2048x3, .f32⟩
  | _, _ => ⟨S2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_c_1 : Ref sig .tc := ⟨.hbm, 35, rfl⟩
abbrev main_v12 : Ref sig .tc := ⟨.hbm, 36, rfl⟩
abbrev main_v13 : Ref sig .tc := ⟨.hbm, 37, rfl⟩
abbrev main_c_2 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23_0 : Ref sig .tc := ⟨.hbm, 48, rfl⟩
abbrev main_v23_1 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg8_0 : Ref sig .tc := ⟨.vmem, 30, rfl⟩
abbrev cc2_stg9_0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S517x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S517x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x259 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S2048x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x259 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2048x259 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2048x256 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S2048x259 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S2048x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S2048x3 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S520x256 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S2048x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S2048x3 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

class Facts₀ : Prop where
  bcast_S_S32768x2 : S_.BroadcastsInDim S32768x2 (![] : Fin 0 → Fin S32768x2.rank)
  bcast_S32768x2_S32768x2x1_0_1 : S32768x2.BroadcastsInDim S32768x2x1 (![0, 1] : Fin 2 → Fin S32768x2x1.rank)
  slices_S32768x2x3_S32768x1x3_0_0_0 : S32768x2x3.Slices ![0, 0, 0] S32768x1x3
  shapeCasts_S32768x1x3_S32768x3 : S32768x1x3.ShapeCasts S32768x3
  slices_S32768x2x3_S32768x1x3_0_1_0 : S32768x2x3.Slices ![0, 1, 0] S32768x1x3
  shapeCasts_S32768x2x256_S32768x512 : S32768x2x256.ShapeCasts S32768x512
  concatenates_S32768x3_S32768x4_S32768x7_d1 : Shape.Concatenates [S32768x3, S32768x4] S32768x7 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x7_S1024x7_0_0 : ∀ a, (![0, 0] : Fin 2 → Nat) a + S1024x7.size a ≤ S1024x7.size a
  h_S1024x7 : 0 < S1024x7.numel
  shapeCasts_S1024x7_S1024x7 : S1024x7.ShapeCasts S1024x7
  slices_S1024x7_o0_0_S1024x3 : S1024x7.Slices ![0, 0] S1024x3
  slices_S1024x7_o0_3_S1024x4 : S1024x7.Slices ![0, 3] S1024x4
  reduces_S1024x3_S1024 : S1024x3.Reduces [1] S1024
  shapeCasts_S1024_S1024x1 : S1024.ShapeCasts S1024x1
  concatenates_S1024x512_S1024x1_S1024x4_S1024x517_d1 : Shape.Concatenates [S1024x512, S1024x1, S1024x4] S1024x517 1
  inb_S517x256_S517x256_0_0 : ∀ a, (![0, 0] : Fin 2 → Nat) a + S517x256.size a ≤ S517x256.size a
  h_S517x256 : 0 < S517x256.numel
  inb_S256_S256_0 : ∀ a, (![0] : Fin 1 → Nat) a + S256.size a ≤ S256.size a
  h_S256 : 0 < S256.numel
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S1_S1_0 : ∀ a, (![0] : Fin 1 → Nat) a + S1.size a ≤ S1.size a
  h_S1 : 0 < S1.numel
  bitsLt_bf16_f32 : FTy.bits .bf16 < FTy.bits .f32
  shapeCasts_S256_S1x256 : S256.ShapeCasts S1x256
  broadcasts_S1x256_S1024x256 : S1x256.Broadcasts S1024x256
  shapeCasts_S1_S1x1 : S1.ShapeCasts S1x1
  broadcasts_S1x1_S1024x1 : S1x1.Broadcasts S1024x1
  broadcasts_S1024x1_S1024x256 : S1024x1.Broadcasts S1024x256
  broadcasts_S1024x1_S1024x3 : S1024x1.Broadcasts S1024x3
  concatenates_S1024x256_S1024x3_S1024x259_d1 : Shape.Concatenates [S1024x256, S1024x3] S1024x259 1
  inb_S1024x259_S1024x259_0_0 : ∀ a, (![0, 0] : Fin 2 → Nat) a + S1024x259.size a ≤ S1024x259.size a
  h_S1024x259 : 0 < S1024x259.numel
  inb_S2048x259_S2048x259_0_0 : ∀ a, (![0, 0] : Fin 2 → Nat) a + S2048x259.size a ≤ S2048x259.size a
  h_S2048x259 : 0 < S2048x259.numel
  inb_S2048x1024_S2048x1024_0_0 : ∀ a, (![0, 0] : Fin 2 → Nat) a + S2048x1024.size a ≤ S2048x1024.size a
  h_S2048x1024 : 0 < S2048x1024.numel
  shapeCasts_S1024x259_S1024x259 : S1024x259.ShapeCasts S1024x259
  shapeCasts_S2048x259_S2048x259 : S2048x259.ShapeCasts S2048x259
  inb_S2048x256_S2048x256_0_0 : ∀ a, (![0, 0] : Fin 2 → Nat) a + S2048x256.size a ≤ S2048x256.size a
  h_S2048x256 : 0 < S2048x256.numel
  inb_S2048x8_S2048x8_0_0 : ∀ a, (![0, 0] : Fin 2 → Nat) a + S2048x8.size a ≤ S2048x8.size a
  h_S2048x8 : 0 < S2048x8.numel
  inb_S2048x3_S2048x3_0_0 : ∀ a, (![0, 0] : Fin 2 → Nat) a + S2048x3.size a ≤ S2048x3.size a
  h_S2048x3 : 0 < S2048x3.numel
  slices_S2048x259_o0_0_S2048x256 : S2048x259.Slices ![0, 0] S2048x256
  slices_S2048x259_o0_256_S2048x3 : S2048x259.Slices ![0, 256] S2048x3
  concatenates_S2048x256_S2048x256_S2048x8_S2048x520_d1 : Shape.Concatenates [S2048x256, S2048x256, S2048x8] S2048x520 1
  inb_S520x256_S520x256_0_0 : ∀ a, (![0, 0] : Fin 2 → Nat) a + S520x256.size a ≤ S520x256.size a
  h_S520x256 : 0 < S520x256.numel
  broadcasts_S1x256_S2048x256 : S1x256.Broadcasts S2048x256
  gather_S2048x3_S32768x2x1_S32768x2x3_2_0_n_n_0_2_13_wf : GatherDims.WF S2048x3 S32768x2x1 S32768x2x3 [2] [0] [] [0] [] 2 ![1, 3]
  gather_S2048x256_S32768x2x1_S32768x2x256_2_0_n_n_0_2_1256_wf : GatherDims.WF S2048x256 S32768x2x1 S32768x2x256 [2] [0] [] [0] [] 2 ![1, 256]
  dot_S1024x517_S517x256_S1024x256_1_0_0_1_n_n_wf : DotDims.WF S1024x517 S517x256 S1024x256 [1] [0] [0] [1] [] []
  dot_S1024x256_S256x256_S1024x256_1_0_0_1_n_n_wf : DotDims.WF S1024x256 S256x256 S1024x256 [1] [0] [0] [1] [] []
  dot_S1024x256_S256x1_S1024x1_1_0_0_1_n_n_wf : DotDims.WF S1024x256 S256x1 S1024x1 [1] [0] [0] [1] [] []
  dot_S2048x1024_S1024x259_S2048x259_1_0_0_1_n_n_wf : DotDims.WF S2048x1024 S1024x259 S2048x259 [1] [0] [0] [1] [] []
  dot_S2048x520_S520x256_S2048x256_1_0_0_1_n_n_wf : DotDims.WF S2048x520 S520x256 S2048x256 [1] [0] [0] [1] [] []
  dot_S2048x256_S256x256_S2048x256_1_0_0_1_n_n_wf : DotDims.WF S2048x256 S256x256 S2048x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x7.size a ≤ S32768x7.size a
  hwx0_1 : ∀ i : grid0.Coords, EltTy.bits .f32 = 32 ∨ (Rect.block (s := S32768x7) S1024x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S517x256.size a ≤ S517x256.size a
  hwx0_2 : ∀ i : grid0.Coords, EltTy.bits .f32 = 32 ∨ (Rect.block (s := S517x256) S517x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S517x256.size a ≤ S517x256.size a
  hwx0_6 : ∀ i : grid0.Coords, EltTy.bits .f32 = 32 ∨ (Rect.block (s := S517x256) S517x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256.size a ≤ S256.size a
  hwx0_7 : ∀ i : grid0.Coords, EltTy.bits .f32 = 32 ∨ (Rect.block (s := S256) S256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S256.size a ≤ S256.size a
  hwx0_9 : ∀ i : grid0.Coords, EltTy.bits .f32 = 32 ∨ (Rect.block (s := S256) S256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x1.size a ≤ S256x1.size a
  hwx0_10 : ∀ i : grid0.Coords, EltTy.bits .f32 = 32 ∨ (Rect.block (s := S256x1) S256x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x1.size a ≤ S256x1.size a
  hwx0_11 : ∀ i : grid0.Coords, EltTy.bits .f32 = 32 ∨ (Rect.block (s := S256x1) S256x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1.size a ≤ S1.size a
  hwx0_12 : ∀ i : grid0.Coords, EltTy.bits .f32 = 32 ∨ (Rect.block (s := S1) S1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1024x259.size a ≤ S32768x259.size a
  hwx0_13 : ∀ i : grid0.Coords, EltTy.bits .f32 = 32 ∨ (Rect.block (s := S32768x259) S1024x259.size (cc0_transform_13 i) (hinb0_13 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x1024.size a ≤ S2048x32768.size a
  hwx1_0 : ∀ i : grid1.Coords, EltTy.bits .f32 = 32 ∨ (Rect.block (s := S2048x32768) S2048x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x259.size a ≤ S32768x259.size a
  hwx1_1 : ∀ i : grid1.Coords, EltTy.bits .f32 = 32 ∨ (Rect.block (s := S32768x259) S1024x259.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2048x259.size a ≤ S2048x259.size a
  hwx1_2 : ∀ i : grid1.Coords, EltTy.bits .f32 = 32 ∨ (Rect.block (s := S2048x259) S2048x259.size (cc1_transform_2 i) (hinb1_2 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2048x256.size a ≤ S2048x256.size a
  hwx2_0 : ∀ i : grid2.Coords, EltTy.bits .f32 = 32 ∨ (Rect.block (s := S2048x256) S2048x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S2048x259.size a ≤ S2048x259.size a
  hwx2_1 : ∀ i : grid2.Coords, EltTy.bits .f32 = 32 ∨ (Rect.block (s := S2048x259) S2048x259.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S2048x8.size a ≤ S2048x8.size a
  hwx2_2 : ∀ i : grid2.Coords, EltTy.bits .f32 = 32 ∨ (Rect.block (s := S2048x8) S2048x8.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S2048x3.size a ≤ S2048x3.size a
  hwx2_3 : ∀ i : grid2.Coords, EltTy.bits .f32 = 32 ∨ (Rect.block (s := S2048x3) S2048x3.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S520x256.size a ≤ S520x256.size a
  hwx2_4 : ∀ i : grid2.Coords, EltTy.bits .f32 = 32 ∨ (Rect.block (s := S520x256) S520x256.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256.size a ≤ S256.size a
  hwx2_5 : ∀ i : grid2.Coords, EltTy.bits .f32 = 32 ∨ (Rect.block (s := S256) S256.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S256x256.size a ≤ S256x256.size a
  hwx2_6 : ∀ i : grid2.Coords, EltTy.bits .f32 = 32 ∨ (Rect.block (s := S256x256) S256x256.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S256.size a ≤ S256.size a
  hwx2_7 : ∀ i : grid2.Coords, EltTy.bits .f32 = 32 ∨ (Rect.block (s := S256) S256.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S2048x256.size a ≤ S2048x256.size a
  hwx2_8 : ∀ i : grid2.Coords, EltTy.bits .f32 = 32 ∨ (Rect.block (s := S2048x256) S2048x256.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S2048x3.size a ≤ S2048x3.size a
  hwx2_9 : ∀ i : grid2.Coords, EltTy.bits .f32 = 32 ∨ (Rect.block (s := S2048x3) S2048x3.size (cc2_transform_9 i) (hinb2_9 i)).WholeWords (EltTy.packing .f32)

variable [Facts₀]

def gather_S2048x3_S32768x2x1_S32768x2x3_2_0_n_n_0_2_13 : GatherDims S2048x3 S32768x2x1 S32768x2x3 where
  offsetDims := [2]
  collapsedSliceDims := [0]
  operandBatchingDims := []
  startIndicesBatchingDims := []
  startIndexMap := [0]
  indexVectorDim := 2
  sliceSizes := ![1, 3]
  wf := gather_S2048x3_S32768x2x1_S32768x2x3_2_0_n_n_0_2_13_wf
def gather_S2048x256_S32768x2x1_S32768x2x256_2_0_n_n_0_2_1256 : GatherDims S2048x256 S32768x2x1 S32768x2x256 where
  offsetDims := [2]
  collapsedSliceDims := [0]
  operandBatchingDims := []
  startIndicesBatchingDims := []
  startIndexMap := [0]
  indexVectorDim := 2
  sliceSizes := ![1, 256]
  wf := gather_S2048x256_S32768x2x1_S32768x2x256_2_0_n_n_0_2_1256_wf
def dot_S1024x517_S517x256_S1024x256_1_0_0_1_n_n : DotDims S1024x517 S517x256 S1024x256 where
  lhsContracting := [1]
  rhsContracting := [0]
  lhsNonContracting := [0]
  rhsNonContracting := [1]
  lhsBatch := []
  rhsBatch := []
  wf := dot_S1024x517_S517x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x1_S1024x1_1_0_0_1_n_n : DotDims S1024x256 S256x1 S1024x1 where
  lhsContracting := [1]
  rhsContracting := [0]
  lhsNonContracting := [0]
  rhsNonContracting := [1]
  lhsBatch := []
  rhsBatch := []
  wf := dot_S1024x256_S256x1_S1024x1_1_0_0_1_n_n_wf
def dot_S2048x1024_S1024x259_S2048x259_1_0_0_1_n_n : DotDims S2048x1024 S1024x259 S2048x259 where
  lhsContracting := [1]
  rhsContracting := [0]
  lhsNonContracting := [0]
  rhsNonContracting := [1]
  lhsBatch := []
  rhsBatch := []
  wf := dot_S2048x1024_S1024x259_S2048x259_1_0_0_1_n_n_wf
def dot_S2048x520_S520x256_S2048x256_1_0_0_1_n_n : DotDims S2048x520 S520x256 S2048x256 where
  lhsContracting := [1]
  rhsContracting := [0]
  lhsNonContracting := [0]
  rhsNonContracting := [1]
  lhsBatch := []
  rhsBatch := []
  wf := dot_S2048x520_S520x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf

abbrev win0_0 : Pipeline.Window sig grid0 :=
  Pipeline.Window.ofSpec (Memref.whole main_v19) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v20) S1024x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S517x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S517x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg11) S256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg12) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg13) S256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg14) S256x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg19) S256x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg20) S1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v21) S1024x259.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev win1_0 : Pipeline.Window sig grid1 :=
  Pipeline.Window.ofSpec (Memref.whole main_arg3) S2048x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S1024x259.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v22) S2048x259.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg1) S2048x256.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_v22) S2048x259.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S2048x8.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg0) S2048x3.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg15) S520x256.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg16) S256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg17) S256x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg18) S256.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v23_0) S2048x256.size cc2_transform_8 reads2_8 true true 1 stage2_8 sem2_8
    hrank2 hreads2_8 hinb2_8 nbuf2_8 (Memref.isWhole_whole _) hwx2_8 hstage2_8

abbrev win2_9 : Pipeline.Window sig grid2 :=
  Pipeline.Window.ofSpec (Memref.whole main_v23_1) S2048x3.size cc2_transform_9 reads2_9 true true 1 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S2048x3 : Shape := ⟨2, ![2048, 3]⟩
abbrev S2048x256 : Shape := ⟨2, ![2048, 256]⟩
abbrev S32768x2 : Shape := ⟨2, ![32768, 2]⟩
abbrev S2048x32768 : Shape := ⟨2, ![2048, 32768]⟩
abbrev S2048x8 : Shape := ⟨2, ![2048, 8]⟩
abbrev S32768x4 : Shape := ⟨2, ![32768, 4]⟩
abbrev S517x256 : Shape := ⟨2, ![517, 256]⟩
abbrev S256 : Shape := ⟨1, ![256]⟩
abbrev S256x256 : Shape := ⟨2, ![256, 256]⟩
abbrev S256x1 : Shape := ⟨2, ![256, 1]⟩
abbrev S520x256 : Shape := ⟨2, ![520, 256]⟩
abbrev S1 : Shape := ⟨1, ![1]⟩
abbrev S_ : Shape := ⟨0, ![]⟩
abbrev S32768x2x1 : Shape := ⟨3, ![32768, 2, 1]⟩
abbrev S32768x2x3 : Shape := ⟨3, ![32768, 2, 3]⟩
abbrev S32768x2x256 : Shape := ⟨3, ![32768, 2, 256]⟩
abbrev S32768x512 : Shape := ⟨2, ![32768, 512]⟩
abbrev S32768x1x3 : Shape := ⟨3, ![32768, 1, 3]⟩
abbrev S32768x3 : Shape := ⟨2, ![32768, 3]⟩
abbrev S32768 : Shape := ⟨1, ![32768]⟩
abbrev S32768x1 : Shape := ⟨2, ![32768, 1]⟩
abbrev S32768x517 : Shape := ⟨2, ![32768, 517]⟩
abbrev S32768x256 : Shape := ⟨2, ![32768, 256]⟩
abbrev S1x256 : Shape := ⟨2, ![1, 256]⟩
abbrev S1x1 : Shape := ⟨2, ![1, 1]⟩
abbrev S2048x520 : Shape := ⟨2, ![2048, 520]⟩

abbrev nBuf : Space → Nat
  | .hbm => 155
  | .vmem => 0
  | .smem => 0
  | _ => 0

abbrev hbmTy0_0 (i : Nat) : BufTy := match i % 128 with
  | 0 => ⟨S2048x3, .f32⟩
  | 1 => ⟨S2048x256, .f32⟩
  | 2 => ⟨S32768x2, .i32⟩
  | 3 => ⟨S2048x32768, .f32⟩
  | 4 => ⟨S2048x8, .f32⟩
  | 5 => ⟨S32768x4, .f32⟩
  | 6 => ⟨S517x256, .f32⟩
  | 7 => ⟨S256, .f32⟩
  | 8 => ⟨S256x256, .f32⟩
  | 9 => ⟨S256, .f32⟩
  | 10 => ⟨S517x256, .f32⟩
  | 11 => ⟨S256, .f32⟩
  | 12 => ⟨S256x256, .f32⟩
  | 13 => ⟨S256, .f32⟩
  | 14 => ⟨S256x1, .f32⟩
  | 15 => ⟨S520x256, .f32⟩
  | 16 => ⟨S256, .f32⟩
  | 17 => ⟨S256x256, .f32⟩
  | 18 => ⟨S256, .f32⟩
  | 19 => ⟨S256x1, .f32⟩
  | 20 => ⟨S1, .f32⟩
  | 21 => ⟨S_, .i32⟩
  | 22 => ⟨S32768x2, .i32⟩
  | 23 => ⟨S32768x2, .i1⟩
  | 24 => ⟨S_, .i32⟩
  | 25 => ⟨S32768x2, .i32⟩
  | 26 => ⟨S32768x2, .i32⟩
  | 27 => ⟨S32768x2, .i32⟩
  | 28 => ⟨S32768x2x1, .i32⟩
  | 29 => ⟨S32768x2x3, .f32⟩
  | 30 => ⟨S_, .i32⟩
  | 31 => ⟨S32768x2, .i32⟩
  | 32 => ⟨S32768x2, .i1⟩
  | 33 => ⟨S_, .i32⟩
  | 34 => ⟨S32768x2, .i32⟩
  | 35 => ⟨S32768x2, .i32⟩
  | 36 => ⟨S32768x2, .i32⟩
  | 37 => ⟨S32768x2x1, .i32⟩
  | 38 => ⟨S32768x2x256, .f32⟩
  | 39 => ⟨S32768x512, .f32⟩
  | 40 => ⟨S32768x1x3, .f32⟩
  | 41 => ⟨S32768x3, .f32⟩
  | 42 => ⟨S32768x1x3, .f32⟩
  | 43 => ⟨S32768x3, .f32⟩
  | 44 => ⟨S32768x3, .f32⟩
  | 45 => ⟨S32768x3, .f32⟩
  | 46 => ⟨S_, .f32⟩
  | 47 => ⟨S32768, .f32⟩
  | 48 => ⟨S32768x1, .f32⟩
  | 49 => ⟨S32768x1, .f32⟩
  | 50 => ⟨S32768x1, .f32⟩
  | 51 => ⟨S32768x517, .f32⟩
  | 52 => ⟨S32768x256, .f32⟩
  | 53 => ⟨S1x256, .f32⟩
  | 54 => ⟨S32768x256, .f32⟩
  | 55 => ⟨S32768x256, .f32⟩
  | 56 => ⟨S32768x256, .f32⟩
  | 57 => ⟨S32768x256, .f32⟩
  | 58 => ⟨S_, .f32⟩
  | 59 => ⟨S32768x256, .f32⟩
  | 60 => ⟨S32768x256, .f32⟩
  | 61 => ⟨S_, .f32⟩
  | 62 => ⟨S32768x256, .f32⟩
  | 63 => ⟨S32768x256, .f32⟩
  | 64 => ⟨S32768x256, .f32⟩
  | 65 => ⟨S32768x256, .f32⟩
  | 66 => ⟨S1x256, .f32⟩
  | 67 => ⟨S32768x256, .f32⟩
  | 68 => ⟨S32768x256, .f32⟩
  | 69 => ⟨S32768x256, .f32⟩
  | 70 => ⟨S32768x256, .f32⟩
  | 71 => ⟨S_, .f32⟩
  | 72 => ⟨S32768x256, .f32⟩
  | 73 => ⟨S32768x256, .f32⟩
  | 74 => ⟨S_, .f32⟩
  | 75 => ⟨S32768x256, .f32⟩
  | 76 => ⟨S32768x256, .f32⟩
  | 77 => ⟨S32768x256, .f32⟩
  | 78 => ⟨S32768x256, .f32⟩
  | 79 => ⟨S1x256, .f32⟩
  | 80 => ⟨S32768x256, .f32⟩
  | 81 => ⟨S32768x256, .f32⟩
  | 82 => ⟨S32768x256, .f32⟩
  | 83 => ⟨S32768x256, .f32⟩
  | 84 => ⟨S_, .f32⟩
  | 85 => ⟨S32768x256, .f32⟩
  | 86 => ⟨S32768x256, .f32⟩
  | 87 => ⟨S_, .f32⟩
  | 88 => ⟨S32768x256, .f32⟩
  | 89 => ⟨S32768x256, .f32⟩
  | 90 => ⟨S32768x256, .f32⟩
  | 91 => ⟨S32768x256, .f32⟩
  | 92 => ⟨S1x256, .f32⟩
  | 93 => ⟨S32768x256, .f32⟩
  | 94 => ⟨S32768x256, .f32⟩
  | 95 => ⟨S32768x256, .f32⟩
  | 96 => ⟨S32768x256, .f32⟩
  | 97 => ⟨S_, .f32⟩
  | 98 => ⟨S32768x256, .f32⟩
  | 99 => ⟨S32768x256, .f32⟩
  | 100 => ⟨S_, .f32⟩
  | 101 => ⟨S32768x256, .f32⟩
  | 102 => ⟨S32768x256, .f32⟩
  | 103 => ⟨S32768x256, .f32⟩
  | 104 => ⟨S32768x1, .f32⟩
  | 105 => ⟨S32768x1, .f32⟩
  | 106 => ⟨S1x1, .f32⟩
  | 107 => ⟨S32768x1, .f32⟩
  | 108 => ⟨S32768x1, .f32⟩
  | 109 => ⟨S32768x1, .f32⟩
  | 110 => ⟨S32768x1, .f32⟩
  | 111 => ⟨S_, .f32⟩
  | 112 => ⟨S32768x1, .f32⟩
  | 113 => ⟨S32768x1, .f32⟩
  | 114 => ⟨S_, .f32⟩
  | 115 => ⟨S32768x1, .f32⟩
  | 116 => ⟨S32768x1, .f32⟩
  | 117 => ⟨S32768x256, .f32⟩
  | 118 => ⟨S32768x256, .f32⟩
  | 119 => ⟨S2048x256, .f32⟩
  | 120 => ⟨S2048x520, .f32⟩
  | 121 => ⟨S2048x256, .f32⟩
  | 122 => ⟨S1x256, .f32⟩
  | 123 => ⟨S2048x256, .f32⟩
  | 124 => ⟨S2048x256, .f32⟩
  | 125 => ⟨S2048x256, .f32⟩
  | 126 => ⟨S2048x256, .f32⟩
  | 127 => ⟨S_, .f32⟩
  | _ => ⟨S2048x3, .f32⟩

abbrev hbmTy0_1 (i : Nat) : BufTy := match i % 128 with
  | 0 => ⟨S2048x256, .f32⟩
  | 1 => ⟨S2048x256, .f32⟩
  | 2 => ⟨S_, .f32⟩
  | 3 => ⟨S2048x256, .f32⟩
  | 4 => ⟨S2048x256, .f32⟩
  | 5 => ⟨S2048x256, .f32⟩
  | 6 => ⟨S2048x256, .f32⟩
  | 7 => ⟨S1x256, .f32⟩
  | 8 => ⟨S2048x256, .f32⟩
  | 9 => ⟨S2048x256, .f32⟩
  | 10 => ⟨S2048x256, .f32⟩
  | 11 => ⟨S32768x1, .f32⟩
  | 12 => ⟨S_, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S_, .f32⟩
  | 19 => ⟨S32768x1, .f32⟩
  | 20 => ⟨S32768x1, .f32⟩
  | 21 => ⟨S32768x3, .f32⟩
  | 22 => ⟨S32768x3, .f32⟩
  | 23 => ⟨S32768x3, .f32⟩
  | 24 => ⟨S32768x3, .f32⟩
  | 25 => ⟨S2048x3, .f32⟩
  | 26 => ⟨S2048x3, .f32⟩
  | _ => ⟨S2048x3, .f32⟩

abbrev hbmTy (i : Nat) : BufTy := match i / 128 with
  | 0 => hbmTy0_0 i
  | 1 => hbmTy0_1 i
  | _ => ⟨S2048x3, .f32⟩

abbrev bufTy : (tb : Table) → Fin (tcTables nBuf tb) → BufTy
  | .hbm, ⟨i, _⟩ => hbmTy i
  | _, _ => ⟨S2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_c : Ref sig .tc := ⟨.hbm, 21, rfl⟩
abbrev main_v0 : Ref sig .tc := ⟨.hbm, 22, rfl⟩
abbrev main_v1 : Ref sig .tc := ⟨.hbm, 23, rfl⟩
abbrev main_c_0 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_c_1 : Ref sig .tc := ⟨.hbm, 30, rfl⟩
abbrev main_v7 : Ref sig .tc := ⟨.hbm, 31, rfl⟩
abbrev main_v8 : Ref sig .tc := ⟨.hbm, 32, rfl⟩
abbrev main_c_2 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_call0_v0 : Ref sig .tc := ⟨.hbm, 45, rfl⟩
abbrev main_call0_cst : Ref sig .tc := ⟨.hbm, 46, rfl⟩
abbrev main_call0_v1 : Ref sig .tc := ⟨.hbm, 47, rfl⟩
abbrev main_call0_v2 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_call2_v0 : Ref sig .tc := ⟨.hbm, 69, rfl⟩
abbrev main_call2_v1 : Ref sig .tc := ⟨.hbm, 70, rfl⟩
abbrev main_call2_cst : Ref sig .tc := ⟨.hbm, 71, rfl⟩
abbrev main_call2_v2 : Ref sig .tc := ⟨.hbm, 72, rfl⟩
abbrev main_call2_v3 : Ref sig .tc := ⟨.hbm, 73, rfl⟩
abbrev main_call2_cst_0 : Ref sig .tc := ⟨.hbm, 74, rfl⟩
abbrev main_call2_v4 : Ref sig .tc := ⟨.hbm, 75, rfl⟩
abbrev main_call2_v5 : Ref sig .tc := ⟨.hbm, 76, rfl⟩
abbrev main_v32 : Ref sig .tc := ⟨.hbm, 77, rfl⟩
abbrev main_v33 : Ref sig .tc := ⟨.hbm, 78, rfl⟩
abbrev main_v34 : Ref sig .tc := ⟨.hbm, 79, rfl⟩
abbrev main_v35 : Ref sig .tc := ⟨.hbm, 80, rfl⟩
abbrev main_v36 : Ref sig .tc := ⟨.hbm, 81, rfl⟩
abbrev main_call3_v0 : Ref sig .tc := ⟨.hbm, 82, rfl⟩
abbrev main_call3_v1 : Ref sig .tc := ⟨.hbm, 83, rfl⟩
abbrev main_call3_cst : Ref sig .tc := ⟨.hbm, 84, rfl⟩
abbrev main_call3_v2 : Ref sig .tc := ⟨.hbm, 85, rfl⟩
abbrev main_call3_v3 : Ref sig .tc := ⟨.hbm, 86, rfl⟩
abbrev main_call3_cst_0 : Ref sig .tc := ⟨.hbm, 87, rfl⟩
abbrev main_call3_v4 : Ref sig .tc := ⟨.hbm, 88, rfl⟩
abbrev main_call3_v5 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_call4_v0 : Ref sig .tc := ⟨.hbm, 95, rfl⟩
abbrev main_call4_v1 : Ref sig .tc := ⟨.hbm, 96, rfl⟩
abbrev main_call4_cst : Ref sig .tc := ⟨.hbm, 97, rfl⟩
abbrev main_call4_v2 : Ref sig .tc := ⟨.hbm, 98, rfl⟩
abbrev main_call4_v3 : Ref sig .tc := ⟨.hbm, 99, rfl⟩
abbrev main_call4_cst_0 : Ref sig .tc := ⟨.hbm, 100, rfl⟩
abbrev main_call4_v4 : Ref sig .tc := ⟨.hbm, 101, rfl⟩
abbrev main_call4_v5 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_cst : Ref sig .tc := ⟨.hbm, 111, rfl⟩
abbrev main_v50 : Ref sig .tc := ⟨.hbm, 112, rfl⟩
abbrev main_v51 : Ref sig .tc := ⟨.hbm, 113, rfl⟩
abbrev main_cst_3 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_v58 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_call5_v0 : Ref sig .tc := ⟨.hbm, 125, rfl⟩
abbrev main_call5_v1 : Ref sig .tc := ⟨.hbm, 126, rfl⟩
abbrev main_call5_cst : Ref sig .tc := ⟨.hbm, 127, rfl⟩
abbrev main_call5_v2 : Ref sig .tc := ⟨.hbm, 128, rfl⟩
abbrev main_call5_v3 : Ref sig .tc := ⟨.hbm, 129, rfl⟩
abbrev main_call5_cst_0 : Ref sig .tc := ⟨.hbm, 130, rfl⟩
abbrev main_call5_v4 : Ref sig .tc := ⟨.hbm, 131, rfl⟩
abbrev main_call5_v5 : Ref sig .tc := ⟨.hbm, 132, rfl⟩
abbrev main_v62 : Ref sig .tc := ⟨.hbm, 133, rfl⟩
abbrev main_v63 : Ref sig .tc := ⟨.hbm, 134, rfl⟩
abbrev main_v64 : Ref sig .tc := ⟨.hbm, 135, rfl⟩
abbrev main_v65 : Ref sig .tc := ⟨.hbm, 136, rfl⟩
abbrev main_v66 : Ref sig .tc := ⟨.hbm, 137, rfl⟩
abbrev main_v67 : Ref sig .tc := ⟨.hbm, 138, rfl⟩
abbrev main_v68 : Ref sig .tc := ⟨.hbm, 139, rfl⟩
abbrev main_cst_4 : Ref sig .tc := ⟨.hbm, 140, rfl⟩
abbrev main_v69 : Ref sig .tc := ⟨.hbm, 141, rfl⟩
abbrev main_v70 : Ref sig .tc := ⟨.hbm, 142, rfl⟩
abbrev main_cst_5 : Ref sig .tc := ⟨.hbm, 143, rfl⟩
abbrev main_v71 : Ref sig .tc := ⟨.hbm, 144, rfl⟩
abbrev main_v72 : Ref sig .tc := ⟨.hbm, 145, rfl⟩
abbrev main_cst_6 : Ref sig .tc := ⟨.hbm, 146, rfl⟩
abbrev main_v73 : Ref sig .tc := ⟨.hbm, 147, rfl⟩
abbrev main_v74 : Ref sig .tc := ⟨.hbm, 148, rfl⟩
abbrev main_v75 : Ref sig .tc := ⟨.hbm, 149, rfl⟩
abbrev main_v76 : Ref sig .tc := ⟨.hbm, 150, rfl⟩
abbrev main_v77 : Ref sig .tc := ⟨.hbm, 151, rfl⟩
abbrev main_v78 : Ref sig .tc := ⟨.hbm, 152, rfl⟩
abbrev main_v79 : Ref sig .tc := ⟨.hbm, 153, rfl⟩
abbrev main_v80 : Ref sig .tc := ⟨.hbm, 154, rfl⟩

abbrev nD : Nat := 1
abbrev τ : Topo := Topo.v7x

variable {F : FTy → Type} [FloatOps F]

class Facts₀ : Prop where
  bcast_S_S32768x2 : S_.BroadcastsInDim S32768x2 (![] : Fin 0 → Fin S32768x2.rank)
  bcast_S32768x2_S32768x2x1_0_1 : S32768x2.BroadcastsInDim S32768x2x1 (![0, 1] : Fin 2 → Fin S32768x2x1.rank)
  shapeCasts_S32768x2x256_S32768x512 : S32768x2x256.ShapeCasts S32768x512
  slices_S32768x2x3_S32768x1x3_0_0_0 : S32768x2x3.Slices ![0, 0, 0] S32768x1x3
  shapeCasts_S32768x1x3_S32768x3 : S32768x1x3.ShapeCasts S32768x3
  slices_S32768x2x3_S32768x1x3_0_1_0 : S32768x2x3.Slices ![0, 1, 0] S32768x1x3
  reducesTo_S32768x3_S32768_d1 : S32768x3.ReducesTo [1] S32768
  h_S_ : 0 < S_.numel
  bcast_S32768_S32768x1_0 : S32768.BroadcastsInDim S32768x1 (![0] : Fin 1 → Fin S32768x1.rank)
  concatenates_S32768x512_S32768x1_S32768x4_S32768x517_d1 : Shape.Concatenates [S32768x512, S32768x1, S32768x4] S32768x517 1
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  bcast_S_S32768x1 : S_.BroadcastsInDim S32768x1 (![] : Fin 0 → Fin S32768x1.rank)
  bcast_S32768x1_S32768x256_0_1 : S32768x1.BroadcastsInDim S32768x256 (![0, 1] : Fin 2 → Fin S32768x256.rank)
  concatenates_S2048x256_S2048x256_S2048x8_S2048x520_d1 : Shape.Concatenates [S2048x256, S2048x256, S2048x8] S2048x520 1
  bcast_S1x256_S2048x256_0_1 : S1x256.BroadcastsInDim S2048x256 (![0, 1] : Fin 2 → Fin S2048x256.rank)
  bcast_S_S2048x256 : S_.BroadcastsInDim S2048x256 (![] : Fin 0 → Fin S2048x256.rank)
  bcast_S32768x1_S32768x3_0_1 : S32768x1.BroadcastsInDim S32768x3 (![0, 1] : Fin 2 → Fin S32768x3.rank)
  gather_S2048x3_S32768x2x1_S32768x2x3_2_0_n_n_0_2_13_wf : GatherDims.WF S2048x3 S32768x2x1 S32768x2x3 [2] [0] [] [0] [] 2 ![1, 3]
  gather_S2048x256_S32768x2x1_S32768x2x256_2_0_n_n_0_2_1256_wf : GatherDims.WF S2048x256 S32768x2x1 S32768x2x256 [2] [0] [] [0] [] 2 ![1, 256]
  dot_S32768x517_S517x256_S32768x256_1_0_0_1_n_n_wf : DotDims.WF S32768x517 S517x256 S32768x256 [1] [0] [0] [1] [] []
  dot_S32768x256_S256x256_S32768x256_1_0_0_1_n_n_wf : DotDims.WF S32768x256 S256x256 S32768x256 [1] [0] [0] [1] [] []
  dot_S32768x256_S256x1_S32768x1_1_0_0_1_n_n_wf : DotDims.WF S32768x256 S256x1 S32768x1 [1] [0] [0] [1] [] []
  dot_S2048x32768_S32768x256_S2048x256_1_0_0_1_n_n_wf : DotDims.WF S2048x32768 S32768x256 S2048x256 [1] [0] [0] [1] [] []
  dot_S2048x520_S520x256_S2048x256_1_0_0_1_n_n_wf : DotDims.WF S2048x520 S520x256 S2048x256 [1] [0] [0] [1] [] []
  dot_S2048x256_S256x256_S2048x256_1_0_0_1_n_n_wf : DotDims.WF S2048x256 S256x256 S2048x256 [1] [0] [0] [1] [] []
  dot_S2048x32768_S32768x3_S2048x3_1_0_0_1_n_n_wf : DotDims.WF S2048x32768 S32768x3 S2048x3 [1] [0] [0] [1] [] []

variable [Facts₀]

def gather_S2048x3_S32768x2x1_S32768x2x3_2_0_n_n_0_2_13 : GatherDims S2048x3 S32768x2x1 S32768x2x3 where
  offsetDims := [2]
  collapsedSliceDims := [0]
  operandBatchingDims := []
  startIndicesBatchingDims := []
  startIndexMap := [0]
  indexVectorDim := 2
  sliceSizes := ![1, 3]
  wf := gather_S2048x3_S32768x2x1_S32768x2x3_2_0_n_n_0_2_13_wf
def gather_S2048x256_S32768x2x1_S32768x2x256_2_0_n_n_0_2_1256 : GatherDims S2048x256 S32768x2x1 S32768x2x256 where
  offsetDims := [2]
  collapsedSliceDims := [0]
  operandBatchingDims := []
  startIndicesBatchingDims := []
  startIndexMap := [0]
  indexVectorDim := 2
  sliceSizes := ![1, 256]
  wf := gather_S2048x256_S32768x2x1_S32768x2x256_2_0_n_n_0_2_1256_wf
def dot_S32768x517_S517x256_S32768x256_1_0_0_1_n_n : DotDims S32768x517 S517x256 S32768x256 where
  lhsContracting := [1]
  rhsContracting := [0]
  lhsNonContracting := [0]
  rhsNonContracting := [1]
  lhsBatch := []
  rhsBatch := []
  wf := dot_S32768x517_S517x256_S32768x256_1_0_0_1_n_n_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def dot_S32768x256_S256x1_S32768x1_1_0_0_1_n_n : DotDims S32768x256 S256x1 S32768x1 where
  lhsContracting := [1]
  rhsContracting := [0]
  lhsNonContracting := [0]
  rhsNonContracting := [1]
  lhsBatch := []
  rhsBatch := []
  wf := dot_S32768x256_S256x1_S32768x1_1_0_0_1_n_n_wf
def dot_S2048x32768_S32768x256_S2048x256_1_0_0_1_n_n : DotDims S2048x32768 S32768x256 S2048x256 where
  lhsContracting := [1]
  rhsContracting := [0]
  lhsNonContracting := [0]
  rhsNonContracting := [1]
  lhsBatch := []
  rhsBatch := []
  wf := dot_S2048x32768_S32768x256_S2048x256_1_0_0_1_n_n_wf
def dot_S2048x520_S520x256_S2048x256_1_0_0_1_n_n : DotDims S2048x520 S520x256 S2048x256 where
  lhsContracting := [1]
  rhsContracting := [0]
  lhsNonContracting := [0]
  rhsNonContracting := [1]
  lhsBatch := []
  rhsBatch := []
  wf := dot_S2048x520_S520x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x32768_S32768x3_S2048x3_1_0_0_1_n_n : DotDims S2048x32768 S32768x3 S2048x3 where
  lhsContracting := [1]
  rhsContracting := [0]
  lhsNonContracting := [0]
  rhsNonContracting := [1]
  lhsBatch := []
  rhsBatch := []
  wf := dot_S2048x32768_S32768x3_S2048x3_1_0_0_1_n_n_wf

class Facts : Prop extends Facts₀ where

variable [Facts]
-- ==== Proof.Egcl.lean ====
/-
  One equivariant graph-convolution layer, as mathematics over the extended reals.

  A graph of 2048 nodes and 32768 directed edges. Edge e joins a receiver and a sender; from the two
  nodes' feature rows (512 numbers), the offset d between their coordinates (3 numbers) and the
  edge's own attributes (4 numbers) the layer forms the input row
      u = [features of both ends, |d|², edge attributes]            (517 numbers),
  sends it through two small perceptrons with the activation silu x = x · σ(x):
      φ  = silu (W₂ · silu (W₁ · u + b₁) + b₂)                       (the message, 256 numbers)
      ψ  = (silu (C₂ · silu (C₁ · u + c₁) + c₂)) · c₃                (one number),
  gates the message by g = σ(φ · i + ι), and scales the offset:
      row e of the edge table = [ φ · g ,  15 · tanh ψ · d / (max(|d|, ε) + 1) ]   (259 numbers).
  A node's aggregate is the incidence-weighted sum of the edge table's rows, Σₑ R[i, e] · row e.
  Its first 256 entries feed the node perceptron, whose output is added to the node's features;
  its last 3 entries are added to the node's coordinates.

  Everything here is a plain function on finite index types; sums are sums in the extended reals
  (commutative, associative, with 0 neutral), so no order of summation is recorded.
-/
import Idealize.ShloMosaic.PureOps.Ideal
import Idealize.ShloMosaic.Lib.ValueIdx

noncomputable section

open scoped BigOperators

namespace Egcl

open Idealize.ShloMosaic Idealize.ShloMosaic.ValueIdx

/-- The scale 15 of the coordinate update, by its single-precision word. -/
abbrev c15 : EReal := Ideal.ofBits .f32 0x41700000#32
/-- The floor ε under the offset's length, by its single-precision word. -/
abbrev cEps : EReal := Ideal.ofBits .f32 0x3727C5AC#32
/-- The number one, by its single-precision word. -/
abbrev cOne : EReal := Ideal.ofBits .f32 0x3F800000#32

/-- silu x = x · σ(x). -/
def silu (x : EReal) : EReal := x * Ideal.logistic x

/-- One affine layer at output j: (Σₖ xₖ · W[k, j]) + b[j]. -/
def dense {K J : ℕ} (W : Fin K → Fin J → EReal) (b : Fin J → EReal) (x : Fin K → EReal) (j : Fin J) : EReal :=
  (∑ k, x k * W k j) + b j

/-- The squared length of an offset: Σₖ dₖ². -/
def sqlen (d : Fin 3 → EReal) : EReal := ∑ k, d k * d k

/-- The perceptrons' input row: 512 feature entries, then the squared length, then 4 attributes. -/
def edgeIn (h : Fin 512 → EReal) (s : EReal) (ea : Fin 4 → EReal) (k : Fin 517) : EReal :=
  if h1 : k.val < 512 then h ⟨k.val, h1⟩
  else if _h2 : k.val < 513 then s
  else ea ⟨k.val - 513, by have := k.isLt; omega⟩

/-- The edge perceptrons' weights: the message branch (eW1, eb1, eW2, eb2), the coordinate branch
    (cW1, cb1, cW2, cb2, cW3) and the gate (iW, ib). -/
structure EdgeW where
  eW1 : Fin 517 → Fin 256 → EReal
  eb1 : Fin 256 → EReal
  eW2 : Fin 256 → Fin 256 → EReal
  eb2 : Fin 256 → EReal
  cW1 : Fin 517 → Fin 256 → EReal
  cb1 : Fin 256 → EReal
  cW2 : Fin 256 → Fin 256 → EReal
  cb2 : Fin 256 → EReal
  cW3 : Fin 256 → EReal
  iW : Fin 256 → EReal
  ib : EReal

/-- The edge weights read off the weight arrays: matrices entry by entry, biases entry by entry, the
    two 256-by-1 matrices as columns, the gate's bias from its one-entry array. -/
def EdgeW.ofArrays
    (aW1 : (⟨2, ![517, 256]⟩ : Shape).Idx → EReal) (ab1 : (⟨1, ![256]⟩ : Shape).Idx → EReal)
    (aW2 : (⟨2, ![256, 256]⟩ : Shape).Idx → EReal) (ab2 : (⟨1, ![256]⟩ : Shape).Idx → EReal)
    (bW1 : (⟨2, ![517, 256]⟩ : Shape).Idx → EReal) (bb1 : (⟨1, ![256]⟩ : Shape).Idx → EReal)
    (bW2 : (⟨2, ![256, 256]⟩ : Shape).Idx → EReal) (bb2 : (⟨1, ![256]⟩ : Shape).Idx → EReal)
    (bW3 : (⟨2, ![256, 1]⟩ : Shape).Idx → EReal) (gW : (⟨2, ![256, 1]⟩ : Shape).Idx → EReal)
    (gb : (⟨1, ![1]⟩ : Shape).Idx → EReal) : EdgeW where
  eW1 k j := aW1 (ix2 k j)
  eb1 j := ab1 (ix1 j)
  eW2 k j := aW2 (ix2 k j)
  eb2 j := ab2 (ix1 j)
  cW1 k j := bW1 (ix2 k j)
  cb1 j := bb1 (ix1 j)
  cW2 k j := bW2 (ix2 k j)
  cb2 j := bb2 (ix1 j)
  cW3 k := bW3 (ix2 k 0)
  iW k := gW (ix2 k 0)
  ib := gb (ix1 0)

/-- The message branch before its last activation: W₂ · silu (W₁ · u + b₁) + b₂. -/
def msgPre (w : EdgeW) (u : Fin 517 → EReal) (j : Fin 256) : EReal :=
  dense w.eW2 w.eb2 (fun k => silu (dense w.eW1 w.eb1 u k)) j

/-- The coordinate branch's scalar ψ = (silu (C₂ · silu (C₁ · u + c₁) + c₂)) · c₃. -/
def coordScalar (w : EdgeW) (u : Fin 517 → EReal) : EReal :=
  ∑ k, silu (dense w.cW2 w.cb2 (fun k' => silu (dense w.cW1 w.cb1 u k')) k) * w.cW3 k

/-- The gate σ(φ · i + ι) of a message φ = silu pe. -/
def gate (w : EdgeW) (pe : Fin 256 → EReal) : EReal :=
  Ideal.logistic ((∑ k, silu (pe k) * w.iW k) + w.ib)

/-- The gated message at entry j, from the pre-activation pe. -/
def msg (w : EdgeW) (pe : Fin 256 → EReal) (j : Fin 256) : EReal :=
  silu (pe j) * gate w pe

/-- The scaled offset at entry j: 15 · tanh ψ · dⱼ / (max(len, ε) + 1), len the offset's length. -/
def shift (w : EdgeW) (u : Fin 517 → EReal) (d : Fin 3 → EReal) (len : EReal) (j : Fin 3) : EReal :=
  (c15 * Ideal.tanh (coordScalar w u)) * Ideal.div (d j) (max len cEps + cOne)

/-- A row of the edge table from the input row u, the offset d, its length and the message
    pre-activation: 256 gated message entries, then the 3 scaled offset entries. -/
def tail (w : EdgeW) (u : Fin 517 → EReal) (d : Fin 3 → EReal) (len : EReal) (pe : Fin 256 → EReal)
    (j : Fin 259) : EReal :=
  if hj : j.val < 256 then msg w pe ⟨j.val, hj⟩
  else shift w u d len ⟨j.val - 256, by have := j.isLt; omega⟩

/-- A row of the edge table from the gathered features h, the offset d and the edge attributes. -/
def edgeOut (w : EdgeW) (h : Fin 512 → EReal) (d : Fin 3 → EReal) (ea : Fin 4 → EReal) (j : Fin 259) : EReal :=
  tail w (edgeIn h (sqlen d) ea) d (Ideal.sqrt (sqlen d)) (msgPre w (edgeIn h (sqlen d) ea)) j

/-- The aggregate of node i at entry j: Σₑ R[i, e] · T[e, j]. -/
def agg {N E J : ℕ} (R : Fin N → Fin E → EReal) (T : Fin E → Fin J → EReal) (i : Fin N) (j : Fin J) : EReal :=
  ∑ e, R i e * T e j

/-- The node perceptron's weights. -/
structure NodeW where
  nW1 : Fin 520 → Fin 256 → EReal
  nb1 : Fin 256 → EReal
  nW2 : Fin 256 → Fin 256 → EReal
  nb2 : Fin 256 → EReal

/-- The node weights read off the weight arrays. -/
def NodeW.ofArrays
    (aW1 : (⟨2, ![520, 256]⟩ : Shape).Idx → EReal) (ab1 : (⟨1, ![256]⟩ : Shape).Idx → EReal)
    (aW2 : (⟨2, ![256, 256]⟩ : Shape).Idx → EReal) (ab2 : (⟨1, ![256]⟩ : Shape).Idx → EReal) : NodeW where
  nW1 k j := aW1 (ix2 k j)
  nb1 j := ab1 (ix1 j)
  nW2 k j := aW2 (ix2 k j)
  nb2 j := ab2 (ix1 j)

/-- The node perceptron's input row: 256 features, 256 aggregated message entries, 8 attributes. -/
def nodeIn (f : Fin 256 → EReal) (a : Fin 256 → EReal) (na : Fin 8 → EReal) (k : Fin 520) : EReal :=
  if h1 : k.val < 256 then f ⟨k.val, h1⟩
  else if h2 : k.val < 512 then a ⟨k.val - 256, by omega⟩
  else na ⟨k.val - 512, by have := k.isLt; omega⟩

/-- The updated feature j of a node: fⱼ + (N₂ · silu (N₁ · [f, a, na] + n₁) + n₂)ⱼ. -/
def featOut (w : NodeW) (f : Fin 256 → EReal) (a : Fin 256 → EReal) (na : Fin 8 → EReal) (j : Fin 256) : EReal :=
  f j + dense w.nW2 w.nb2 (fun k => silu (dense w.nW1 w.nb1 (nodeIn f a na) k)) j

end Egcl

end
-- ==== Proof.EgclRows.lean ====
/-
  The two halves of an edge row: entries 0..255 are the gated message, entries 256..258 the scaled
  offset. And an aggregate read at a shifted column is the aggregate of the shifted table.
-/
import proofs.«179171_j8203387535901_1_alg».proof.Proof.Egcl

noncomputable section

open scoped BigOperators

namespace Egcl

open Idealize.ShloMosaic

/-- Entry j < 256 of an edge row is the gated message at j. -/
theorem edgeOut_left (w : EdgeW) (h : Fin 512 → EReal) (d : Fin 3 → EReal) (ea : Fin 4 → EReal) (j : Fin 256) :
    edgeOut w h d ea ⟨j.val, by have := j.isLt; omega⟩ = msg w (msgPre w (edgeIn h (sqlen d) ea)) j := by
  unfold edgeOut tail
  rw [dif_pos (show (⟨j.val, _⟩ : Fin 259).val < 256 from j.isLt)]

/-- Entry 256 + j of an edge row is the scaled offset at j. -/
theorem edgeOut_right (w : EdgeW) (h : Fin 512 → EReal) (d : Fin 3 → EReal) (ea : Fin 4 → EReal) (j : Fin 3) :
    edgeOut w h d ea ⟨256 + j.val, by have := j.isLt; omega⟩
      = shift w (edgeIn h (sqlen d) ea) d (Ideal.sqrt (sqlen d)) j := by
  unfold edgeOut tail
  rw [dif_neg (show ¬ (⟨256 + j.val, _⟩ : Fin 259).val < 256 from by show ¬ 256 + j.val < 256; omega)]
  congr 1
  apply Fin.ext
  show 256 + j.val - 256 = j.val
  omega

/-- Reading an aggregate at column f j is aggregating the table whose columns are re-indexed by f. -/
theorem agg_comp {N E J J' : ℕ} (R : Fin N → Fin E → EReal) (T : Fin E → Fin J → EReal) (f : Fin J' → Fin J)
    (i : Fin N) (j : Fin J') : agg R T i (f j) = agg R (fun e q => T e (f q)) i j := rfl

/-- Aggregates of tables that agree entry by entry agree. -/
theorem agg_congr {N E J : ℕ} (R : Fin N → Fin E → EReal) (T T' : Fin E → Fin J → EReal) (h : ∀ e q, T e q = T' e q)
    (i : Fin N) (j : Fin J) : agg R T i j = agg R T' i j := by
  unfold agg
  exact Finset.sum_congr rfl fun e _ => by rw [h e j]

end Egcl

end
-- ==== Proof.KHost.lean ====
/-
  The host operations before the first kernel region write only their own result buffers, so every
  argument array holds its launch contents when the first region is entered. What they compute for the first
  region is two gathers through the edges' node numbers: both ends' feature rows side by side, and the
  difference of both ends' coordinates, joined with the edge attributes into one seven-column array.
-/
import proofs.«179171_j8203387535901_1_alg».proof.Proof.Gen.KernelIdeal.Frame
import Idealize.ShloMosaic.Lib.StableHlo.Run

set_option maxRecDepth 16384

noncomputable section

namespace Cert.KernelIdeal.KHost

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- The buffers the host operations before the first region write. -/
abbrev written : List (Ref sig .tc) :=
  [main_c, main_v0, main_v1, main_c_0, main_v2, main_v3, main_v4, main_v5, main_v6, main_v7, main_v8, main_v9,
   main_v10, main_v11, main_c_1, main_v12, main_v13, main_c_2, main_v14, main_v15, main_v16, main_v17, main_v18,
   main_v19, main_v20]

/-- A buffer none of those operations writes is, at the first region's entry, as launched. -/
theorem entry_of_not_written (c : Dev nD) (b : Ref sig .tc) (hb : ∀ r ∈ written, b ≠ r) :
    V1 m ρ c b = m ((c : Thread nD τ).loc b) := by
  show StableHlo.after hostOps0 (W0 m ρ c) (Proc.devRef .tc b) = _
  refine (StableHlo.after_of_forall_not_mem (b := Proc.devRef .tc b) _ _ (List.forall_iff_forall_mem.mp ?_)).trans rfl
  simp only [hostOps0, List.flatten_cons, List.flatten_nil, List.append_nil, List.cons_append,
    List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (hb _ (by simp [written]))

/-! ## What the host operations leave for the first region: the gathered rows -/

/-- The edges' node numbers with a negative number counted from the end, as the gathers' index operand. -/
def idxTerm (x2 : (⟨S32768x2, .i32⟩ : BufTy).Contents (Elt F)) : (⟨S32768x2x1, .i32⟩ : BufTy).Contents (Elt F) :=
  broadcastInDim S32768x2x1 ![0, 1] bcast_S32768x2_S32768x2x1_0_1
    (select (cmpi .slt x2 (broadcastInDim S32768x2 ![] bcast_S_S32768x2 (constantI S_ 32 0#32)))
      (addi x2 (broadcastInDim S32768x2 ![] bcast_S_S32768x2 (constantI S_ 32 2048#32))) x2)

/-- Both ends' feature rows of every edge, side by side. -/
def featTerm (x1 : (⟨S2048x256, .f32⟩ : BufTy).Contents (Elt F)) (x2 : (⟨S32768x2, .i32⟩ : BufTy).Contents (Elt F)) :
    (⟨S32768x512, .f32⟩ : BufTy).Contents (Elt F) :=
  shapeCast S32768x512 (Host.gather gather_S2048x256_S32768x2x1_S32768x2x256_2_0_n_n_0_2_1256 x1 (idxTerm x2)) shapeCasts_S32768x2x256_S32768x512

/-- The offset between the two ends' coordinates of every edge. -/
def diffTerm (x0 : (⟨S2048x3, .f32⟩ : BufTy).Contents (Elt F)) (x2 : (⟨S32768x2, .i32⟩ : BufTy).Contents (Elt F)) :
    (⟨S32768x3, .f32⟩ : BufTy).Contents (Elt F) :=
  subf
    (shapeCast S32768x3 (extractStridedSlice S32768x1x3 ![0, 0, 0] (Host.gather gather_S2048x3_S32768x2x1_S32768x2x3_2_0_n_n_0_2_13 x0 (idxTerm x2)) slices_S32768x2x3_S32768x1x3_0_0_0) shapeCasts_S32768x1x3_S32768x3)
    (shapeCast S32768x3 (extractStridedSlice S32768x1x3 ![0, 1, 0] (Host.gather gather_S2048x3_S32768x2x1_S32768x2x3_2_0_n_n_0_2_13 x0 (idxTerm x2)) slices_S32768x2x3_S32768x1x3_0_1_0) shapeCasts_S32768x1x3_S32768x3)

set_option maxHeartbeats 2000000 in
theorem entry_feats (c : Dev nD) :
    V1 m ρ c main_v19 = featTerm (m ((c : Thread nD τ).loc main_arg1)) (m ((c : Thread nD τ).loc main_arg2)) := by
  show StableHlo.after hostOps0 (W0 m ρ c) (Proc.devRef .tc main_v19) = _
  after_results
  rfl

set_option maxHeartbeats 2000000 in
theorem entry_offsets (c : Dev nD) :
    V1 m ρ c main_v20 = concatenate S32768x7 1 [⟨S32768x3, diffTerm (m ((c : Thread nD τ).loc main_arg0)) (m ((c : Thread nD τ).loc main_arg2))⟩, ⟨S32768x4, m ((c : Thread nD τ).loc main_arg5)⟩]
      concatenates_S32768x3_S32768x4_S32768x7_d1 := by
  show StableHlo.after hostOps0 (W0 m ρ c) (Proc.devRef .tc main_v20) = _
  after_results
  rfl

end Cert.KernelIdeal.KHost

end
-- ==== Proof.LibDot2.lean ====
/-
  A rank-2 matrix product read at an index, at the ideal instance (floats are the extended reals).

  The product of an `[M, K]` array by a `[K, N]` array is written either as the accelerator's
  multiply-accumulate into an accumulator that is zero everywhere, or as the host's general dot
  product; at the ideal instance both are, at `(p, q)`, the sum over the contraction index of the
  products of the operands' entries, with no rounding and no order of summation left in it. The
  contraction index set of a product with ONE contracted axis is a rank-1 index set; re-indexed by
  its coordinate the sum runs over `Fin K`:
      (l · r)[p, q] = ∑ k : Fin K, l[p, k] * r[k, q].
  The second family is the product with the left operand read transposed, `[K, M]` by `[K, N]`,
  contracting axis 0 of both:
      (lᵀ · r)[p, q] = ∑ k : Fin K, l[k, p] * r[k, q].
  For any dimension numbers the two spellings of one product (accumulating into zero, and the
  host's) are one and the same array.
-/
import Idealize.ShloMosaic.PureOps.Ideal
import Idealize.ShloMosaic.PureOps.Ideal.Laws
import Idealize.ShloMosaic.Lib.ValueIdx

noncomputable section

open scoped BigOperators

namespace Idealize.ShloMosaic.Dot2

open Idealize.ShloMosaic Idealize.ShloMosaic.ValueIdx

/-! ## `[M, K] × [K, N] → [M, N]` -/

/-- [M,K] x [K,N] -> [M,N], contracting lhs axis 1 with rhs axis 0: the dimension numbers of the
    plain matrix product, no batch axis; the result's axis 0 is the left operand's axis 0 and its
    axis 1 the right operand's axis 1. -/
abbrev mmDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

section MM
variable {M K N : Nat}
  (wf : DotDims.WF ⟨2, ![M, K]⟩ ⟨2, ![K, N]⟩ ⟨2, ![M, N]⟩ [1] [0] [0] [1] [] [])

/-- The left operand's axis 0 is its free axis: its coordinate is the result's row, whatever the
    contraction index. -/
private theorem mm_lhs0 (j : (⟨2, ![M, N]⟩ : Shape).Idx) (k : (mmDims M K N wf).contr.Idx) :
    ((mmDims M K N wf).lhsIdx j k 0).val = (j 0).val := by
  unfold DotDims.lhsIdx
  rw [dif_neg (show (0 : Fin 2) ∉ ([] : List (Fin 2)) by decide),
    dif_pos (show (0 : Fin 2) ∈ [(0 : Fin 2)] by decide)]
  rfl

/-- The left operand's axis 1 is the contracted one: at the contraction index with coordinate `c`
    its coordinate is `c`. -/
private theorem mm_lhs1 (j : (⟨2, ![M, N]⟩ : Shape).Idx) (c : Fin K) :
    ((mmDims M K N wf).lhsIdx j ((contrEquiv1 (mmDims M K N wf) K rfl rfl).symm c) 1).val = c.val := by
  rw [(mmDims M K N wf).lhsIdx_val_of_single rfl]
  exact contrEquiv1_symm_val (mmDims M K N wf) K rfl rfl c

/-- The right operand's axis 0 is the contracted one: at the contraction index with coordinate `c`
    its coordinate is `c`. -/
private theorem mm_rhs0 (j : (⟨2, ![M, N]⟩ : Shape).Idx) (c : Fin K) :
    ((mmDims M K N wf).rhsIdx j ((contrEquiv1 (mmDims M K N wf) K rfl rfl).symm c) 0).val = c.val := by
  rw [(mmDims M K N wf).rhsIdx_val_of_single rfl]
  exact contrEquiv1_symm_val (mmDims M K N wf) K rfl rfl c

/-- The right operand's axis 1 is its free axis: its coordinate is the result's column, whatever
    the contraction index. -/
private theorem mm_rhs1 (j : (⟨2, ![M, N]⟩ : Shape).Idx) (k : (mmDims M K N wf).contr.Idx) :
    ((mmDims M K N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The contraction's sum at `(p, q)`, over the contraction index set and through the operand
    index maps, is the sum over the contracted coordinate `k : Fin K` of `l[p, k] * r[k, q]`. -/
theorem mm_sum (l : (⟨2, ![M, K]⟩ : Shape).Idx → EReal) (r : (⟨2, ![K, N]⟩ : Shape).Idx → EReal)
    (p : Fin M) (q : Fin N) :
    ∑ k : (mmDims M K N wf).contr.Idx,
        l ((mmDims M K N wf).lhsIdx (ix2 p q) k) * r ((mmDims M K N wf).rhsIdx (ix2 p q) k)
      = ∑ k : Fin K, l (ix2 p k) * r (ix2 k q) := by
  rw [← Equiv.sum_comp (contrEquiv1 (mmDims M K N wf) K rfl rfl).symm]
  refine Finset.sum_congr rfl fun c _ => ?_
  have hl : (mmDims M K N wf).lhsIdx (ix2 p q) ((contrEquiv1 (mmDims M K N wf) K rfl rfl).symm c)
      = ix2 p c := by
    funext a; apply Fin.ext
    match a with
    | ⟨0, _⟩ => exact mm_lhs0 wf (ix2 p q) _
    | ⟨1, _⟩ => exact mm_lhs1 wf (ix2 p q) c
  have hr : (mmDims M K N wf).rhsIdx (ix2 p q) ((contrEquiv1 (mmDims M K N wf) K rfl rfl).symm c)
      = ix2 c q := by
    funext a; apply Fin.ext
    match a with
    | ⟨0, _⟩ => exact mm_rhs0 wf (ix2 p q) c
    | ⟨1, _⟩ => exact mm_rhs1 wf (ix2 p q) _
  rw [hl, hr]

end MM

/-- The accelerator's product of `[M, K]` by `[K, N]` accumulated into the all-zero array, at
    `(p, q)`: `∑ k, l[p, k] * r[k, q]` in the extended reals. -/
theorem matmul_zero_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (l : FVec Ideal ⟨2, ![M, K]⟩ φ₁) (r : FVec Ideal ⟨2, ![K, N]⟩ φ₂)
    (p : Fin M) (q : Fin N) :
    FloatOps.matmul (mmDims M K N wf) prec l r (constant ⟨2, ![M, N]⟩ .f32 0x00000000#32) (ix2 p q)
      = ∑ k : Fin K, l (ix2 p k) * r (ix2 k q) := by
  rw [Ideal.matmul_constant_zero_apply]
  exact mm_sum wf l r p q

/-- The host's general dot product of `[M, K]` by `[K, N]`, at `(p, q)`, whatever its schedule:
    `∑ k, l[p, k] * r[k, q]` in the extended reals. -/
theorem dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision) (sched : HostSchedule)
    (l : FVec Ideal ⟨2, ![M, K]⟩ φ₁) (r : FVec Ideal ⟨2, ![K, N]⟩ φ₂) (p : Fin M) (q : Fin N) :
    FloatOps.dotGeneral (mmDims M K N wf) prec sched l r (ix2 p q)
      = ∑ k : Fin K, l (ix2 p k) * r (ix2 k q) := by
  rw [Ideal.dotGeneral_apply]
  exact mm_sum wf l r p q

/-- The same for the host's product as a one-device program states it (the single-device
    schedule): at `(p, q)` it is `∑ k, l[p, k] * r[k, q]`. -/
theorem host_dotGeneral_mm_apply {M K N : Nat} {φ₁ φ₂ : FTy}
    (wf : DotDims.WF ⟨2, ![M, K]⟩ ⟨2, ![K, N]⟩ ⟨2, ![M, N]⟩ [1] [0] [0] [1] [] [])
    (prec : Option ContractPrecision)
    (l : FVec Ideal ⟨2, ![M, K]⟩ φ₁) (r : FVec Ideal ⟨2, ![K, N]⟩ φ₂) (p : Fin M) (q : Fin N) :
    Host.dotGeneral (mmDims M K N wf) prec l r (ix2 p q)
      = ∑ k : Fin K, l (ix2 p k) * r (ix2 k q) :=
  dotGeneral_mm_apply wf prec .single l r p q

/-! ## The two spellings of one product -/

/-- the two spellings of one product are one array: for any dimension numbers, the accelerator's
    product accumulated into the all-zero array is the host's product (which has no accumulator),
    whatever the host's schedule; both are the contraction's sum at every index. -/
theorem matmul_zero_eq_dotGeneral {sl sr so : Shape} {φ₁ φ₂ : FTy} (d : DotDims sl sr so)
    (prec : Option ContractPrecision) (sched : HostSchedule) (l : FVec Ideal sl φ₁) (r : FVec Ideal sr φ₂) :
    FloatOps.matmul d prec l r (constant so .f32 0x00000000#32) = FloatOps.dotGeneral d prec sched l r := by
  funext j
  rw [Ideal.matmul_constant_zero_apply, Ideal.dotGeneral_apply]

/-- The same against the host's product as a one-device program states it (the single-device
    schedule). -/
theorem matmul_zero_eq_host_dotGeneral {sl sr so : Shape} {φ₁ φ₂ : FTy} (d : DotDims sl sr so)
    (prec : Option ContractPrecision) (l : FVec Ideal sl φ₁) (r : FVec Ideal sr φ₂) :
    FloatOps.matmul d prec l r (constant so .f32 0x00000000#32) = Host.dotGeneral d prec l r :=
  matmul_zero_eq_dotGeneral d prec .single l r

/-! ## `[K, M] × [K, N] → [M, N]`, the left operand read transposed -/

/-- [K,M] x [K,N] -> [M,N], contracting axis 0 of both (the left operand read transposed): the
    result's axis 0 is the left operand's axis 1 and its axis 1 the right operand's axis 1. -/
abbrev tmDims (K M N : Nat)
    (wf : DotDims.WF ⟨2, ![K, M]⟩ ⟨2, ![K, N]⟩ ⟨2, ![M, N]⟩ [0] [0] [1] [1] [] []) :
    DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

section TM
variable {K M N : Nat}
  (wf : DotDims.WF ⟨2, ![K, M]⟩ ⟨2, ![K, N]⟩ ⟨2, ![M, N]⟩ [0] [0] [1] [1] [] [])

/-- The left operand's axis 0 is the contracted one: at the contraction index with coordinate `c`
    its coordinate is `c`. -/
private theorem tm_lhs0 (j : (⟨2, ![M, N]⟩ : Shape).Idx) (c : Fin K) :
    ((tmDims K M N wf).lhsIdx j ((contrEquiv1 (tmDims K M N wf) K rfl rfl).symm c) 0).val = c.val := by
  rw [(tmDims K M N wf).lhsIdx_val_of_single rfl]
  exact contrEquiv1_symm_val (tmDims K M N wf) K rfl rfl c

/-- The left operand's axis 1 is its free axis: its coordinate is the result's row, whatever the
    contraction index. -/
private theorem tm_lhs1 (j : (⟨2, ![M, N]⟩ : Shape).Idx) (k : (tmDims K M N wf).contr.Idx) :
    ((tmDims K M N wf).lhsIdx j k 1).val = (j 0).val := by
  unfold DotDims.lhsIdx
  rw [dif_neg (show (1 : Fin 2) ∉ ([] : List (Fin 2)) by decide),
    dif_pos (show (1 : Fin 2) ∈ [(1 : Fin 2)] by decide)]
  rfl

/-- The right operand's axis 0 is the contracted one: at the contraction index with coordinate `c`
    its coordinate is `c`. -/
private theorem tm_rhs0 (j : (⟨2, ![M, N]⟩ : Shape).Idx) (c : Fin K) :
    ((tmDims K M N wf).rhsIdx j ((contrEquiv1 (tmDims K M N wf) K rfl rfl).symm c) 0).val = c.val := by
  rw [(tmDims K M N wf).rhsIdx_val_of_single rfl]
  exact contrEquiv1_symm_val (tmDims K M N wf) K rfl rfl c

/-- The right operand's axis 1 is its free axis: its coordinate is the result's column, whatever
    the contraction index. -/
private theorem tm_rhs1 (j : (⟨2, ![M, N]⟩ : Shape).Idx) (k : (tmDims K M N wf).contr.Idx) :
    ((tmDims K M N wf).rhsIdx j k 1).val = (j 1).val := by
  unfold DotDims.rhsIdx
  rw [dif_neg (show (1 : Fin 2) ∉ ([] : List (Fin 2)) by decide),
    dif_pos (show (1 : Fin 2) ∈ [(1 : Fin 2)] by decide)]
  rfl

/-- The transposed-left contraction's sum at `(p, q)`, over the contraction index set and through
    the operand index maps, is the sum over the contracted coordinate `k : Fin K` of
    `l[k, p] * r[k, q]`. -/
theorem tm_sum (l : (⟨2, ![K, M]⟩ : Shape).Idx → EReal) (r : (⟨2, ![K, N]⟩ : Shape).Idx → EReal)
    (p : Fin M) (q : Fin N) :
    ∑ k : (tmDims K M N wf).contr.Idx,
        l ((tmDims K M N wf).lhsIdx (ix2 p q) k) * r ((tmDims K M N wf).rhsIdx (ix2 p q) k)
      = ∑ k : Fin K, l (ix2 k p) * r (ix2 k q) := by
  rw [← Equiv.sum_comp (contrEquiv1 (tmDims K M N wf) K rfl rfl).symm]
  refine Finset.sum_congr rfl fun c _ => ?_
  have hl : (tmDims K M N wf).lhsIdx (ix2 p q) ((contrEquiv1 (tmDims K M N wf) K rfl rfl).symm c)
      = ix2 c p := by
    funext a; apply Fin.ext
    match a with
    | ⟨0, _⟩ => exact tm_lhs0 wf (ix2 p q) c
    | ⟨1, _⟩ => exact tm_lhs1 wf (ix2 p q) _
  have hr : (tmDims K M N wf).rhsIdx (ix2 p q) ((contrEquiv1 (tmDims K M N wf) K rfl rfl).symm c)
      = ix2 c q := by
    funext a; apply Fin.ext
    match a with
    | ⟨0, _⟩ => exact tm_rhs0 wf (ix2 p q) c
    | ⟨1, _⟩ => exact tm_rhs1 wf (ix2 p q) _
  rw [hl, hr]

end TM

/-- The accelerator's product of `[K, M]` (read transposed) by `[K, N]` accumulated into the
    all-zero array, at `(p, q)`: `∑ k, l[k, p] * r[k, q]` in the extended reals. -/
theorem matmul_zero_tm_apply {K M N : Nat} {φ₁ φ₂ : FTy}
    (wf : DotDims.WF ⟨2, ![K, M]⟩ ⟨2, ![K, N]⟩ ⟨2, ![M, N]⟩ [0] [0] [1] [1] [] [])
    (prec : Option ContractPrecision) (l : FVec Ideal ⟨2, ![K, M]⟩ φ₁) (r : FVec Ideal ⟨2, ![K, N]⟩ φ₂)
    (p : Fin M) (q : Fin N) :
    FloatOps.matmul (tmDims K M N wf) prec l r (constant ⟨2, ![M, N]⟩ .f32 0x00000000#32) (ix2 p q)
      = ∑ k : Fin K, l (ix2 k p) * r (ix2 k q) := by
  rw [Ideal.matmul_constant_zero_apply]
  exact tm_sum wf l r p q

end Idealize.ShloMosaic.Dot2

end
-- ==== Proof.KEdgePay.lean ====
import proofs.«179171_j8203387535901_1_alg».proof.Proof.Gen.KernelIdeal.Frame
import proofs.«179171_j8203387535901_1_alg».proof.Proof.Egcl
import proofs.«179171_j8203387535901_1_alg».proof.Proof.LibDot2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KEdge

open Cert.KernelIdeal Cert.KernelIdeal.Gen Idealize.ShloMosaic Idealize.ShloMosaic.TcCoe Idealize.ShloMosaic.ValueIdx

/-! The offset block: its first three columns, their squared length and its root. -/

/-- A shape cast to the same shape changes nothing. -/
theorem pay2_eq (v2 : Vec Ideal S1024x7 .f32) : k0_pay2 (F := Ideal) v2 = v2 := by
  unfold k0_pay2
  exact shapeCast_self _ _

/-- Columns 0..2 of the offset-and-attribute block: the offset's entry k of edge r. -/
theorem pay3_apply (v2 : Vec Ideal S1024x7 .f32) (r : Fin 1024) (k : Fin 3) :
    k0_pay3 (F := Ideal) v2 (ix2 r k) = v2 (ix2 r ⟨k.val, by have := k.isLt; omega⟩) := by
  unfold k0_pay3
  rw [pay2_eq]
  exact slice2_axis1_apply 0 v2 slices_S1024x7_o0_0_S1024x3 r k _ (Nat.zero_add _).symm

/-- A length-1024 vector viewed as a column: entry (r, 0) is entry r. -/
theorem col_apply (v : FVec Ideal S1024 .f32) (r : Fin 1024) (c : Fin 1) :
    shapeCast S1024x1 v shapeCasts_S1024_S1024x1 (ix2 r c) = v (ix1 r) :=
  shapeCast_apply v shapeCasts_S1024_S1024x1 _ _ (by
    have hc : c.val = 0 := by omega
    rw [Shape.rowMajor_val_two, Shape.rowMajor_val_one]
    show r.val = r.val * 1 + c.val
    rw [hc, Nat.mul_one, Nat.add_zero])

/-- The sum along a row of three entries. -/
theorem rowsum_apply (src : FVec Ideal S1024x3 .f32) (hφ : FKind.Formats .f32)
    (hacc : (0x00000000#32 : BitVec 32) = 0x00000000#32) (r : Fin 1024) :
    multiReduction .add [1] S1024 src 0x00000000#32 reduces_S1024x3_S1024 hφ hacc (ix1 r)
      = ∑ k : Fin 3, src (ix2 r k) := by
  refine (Ideal.multiReduction_add_single src 0x00000000#32 reduces_S1024x3_S1024 hφ hacc (ix1 r)).trans ?_
  show ∑ k : Fin 3, src (reduces_S1024x3_S1024.lift (ix1 r) k) = _
  refine Finset.sum_congr rfl fun k _ => congrArg src ?_
  funext a
  apply Fin.ext
  match a with
  | ⟨0, _⟩ => rfl
  | ⟨1, _⟩ => rfl

/-- The squared length of edge r's offset: the sum of the squares of its three entries. -/
theorem pay4_apply (v2 : Vec Ideal S1024x7 .f32) (r : Fin 1024) (c : Fin 1) :
    k0_pay4 (F := Ideal) v2 (ix2 r c)
      = Egcl.sqlen (fun k => v2 (ix2 r ⟨k.val, by have := k.isLt; omega⟩)) := by
  unfold k0_pay4
  refine (col_apply _ r c).trans ?_
  refine (rowsum_apply _ _ _ r).trans ?_
  unfold Egcl.sqlen
  refine Finset.sum_congr rfl fun k _ => ?_
  show k0_pay3 (F := Ideal) v2 (ix2 r k) * k0_pay3 (F := Ideal) v2 (ix2 r k) = _
  rw [pay3_apply]

/-- The length of edge r's offset: the root of the squared length. -/
theorem pay5_apply (v2 : Vec Ideal S1024x7 .f32) (r : Fin 1024) (c : Fin 1) :
    k0_pay5 (F := Ideal) v2 (ix2 r c)
      = Ideal.sqrt (Egcl.sqlen (fun k => v2 (ix2 r ⟨k.val, by have := k.isLt; omega⟩))) := by
  unfold k0_pay5
  show Ideal.sqrt (k0_pay4 (F := Ideal) v2 (ix2 r c)) = _
  rw [pay4_apply]

/-- The input row of the two perceptrons: 512 gathered feature entries, the squared length of the offset, the 4 edge attributes. -/
theorem pay6_apply (v0 : Vec Ideal S1024x512 .f32) (v2 : Vec Ideal S1024x7 .f32) (r : Fin 1024) (k : Fin 517) :
    k0_pay6 (F := Ideal) v0 v2 (ix2 r k)
      = Egcl.edgeIn (fun a => v0 (ix2 r a))
          (Egcl.sqlen (fun a => v2 (ix2 r ⟨a.val, by have := a.isLt; omega⟩)))
          (fun a => v2 (ix2 r ⟨a.val + 3, by have := a.isLt; omega⟩)) k := by
  unfold k0_pay6 Egcl.edgeIn
  rw [pay2_eq, shapeCast_self]
  have hc : Shape.Concatenates ((([⟨S1024x512, v0⟩, ⟨S1024x1, k0_pay4 (F := Ideal) v2⟩, ⟨S1024x4, extractStridedSlice S1024x4 ![0, 3] v2 slices_S1024x7_o0_3_S1024x4⟩] : List ((s : Shape) × (s.Idx → EReal)))).map (·.1)) S1024x517 1 :=
    concatenates_S1024x512_S1024x1_S1024x4_S1024x517_d1
  by_cases h1 : k.val < 512
  · rw [dif_pos h1]
    exact concatenate_apply_piece (1 : Fin 2) _ hc (ix2 r k)
      0 (by show 0 < 3; omega) S1024x512 v0 rfl rfl 0 rfl (ix2 r ⟨k.val, h1⟩)
      (fun b hb => by
        match b with
        | ⟨0, _⟩ => rfl
        | ⟨1, _⟩ => exact absurd rfl hb)
      (Nat.zero_add _)
  · rw [dif_neg h1]
    by_cases h2 : k.val < 513
    · rw [dif_pos h2]
      refine (concatenate_apply_piece (1 : Fin 2) _ hc (ix2 r k)
        1 (by show 1 < 3; omega) S1024x1 (k0_pay4 (F := Ideal) v2) rfl rfl 512 rfl (ix2 r (0 : Fin 1))
        (fun b hb => by
          match b with
          | ⟨0, _⟩ => rfl
          | ⟨1, _⟩ => exact absurd rfl hb)
        (by show 512 + 0 = k.val; omega)).trans ?_
      exact pay4_apply v2 r 0
    · rw [dif_neg h2]
      have hk := k.isLt
      refine (concatenate_apply_piece (1 : Fin 2) _ hc (ix2 r k)
        2 (by show 2 < 3; omega) S1024x4 (extractStridedSlice S1024x4 ![0, 3] v2 slices_S1024x7_o0_3_S1024x4) rfl rfl 513 rfl
        (ix2 r ⟨k.val - 513, by omega⟩)
        (fun b hb => by
          match b with
          | ⟨0, _⟩ => rfl
          | ⟨1, _⟩ => exact absurd rfl hb)
        (by show 513 + (k.val - 513) = k.val; omega)).trans ?_
      exact slice2_axis1_apply 3 v2 slices_S1024x7_o0_3_S1024x4 r _ _ (by show k.val - 513 + 3 = 3 + (k.val - 513); omega)

/-! The three matrix products, each read at an entry as the sum over the contracted coordinate. -/

/-- The three products' dimension numbers are the plain matrix product's. -/
theorem d517_eq : dot_S1024x517_S517x256_S1024x256_1_0_0_1_n_n
    = Dot2.mmDims 1024 517 256 dot_S1024x517_S517x256_S1024x256_1_0_0_1_n_n.wf := rfl
theorem d256_eq : dot_S1024x256_S256x256_S1024x256_1_0_0_1_n_n
    = Dot2.mmDims 1024 256 256 dot_S1024x256_S256x256_S1024x256_1_0_0_1_n_n.wf := rfl
theorem d1_eq : dot_S1024x256_S256x1_S1024x1_1_0_0_1_n_n
    = Dot2.mmDims 1024 256 1 dot_S1024x256_S256x1_S1024x1_1_0_0_1_n_n.wf := rfl

/-- [1024, 517] by [517, 256] into zero, at (r, k): the sum over the 517 contracted entries. -/
theorem mm517_apply (X : FVec Ideal S1024x517 .bf16) (W : FVec Ideal S517x256 .bf16) (r : Fin 1024) (k : Fin 256) :
    matmul dot_S1024x517_S517x256_S1024x256_1_0_0_1_n_n none X W (constant (F := Ideal) S1024x256 .f32 0x00000000#32) (ix2 r k)
      = ∑ a : Fin 517, X (ix2 r a) * W (ix2 a k) := by
  rw [d517_eq]
  exact Dot2.matmul_zero_mm_apply _ none X W r k

/-- [1024, 256] by [256, 256] into zero, at (r, k): the sum over the 256 contracted entries. -/
theorem mm256_apply (X : FVec Ideal S1024x256 .bf16) (W : FVec Ideal S256x256 .bf16) (r : Fin 1024) (k : Fin 256) :
    matmul dot_S1024x256_S256x256_S1024x256_1_0_0_1_n_n none X W (constant (F := Ideal) S1024x256 .f32 0x00000000#32) (ix2 r k)
      = ∑ a : Fin 256, X (ix2 r a) * W (ix2 a k) := by
  rw [d256_eq]
  exact Dot2.matmul_zero_mm_apply _ none X W r k

/-- [1024, 256] by [256, 1] into zero, at (r, c): the sum over the 256 contracted entries. -/
theorem mm1_apply (X : FVec Ideal S1024x256 .bf16) (W : FVec Ideal S256x1 .bf16) (r : Fin 1024) (c : Fin 1) :
    matmul dot_S1024x256_S256x1_S1024x1_1_0_0_1_n_n none X W (constant (F := Ideal) S1024x1 .f32 0x00000000#32) (ix2 r c)
      = ∑ a : Fin 256, X (ix2 r a) * W (ix2 a c) := by
  rw [d1_eq]
  exact Dot2.matmul_zero_mm_apply _ none X W r c

/-! The broadcasts: a bias row over the 1024 rows, the gate's one-entry bias, a column over 256 or 3 columns. -/

/-- A 256-entry bias laid over every row: entry (r, k) is the bias's entry k. -/
theorem bias_apply (b : FVec Ideal S256 .f32) (r : Fin 1024) (k : Fin 256) :
    broadcastTo S1024x256 (shapeCast S1x256 b shapeCasts_S256_S1x256) broadcasts_S1x256_S1024x256 (ix2 r k) = b (ix1 k) :=
  (broadcastTo_1b_ab_apply _ broadcasts_S1x256_S1024x256 r k).trans (shapeCast_a_1a_apply b shapeCasts_S256_S1x256 0 k)

/-- A one-entry bias laid over a column: every entry is that one entry. -/
theorem bias1_apply (b : FVec Ideal S1 .f32) (r : Fin 1024) (c : Fin 1) :
    broadcastTo S1024x1 (shapeCast S1x1 b shapeCasts_S1_S1x1) broadcasts_S1x1_S1024x1 (ix2 r c) = b (ix1 0) := by
  obtain rfl : c = 0 := Subsingleton.elim _ _
  exact (broadcastTo_1b_ab_apply _ broadcasts_S1x1_S1024x1 r 0).trans (shapeCast_a_1a_apply b shapeCasts_S1_S1x1 0 0)

/-- A column laid over 256 columns: entry (r, k) is the column's entry r. -/
theorem col256_apply (v : FVec Ideal S1024x1 .f32) (r : Fin 1024) (k : Fin 256) :
    broadcastTo S1024x256 v broadcasts_S1024x1_S1024x256 (ix2 r k) = v (ix2 r 0) :=
  broadcastTo_apply v broadcasts_S1024x1_S1024x256 (ix2 r k) (ix2 r 0) fun ax => by
    match ax with
    | ⟨0, _⟩ => rfl
    | ⟨1, _⟩ => rfl

/-- A column laid over 3 columns: entry (r, k) is the column's entry r. -/
theorem col3_apply (v : FVec Ideal S1024x1 .f32) (r : Fin 1024) (k : Fin 3) :
    broadcastTo S1024x3 v broadcasts_S1024x1_S1024x3 (ix2 r k) = v (ix2 r 0) :=
  broadcastTo_apply v broadcasts_S1024x1_S1024x3 (ix2 r k) (ix2 r 0) fun ax => by
    match ax with
    | ⟨0, _⟩ => rfl
    | ⟨1, _⟩ => rfl

/-! The activations read at an index. -/

theorem logistic_apply {s : Shape} {φ : FTy} (v : FVec Ideal s φ) (i : s.Idx) : logistic v i = Ideal.logistic (v i) := rfl
theorem tanh_apply {s : Shape} {φ : FTy} (v : FVec Ideal s φ) (i : s.Idx) : tanh v i = Ideal.tanh (v i) := rfl

/-- The message branch's second product at (r, j): the sum over the 256 hidden entries, each the activation of the first
    affine layer applied to the input row, times the second weight matrix's entry. -/
theorem pay7_apply (v0 : Vec Ideal S1024x512 .f32) (v2 : Vec Ideal S1024x7 .f32) (v11 : Vec Ideal S517x256 .f32)
    (v12 : Vec Ideal S256 .f32) (v13 : Vec Ideal S256x256 .f32) (r : Fin 1024) (j : Fin 256) :
    k0_pay7 (F := Ideal) v0 v2 v11 v12 v13 (ix2 r j)
      = ∑ k : Fin 256, Egcl.silu (Egcl.dense (fun a c => v11 (ix2 a c)) (fun c => v12 (ix1 c))
          (fun a => k0_pay6 (F := Ideal) v0 v2 (ix2 r a)) k) * v13 (ix2 k j) := by
  unfold k0_pay7
  simp only [mm256_apply, mm517_apply, bias_apply, truncf_apply, mulf_apply, addf_apply, logistic_apply]
  rfl

/-- The message branch's second bias laid over every row. -/
theorem pay8_apply (v14 : Vec Ideal S256 .f32) (r : Fin 1024) (j : Fin 256) :
    k0_pay8 (F := Ideal) v14 (ix2 r j) = v14 (ix1 j) := by
  unfold k0_pay8
  exact bias_apply v14 r j

/-- The stored payload at (r, j): the edge table's row from the offset, its length, the input row and the message
    pre-activation — the gated message below column 256, the scaled offset from there on. -/
theorem pay1_apply (v4 : FVec Ideal S1024x3 .f32) (v9 : FVec Ideal S1024x1 .f32) (v10 : FVec Ideal S1024x517 .f32)
    (a2 : Vec Ideal S517x256 .f32) (a3 : Vec Ideal S256 .f32) (a4 : Vec Ideal S256x256 .f32) (a5 : Vec Ideal S256 .f32)
    (v15 : Vec Ideal S517x256 .f32) (v16 : Vec Ideal S256 .f32) (v17 : Vec Ideal S256x256 .f32) (v18 : Vec Ideal S256 .f32)
    (v19 : Vec Ideal S256x1 .f32) (v20 : Vec Ideal S256x1 .f32) (v21 : Vec Ideal S1 .f32)
    (v32 v34 : FVec Ideal S1024x256 .f32) (r : Fin 1024) (j : Fin 259) :
    k0_pay1 (F := Ideal) v4 v9 v10 v15 v16 v17 v18 v19 v20 v21 v32 v34 (ix2 r j)
      = Egcl.tail (Egcl.EdgeW.ofArrays a2 a3 a4 a5 v15 v16 v17 v18 v19 v20 v21)
          (fun a => v10 (ix2 r a)) (fun c => v4 (ix2 r c)) (v9 (ix2 r 0))
          (fun k => v32 (ix2 r k) + v34 (ix2 r k)) j := by
  unfold k0_pay1 Egcl.tail
  by_cases hj : j.val < 256
  · rw [dif_pos hj]
    refine (concatenate_pair_apply_left (t := S1024x259) (s₁ := S1024x256) (s₂ := S1024x3) (1 : Fin 2) _ _ concatenates_S1024x256_S1024x3_S1024x259_d1 (ix2 r j) rfl
      (ix2 r ⟨j.val, hj⟩) (fun b => by
        match b with
        | ⟨0, _⟩ => rfl
        | ⟨1, _⟩ => rfl)).trans ?_
    simp only [col256_apply, mm1_apply, bias1_apply, truncf_apply, mulf_apply, addf_apply, logistic_apply]
    rfl
  · rw [dif_neg hj]
    have hlt := j.isLt
    refine (concatenate_pair_apply_right (t := S1024x259) (s₁ := S1024x256) (s₂ := S1024x3) (1 : Fin 2) _ _ concatenates_S1024x256_S1024x3_S1024x259_d1 (ix2 r j) rfl rfl
      (ix2 r ⟨j.val - 256, by omega⟩) (fun b hb => by
        match b with
        | ⟨0, _⟩ => rfl
        | ⟨1, _⟩ => exact absurd rfl hb)
      (by show j.val - 256 + 256 = j.val; omega)).trans ?_
    simp only [col3_apply, mm1_apply, mm256_apply, mm517_apply, bias_apply, truncf_apply, mulf_apply, addf_apply,
      divf_apply, maximumf_apply, broadcast_apply, logistic_apply, tanh_apply]
    rfl

/-- The body's stored block at (r, j) is the edge table's row of edge r at entry j. -/
theorem out0_13_apply (x0 : Vec Ideal S1024x512 .f32) (x1 : Vec Ideal S1024x7 .f32) (x2 : Vec Ideal S517x256 .f32) (x3 : Vec Ideal S256 .f32) (x4 : Vec Ideal S256x256 .f32) (x5 : Vec Ideal S256 .f32) (x6 : Vec Ideal S517x256 .f32) (x7 : Vec Ideal S256 .f32) (x8 : Vec Ideal S256x256 .f32) (x9 : Vec Ideal S256 .f32) (x10 : Vec Ideal S256x1 .f32) (x11 : Vec Ideal S256x1 .f32) (x12 : Vec Ideal S1 .f32) (r : Fin 1024) (j : Fin 259) :
    out0_13 (F := Ideal) x0 x1 x2 x3 x4 x5 x6 x7 x8 x9 x10 x11 x12 (ix2 r j)
      = Egcl.edgeOut (Egcl.EdgeW.ofArrays x2 x3 x4 x5 x6 x7 x8 x9 x10 x11 x12)
          (fun k => x0 (ix2 r k))
          (fun k => x1 (ix2 r ⟨k.val, by have := k.isLt; omega⟩))
          (fun k => x1 (ix2 r ⟨k.val + 3, by have := k.isLt; omega⟩)) j := by
  have hz2 : (![0, 0] : Fin 2 → Nat) = fun _ => 0 := by
    funext a
    match a with
    | ⟨0, _⟩ => rfl
    | ⟨1, _⟩ => rfl
  have hz1 : (![0] : Fin 1 → Nat) = fun _ => 0 := by
    funext a
    match a with
    | ⟨0, _⟩ => rfl
  unfold out0_13
  rw [View.canon_unit_zero hz2]
  simp only [View.ld_unit_zero (S := S1024x512) hz2, View.ld_unit_zero (S := S1024x7) hz2,
    View.ld_unit_zero (S := S517x256) hz2, View.ld_unit_zero (S := S256) hz1, View.ld_unit_zero (S := S256x256) hz2,
    View.ld_unit_zero (S := S256x1) hz2, View.ld_unit_zero (S := S1) hz1]
  refine (pay1_apply _ _ _ x2 x3 x4 x5 x6 x7 x8 x9 x10 x11 x12 _ _ r j).trans ?_
  unfold Egcl.edgeOut
  have h3 : (fun c : Fin 3 => k0_pay3 (F := Ideal) x1 (ix2 r c))
      = fun k : Fin 3 => x1 (ix2 r ⟨k.val, by have := k.isLt; omega⟩) := funext fun c => pay3_apply x1 r c
  have h6 : (fun a : Fin 517 => k0_pay6 (F := Ideal) x0 x1 (ix2 r a))
      = Egcl.edgeIn (fun a => x0 (ix2 r a))
          (Egcl.sqlen (fun a => x1 (ix2 r ⟨a.val, by have := a.isLt; omega⟩)))
          (fun a => x1 (ix2 r ⟨a.val + 3, by have := a.isLt; omega⟩)) := funext fun a => pay6_apply x0 x1 r a
  have h5 := pay5_apply x1 r 0
  have h7 : (fun k : Fin 256 => k0_pay7 (F := Ideal) x0 x1 x2 x3 x4 (ix2 r k) + k0_pay8 (F := Ideal) x5 (ix2 r k))
      = Egcl.msgPre (Egcl.EdgeW.ofArrays x2 x3 x4 x5 x6 x7 x8 x9 x10 x11 x12)
          (Egcl.edgeIn (fun a => x0 (ix2 r a))
            (Egcl.sqlen (fun a => x1 (ix2 r ⟨a.val, by have := a.isLt; omega⟩)))
            (fun a => x1 (ix2 r ⟨a.val + 3, by have := a.isLt; omega⟩))) := funext fun k => by
    rw [pay7_apply, pay8_apply, h6]
    rfl
  rw [h3, h6, h5, h7]

end Cert.KernelIdeal.KEdge

end
-- ==== Proof.KEdgeArr.lean ====
import proofs.«179171_j8203387535901_1_alg».proof.Proof.Gen.KernelIdeal.Frame
import proofs.«179171_j8203387535901_1_alg».proof.Proof.Egcl
import proofs.«179171_j8203387535901_1_alg».proof.Proof.LibDot2
import Idealize.ShloMosaic.Lib.Pipeline.Value
import Idealize.ShloMosaic.Lib.ValueIdx
import Idealize.ShloMosaic.Lib.ValueLayout
import Idealize.ShloMosaic.PureOps.Ideal.Laws
import proofs.«179171_j8203387535901_1_alg».proof.Proof.KEdgePay

noncomputable section

open scoped BigOperators

namespace Cert.KernelIdeal.KEdge

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-! ## The index maps over the grid -/

/-- The row-blocked windows (gathered features; offsets and attributes; the edge table) sit at block
    (t, 0) at point t. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_13.index t (0 : Fin 2) = t.val ∧ win0_13.index t (1 : Fin 2) = 0 :=
  (by decide +kernel : ∀ t : Fin grid0.N, _)

/-- The first message-branch weight matrix sits at block (0, 0) at every point. -/
theorem idx_eW1 : ∀ t : Fin cfg0.N, win0_2.index t (0 : Fin 2) = 0 ∧ win0_2.index t (1 : Fin 2) = 0 :=
  (by decide +kernel : ∀ t : Fin grid0.N, _)

/-- The first message-branch bias sits at block 0 at every point. -/
theorem idx_eb1 : ∀ t : Fin cfg0.N, win0_3.index t (0 : Fin 1) = 0 :=
  (by decide +kernel : ∀ t : Fin grid0.N, _)

/-- The second message-branch weight matrix sits at block (0, 0) at every point. -/
theorem idx_eW2 : ∀ t : Fin cfg0.N, win0_4.index t (0 : Fin 2) = 0 ∧ win0_4.index t (1 : Fin 2) = 0 :=
  (by decide +kernel : ∀ t : Fin grid0.N, _)

/-- The second message-branch bias sits at block 0 at every point. -/
theorem idx_eb2 : ∀ t : Fin cfg0.N, win0_5.index t (0 : Fin 1) = 0 :=
  (by decide +kernel : ∀ t : Fin grid0.N, _)

/-- The first coordinate-branch weight matrix sits at block (0, 0) at every point. -/
theorem idx_cW1 : ∀ t : Fin cfg0.N, win0_6.index t (0 : Fin 2) = 0 ∧ win0_6.index t (1 : Fin 2) = 0 :=
  (by decide +kernel : ∀ t : Fin grid0.N, _)

/-- The first coordinate-branch bias sits at block 0 at every point. -/
theorem idx_cb1 : ∀ t : Fin cfg0.N, win0_7.index t (0 : Fin 1) = 0 :=
  (by decide +kernel : ∀ t : Fin grid0.N, _)

/-- The second coordinate-branch weight matrix sits at block (0, 0) at every point. -/
theorem idx_cW2 : ∀ t : Fin cfg0.N, win0_8.index t (0 : Fin 2) = 0 ∧ win0_8.index t (1 : Fin 2) = 0 :=
  (by decide +kernel : ∀ t : Fin grid0.N, _)

/-- The second coordinate-branch bias sits at block 0 at every point. -/
theorem idx_cb2 : ∀ t : Fin cfg0.N, win0_9.index t (0 : Fin 1) = 0 :=
  (by decide +kernel : ∀ t : Fin grid0.N, _)

/-- The coordinate branch's last column sits at block (0, 0) at every point. -/
theorem idx_cW3 : ∀ t : Fin cfg0.N, win0_10.index t (0 : Fin 2) = 0 ∧ win0_10.index t (1 : Fin 2) = 0 :=
  (by decide +kernel : ∀ t : Fin grid0.N, _)

/-- The gate's column sits at block (0, 0) at every point. -/
theorem idx_iW : ∀ t : Fin cfg0.N, win0_11.index t (0 : Fin 2) = 0 ∧ win0_11.index t (1 : Fin 2) = 0 :=
  (by decide +kernel : ∀ t : Fin grid0.N, _)

/-- The gate's bias sits at block 0 at every point. -/
theorem idx_ib : ∀ t : Fin cfg0.N, win0_12.index t (0 : Fin 1) = 0 :=
  (by decide +kernel : ∀ t : Fin grid0.N, _)

/-! ## Each input block, read where the output's rows say

A block's element sits in its array, on each axis, at block index × block size + 1 × its own
coordinate. -/

/-- Row r of the feature block at point t is row 1024 t + r of the gathered-feature array. -/
theorem blk_feat (c : Dev nD) (t : Fin cfg0.N) (r : Fin 1024) (k : Fin 512) (e : Fin 32768)
    (he : e.val = 1024 * t.val + r.val) :
    (iblk0 (F := Ideal) V c 0 t : S1024x512.Idx → EReal) (ix2 r k)
      = (V c main_v19 : S32768x512.Idx → EReal) (ix2 e k) := by
  obtain ⟨h0, h1, -⟩ := idx_rows t
  unfold iblk0
  rw [View.read_apply]
  show V c main_v19 _ = V c main_v19 _
  congr 1
  funext a
  apply Fin.ext
  match a with
  | ⟨0, _⟩ => show win0_0.index t (0 : Fin 2) * 1024 + 1 * r.val = e.val; rw [h0, he]; omega
  | ⟨1, _⟩ => show win0_0.index t (1 : Fin 2) * 512 + 1 * k.val = k.val; rw [h1]; omega

/-- Row r of the offset-and-attribute block at point t is row 1024 t + r of that array. -/
theorem blk_geo (c : Dev nD) (t : Fin cfg0.N) (r : Fin 1024) (k : Fin 7) (e : Fin 32768)
    (he : e.val = 1024 * t.val + r.val) :
    (iblk0 (F := Ideal) V c 1 t : S1024x7.Idx → EReal) (ix2 r k)
      = (V c main_v20 : S32768x7.Idx → EReal) (ix2 e k) := by
  obtain ⟨-, -, h0, h1, -⟩ := idx_rows t
  unfold iblk0
  rw [View.read_apply]
  show V c main_v20 _ = V c main_v20 _
  congr 1
  funext a
  apply Fin.ext
  match a with
  | ⟨0, _⟩ => show win0_1.index t (0 : Fin 2) * 1024 + 1 * r.val = e.val; rw [h0, he]; omega
  | ⟨1, _⟩ => show win0_1.index t (1 : Fin 2) * 7 + 1 * k.val = k.val; rw [h1]; omega

/-- The block of the first message-branch weight matrix at any point is the whole matrix. -/
theorem blk_eW1 (c : Dev nD) (t : Fin cfg0.N) :
    (iblk0 (F := Ideal) V c 2 t : S517x256.Idx → EReal) = (V c main_arg6 : S517x256.Idx → EReal) := by
  obtain ⟨h0, h1⟩ := idx_eW1 t
  funext y
  unfold iblk0
  rw [View.read_apply]
  show V c main_arg6 _ = V c main_arg6 y
  congr 1
  funext a
  apply Fin.ext
  match a with
  | ⟨0, _⟩ => show win0_2.index t (0 : Fin 2) * 517 + 1 * (y 0).val = (y 0).val; rw [h0]; omega
  | ⟨1, _⟩ => show win0_2.index t (1 : Fin 2) * 256 + 1 * (y 1).val = (y 1).val; rw [h1]; omega

/-- The block of the first message-branch bias at any point is the whole bias. -/
theorem blk_eb1 (c : Dev nD) (t : Fin cfg0.N) :
    (iblk0 (F := Ideal) V c 3 t : S256.Idx → EReal) = (V c main_arg7 : S256.Idx → EReal) := by
  have h0 := idx_eb1 t
  funext y
  unfold iblk0
  rw [View.read_apply]
  show V c main_arg7 _ = V c main_arg7 y
  congr 1
  funext a
  apply Fin.ext
  match a with
  | ⟨0, _⟩ => show win0_3.index t (0 : Fin 1) * 256 + 1 * (y 0).val = (y 0).val; rw [h0]; omega

/-- The block of the second message-branch weight matrix at any point is the whole matrix. -/
theorem blk_eW2 (c : Dev nD) (t : Fin cfg0.N) :
    (iblk0 (F := Ideal) V c 4 t : S256x256.Idx → EReal) = (V c main_arg8 : S256x256.Idx → EReal) := by
  obtain ⟨h0, h1⟩ := idx_eW2 t
  funext y
  unfold iblk0
  rw [View.read_apply]
  show V c main_arg8 _ = V c main_arg8 y
  congr 1
  funext a
  apply Fin.ext
  match a with
  | ⟨0, _⟩ => show win0_4.index t (0 : Fin 2) * 256 + 1 * (y 0).val = (y 0).val; rw [h0]; omega
  | ⟨1, _⟩ => show win0_4.index t (1 : Fin 2) * 256 + 1 * (y 1).val = (y 1).val; rw [h1]; omega

/-- The block of the second message-branch bias at any point is the whole bias. -/
theorem blk_eb2 (c : Dev nD) (t : Fin cfg0.N) :
    (iblk0 (F := Ideal) V c 5 t : S256.Idx → EReal) = (V c main_arg9 : S256.Idx → EReal) := by
  have h0 := idx_eb2 t
  funext y
  unfold iblk0
  rw [View.read_apply]
  show V c main_arg9 _ = V c main_arg9 y
  congr 1
  funext a
  apply Fin.ext
  match a with
  | ⟨0, _⟩ => show win0_5.index t (0 : Fin 1) * 256 + 1 * (y 0).val = (y 0).val; rw [h0]; omega

/-- The block of the first coordinate-branch weight matrix at any point is the whole matrix. -/
theorem blk_cW1 (c : Dev nD) (t : Fin cfg0.N) :
    (iblk0 (F := Ideal) V c 6 t : S517x256.Idx → EReal) = (V c main_arg10 : S517x256.Idx → EReal) := by
  obtain ⟨h0, h1⟩ := idx_cW1 t
  funext y
  unfold iblk0
  rw [View.read_apply]
  show V c main_arg10 _ = V c main_arg10 y
  congr 1
  funext a
  apply Fin.ext
  match a with
  | ⟨0, _⟩ => show win0_6.index t (0 : Fin 2) * 517 + 1 * (y 0).val = (y 0).val; rw [h0]; omega
  | ⟨1, _⟩ => show win0_6.index t (1 : Fin 2) * 256 + 1 * (y 1).val = (y 1).val; rw [h1]; omega

/-- The block of the first coordinate-branch bias at any point is the whole bias. -/
theorem blk_cb1 (c : Dev nD) (t : Fin cfg0.N) :
    (iblk0 (F := Ideal) V c 7 t : S256.Idx → EReal) = (V c main_arg11 : S256.Idx → EReal) := by
  have h0 := idx_cb1 t
  funext y
  unfold iblk0
  rw [View.read_apply]
  show V c main_arg11 _ = V c main_arg11 y
  congr 1
  funext a
  apply Fin.ext
  match a with
  | ⟨0, _⟩ => show win0_7.index t (0 : Fin 1) * 256 + 1 * (y 0).val = (y 0).val; rw [h0]; omega

/-- The block of the second coordinate-branch weight matrix at any point is the whole matrix. -/
theorem blk_cW2 (c : Dev nD) (t : Fin cfg0.N) :
    (iblk0 (F := Ideal) V c 8 t : S256x256.Idx → EReal) = (V c main_arg12 : S256x256.Idx → EReal) := by
  obtain ⟨h0, h1⟩ := idx_cW2 t
  funext y
  unfold iblk0
  rw [View.read_apply]
  show V c main_arg12 _ = V c main_arg12 y
  congr 1
  funext a
  apply Fin.ext
  match a with
  | ⟨0, _⟩ => show win0_8.index t (0 : Fin 2) * 256 + 1 * (y 0).val = (y 0).val; rw [h0]; omega
  | ⟨1, _⟩ => show win0_8.index t (1 : Fin 2) * 256 + 1 * (y 1).val = (y 1).val; rw [h1]; omega

/-- The block of the second coordinate-branch bias at any point is the whole bias. -/
theorem blk_cb2 (c : Dev nD) (t : Fin cfg0.N) :
    (iblk0 (F := Ideal) V c 9 t : S256.Idx → EReal) = (V c main_arg13 : S256.Idx → EReal) := by
  have h0 := idx_cb2 t
  funext y
  unfold iblk0
  rw [View.read_apply]
  show V c main_arg13 _ = V c main_arg13 y
  congr 1
  funext a
  apply Fin.ext
  match a with
  | ⟨0, _⟩ => show win0_9.index t (0 : Fin 1) * 256 + 1 * (y 0).val = (y 0).val; rw [h0]; omega

/-- The block of the coordinate branch's last column at any point is the whole column. -/
theorem blk_cW3 (c : Dev nD) (t : Fin cfg0.N) :
    (iblk0 (F := Ideal) V c 10 t : S256x1.Idx → EReal) = (V c main_arg14 : S256x1.Idx → EReal) := by
  obtain ⟨h0, h1⟩ := idx_cW3 t
  funext y
  unfold iblk0
  rw [View.read_apply]
  show V c main_arg14 _ = V c main_arg14 y
  congr 1
  funext a
  apply Fin.ext
  match a with
  | ⟨0, _⟩ => show win0_10.index t (0 : Fin 2) * 256 + 1 * (y 0).val = (y 0).val; rw [h0]; omega
  | ⟨1, _⟩ => show win0_10.index t (1 : Fin 2) * 1 + 1 * (y 1).val = (y 1).val; rw [h1]; omega

/-- The block of the gate's column at any point is the whole column. -/
theorem blk_iW (c : Dev nD) (t : Fin cfg0.N) :
    (iblk0 (F := Ideal) V c 11 t : S256x1.Idx → EReal) = (V c main_arg19 : S256x1.Idx → EReal) := by
  obtain ⟨h0, h1⟩ := idx_iW t
  funext y
  unfold iblk0
  rw [View.read_apply]
  show V c main_arg19 _ = V c main_arg19 y
  congr 1
  funext a
  apply Fin.ext
  match a with
  | ⟨0, _⟩ => show win0_11.index t (0 : Fin 2) * 256 + 1 * (y 0).val = (y 0).val; rw [h0]; omega
  | ⟨1, _⟩ => show win0_11.index t (1 : Fin 2) * 1 + 1 * (y 1).val = (y 1).val; rw [h1]; omega

/-- The block of the gate's bias at any point is the whole one-entry array. -/
theorem blk_ib (c : Dev nD) (t : Fin cfg0.N) :
    (iblk0 (F := Ideal) V c 12 t : S1.Idx → EReal) = (V c main_arg20 : S1.Idx → EReal) := by
  have h0 := idx_ib t
  funext y
  unfold iblk0
  rw [View.read_apply]
  show V c main_arg20 _ = V c main_arg20 y
  congr 1
  funext a
  apply Fin.ext
  match a with
  | ⟨0, _⟩ => show win0_12.index t (0 : Fin 1) * 1 + 1 * (y 0).val = (y 0).val; rw [h0]; omega

/-! ## The edge table as one function of the arrays -/

/-- The edge weights read off the weight arrays as the region finds them. -/
abbrev edgeW (c : Dev nD) : Egcl.EdgeW :=
  Egcl.EdgeW.ofArrays (V c main_arg6) (V c main_arg7) (V c main_arg8) (V c main_arg9) (V c main_arg10)
    (V c main_arg11) (V c main_arg12) (V c main_arg13) (V c main_arg14) (V c main_arg19) (V c main_arg20)

/-- Entry j of edge e's row: the specification's row of the gathered features, the offset and the
    attributes of edge e as the arrays hold them. -/
def edgeRow (c : Dev nD) (e : Fin 32768) (j : Fin 259) : EReal :=
  Egcl.edgeOut (edgeW V c)
    (fun k => V c main_v19 (ix2 e k))
    (fun k => V c main_v20 (ix2 e ⟨k.val, by have := k.isLt; omega⟩))
    (fun k => V c main_v20 (ix2 e ⟨k.val + 3, by have := k.isLt; omega⟩)) j

/-- The whole edge table: at index i, entry (i 1) of the row of edge (i 0). -/
def table (c : Dev nD) : S32768x259.Idx → EReal := fun i => edgeRow V c (i 0) (i 1)

/-- The weights read off the weight blocks at a point are the weights read off the arrays: every
    weight block is its whole array. -/
theorem weights_eq (c : Dev nD) (t : Fin cfg0.N) :
    Egcl.EdgeW.ofArrays (iblk0 (F := Ideal) V c 2 t) (iblk0 (F := Ideal) V c 3 t) (iblk0 (F := Ideal) V c 4 t)
        (iblk0 (F := Ideal) V c 5 t) (iblk0 (F := Ideal) V c 6 t) (iblk0 (F := Ideal) V c 7 t)
        (iblk0 (F := Ideal) V c 8 t) (iblk0 (F := Ideal) V c 9 t) (iblk0 (F := Ideal) V c 10 t)
        (iblk0 (F := Ideal) V c 11 t) (iblk0 (F := Ideal) V c 12 t)
      = edgeW V c := by
  have e2 := blk_eW1 V c t
  have e3 := blk_eb1 V c t
  have e4 := blk_eW2 V c t
  have e5 := blk_eb2 V c t
  have e6 := blk_cW1 V c t
  have e7 := blk_cb1 V c t
  have e8 := blk_cW2 V c t
  have e9 := blk_cb2 V c t
  have e10 := blk_cW3 V c t
  have e11 := blk_iW V c t
  have e12 := blk_ib V c t
  show Egcl.EdgeW.ofArrays _ _ _ _ _ _ _ _ _ _ _ = Egcl.EdgeW.ofArrays _ _ _ _ _ _ _ _ _ _ _
  rw [e2, e3, e4, e5, e6, e7, e8, e9, e10, e11, e12]

/-- What the body leaves at entry y of the output block at point t is the table's entry at the
    index i whose row is 1024 t + (y 0) and whose column is (y 1): the payload is the specification's
    row of the input blocks' rows, each weight block is its whole array, and row r of the feature
    block and of the offset-and-attribute block is row 1024 t + r of its array. -/
theorem out_pt (c : Dev nD) (t : Fin cfg0.N) (y : S1024x259.Idx) (i : S32768x259.Idx)
    (h0 : (i 0).val = 1024 * t.val + (y 0).val) (h1 : (i 1).val = (y 1).val) :
    out0_13 (F := Ideal) (iblk0 V c 0 t) (iblk0 V c 1 t) (iblk0 V c 2 t) (iblk0 V c 3 t) (iblk0 V c 4 t)
        (iblk0 V c 5 t) (iblk0 V c 6 t) (iblk0 V c 7 t) (iblk0 V c 8 t) (iblk0 V c 9 t) (iblk0 V c 10 t)
        (iblk0 V c 11 t) (iblk0 V c 12 t) y
      = table V c i := by
  obtain ⟨r, q, rfl⟩ : ∃ (r : Fin 1024) (q : Fin 259), y = ix2 r q := ⟨y 0, y 1, eq_ix2 y⟩
  obtain ⟨e, j, rfl⟩ : ∃ (e : Fin 32768) (j : Fin 259), i = ix2 e j := ⟨i 0, i 1, eq_ix2 i⟩
  have he : e.val = 1024 * t.val + r.val := h0
  have hj : j = q := Fin.ext h1
  subst hj
  refine (out0_13_apply (iblk0 (F := Ideal) V c 0 t) (iblk0 (F := Ideal) V c 1 t) (iblk0 (F := Ideal) V c 2 t)
    (iblk0 (F := Ideal) V c 3 t) (iblk0 (F := Ideal) V c 4 t) (iblk0 (F := Ideal) V c 5 t)
    (iblk0 (F := Ideal) V c 6 t) (iblk0 (F := Ideal) V c 7 t) (iblk0 (F := Ideal) V c 8 t)
    (iblk0 (F := Ideal) V c 9 t) (iblk0 (F := Ideal) V c 10 t) (iblk0 (F := Ideal) V c 11 t)
    (iblk0 (F := Ideal) V c 12 t) r j).trans ?_
  show _ = edgeRow V c e j
  unfold edgeRow
  rw [weights_eq V c t]
  have hf : (fun k : Fin 512 => (iblk0 (F := Ideal) V c 0 t : S1024x512.Idx → EReal) (ix2 r k))
      = fun k => V c main_v19 (ix2 e k) :=
    funext fun k => blk_feat V c t r k e he
  have hd : (fun k : Fin 3 => (iblk0 (F := Ideal) V c 1 t : S1024x7.Idx → EReal) (ix2 r ⟨k.val, by have := k.isLt; omega⟩))
      = fun k => V c main_v20 (ix2 e ⟨k.val, by have := k.isLt; omega⟩) :=
    funext fun k => blk_geo V c t r _ e he
  have ha : (fun k : Fin 4 => (iblk0 (F := Ideal) V c 1 t : S1024x7.Idx → EReal) (ix2 r ⟨k.val + 3, by have := k.isLt; omega⟩))
      = fun k => V c main_v20 (ix2 e ⟨k.val + 3, by have := k.isLt; omega⟩) :=
    funext fun k => blk_geo V c t r _ e he
  rw [hf, hd, ha]

/-! ## What each point writes back, and the cover -/

/-- What point t writes back is block t of the table. -/
theorem flushed_eq (c : Dev nD) (t : Fin cfg0.N) :
    (dat0 (F := Ideal) V c).flushed 13 t = ((cfg0.win 13).blk t).view.read (Elt Ideal) (table V c) := by
  show (cfg0.win 13).cut (grid0.coords t) ((dat0 V c).after 13 t) = _
  rw [after0_13]
  obtain ⟨-, -, -, -, h0, h1⟩ := idx_rows t
  funext y
  rw [View.read_apply]
  show _ = table V c (((cfg0.win 13).blk t).view.emb y)
  refine out_pt V c t _ _ ?_ ?_
  · show win0_13.index t (0 : Fin 2) * 1024 + 1 * (y 0).val = 1024 * t.val + (y 0).val
    rw [h0]; omega
  · show win0_13.index t (1 : Fin 2) * 259 + 1 * (y 1).val = (y 1).val
    rw [h1]; omega

/-- An index of the edge table is in point t's block iff each coordinate is in the block's range on
    its axis. -/
theorem mem_blk (t : Fin cfg0.N) (i : S32768x259.Idx) :
    i ∈ ((cfg0.win 13).blk t).view.set ↔ ∀ a : Fin 2, win0_13.index t a * S1024x259.size a ≤ (i a).val
      ∧ (i a).val < win0_13.index t a * S1024x259.size a + S1024x259.size a := by
  show i ∈ ((View.whole main_v21).slice (win0_13.rect t)).set ↔ _
  rw [View.set_slice_whole, Rect.mem_set_unit]
  exact Iff.rfl

/-- Every index of the table is in the block of the point that handles its row: row e belongs to
    point e / 1024, and every column to the block's one column range. -/
theorem cover (i : S32768x259.Idx) :
    ∃ t : Fin cfg0.N, (cfg0.win 13).flush t = true ∧ i ∈ ((cfg0.win 13).blk t).view.set := by
  have hi0 : (i 0).val < 32768 := (i 0).isLt
  have hi1 : (i 1).val < 259 := (i 1).isLt
  have hN : cfg0.N = 32 := N_0
  have ht : (i 0).val / 1024 < cfg0.N := by rw [hN]; omega
  obtain ⟨-, -, -, -, h0, h1⟩ := idx_rows ⟨(i 0).val / 1024, ht⟩
  refine ⟨⟨(i 0).val / 1024, ht⟩, flush0_13 _, ?_⟩
  rw [mem_blk]
  intro a
  match a with
  | ⟨0, _⟩ =>
    show win0_13.index ⟨(i 0).val / 1024, ht⟩ (0 : Fin 2) * 1024 ≤ (i 0).val
      ∧ (i 0).val < win0_13.index ⟨(i 0).val / 1024, ht⟩ (0 : Fin 2) * 1024 + 1024
    rw [h0]
    show (i 0).val / 1024 * 1024 ≤ (i 0).val ∧ (i 0).val < (i 0).val / 1024 * 1024 + 1024
    omega
  | ⟨1, _⟩ =>
    show win0_13.index ⟨(i 0).val / 1024, ht⟩ (1 : Fin 2) * 259 ≤ (i 1).val
      ∧ (i 1).val < win0_13.index ⟨(i 0).val / 1024, ht⟩ (1 : Fin 2) * 259 + 259
    rw [h1]; omega

/-- After the region the edge-table array holds the table: every point writes back its block of
    the table and the blocks cover the array. -/
theorem arr_eq (c : Dev nD) : (dat0 (F := Ideal) V c).arrAt 13 cfg0.N = table V c :=
  (dat0 (F := Ideal) V c).arrAt_eq_of_cover 13 (table V c) (fun t _ => flushed_eq V c t) cover

/-- After the first region the edge-table array holds, row by row, the specification's edge row of
    the arrays as the region found them. -/
theorem edge_table (c : Dev nD) (e : Fin 32768) (j : Fin 259) :
    (dat0 (F := Ideal) V c).arrAt 13 cfg0.N (ix2 e j)
      = Egcl.edgeOut (Egcl.EdgeW.ofArrays (V c main_arg6) (V c main_arg7) (V c main_arg8) (V c main_arg9) (V c main_arg10) (V c main_arg11) (V c main_arg12) (V c main_arg13) (V c main_arg14) (V c main_arg19) (V c main_arg20))
          (fun k => V c main_v19 (ix2 e k))
          (fun k => V c main_v20 (ix2 e ⟨k.val, by have := k.isLt; omega⟩))
          (fun k => V c main_v20 (ix2 e ⟨k.val + 3, by have := k.isLt; omega⟩)) j :=
  (congrFun (arr_eq V c) (ix2 e j)).trans rfl

end Cert.KernelIdeal.KEdge

end
-- ==== Proof.KAgg.lean ====
import proofs.«179171_j8203387535901_1_alg».proof.Proof.Gen.KernelIdeal.Frame
import proofs.«179171_j8203387535901_1_alg».proof.Proof.Egcl
import proofs.«179171_j8203387535901_1_alg».proof.Proof.LibDot2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KAgg

open Cert.KernelIdeal Cert.KernelIdeal.Gen Idealize.ShloMosaic Idealize.ShloMosaic.TcCoe Idealize.ShloMosaic.ValueIdx Idealize.SL.Sem

/-! ## What one grid point leaves in the output block

The output block is the whole 2048-by-259 table; the body loads and stores it through the whole-shape
rectangle at zero offsets. -/

theorem hz : (![0, 0] : Fin 2 → Nat) = fun _ => 0 := funext fun a => by fin_cases a <;> rfl

section Pieces
variable {F : FTy → Type} [FloatOps F]

/-- At a point other than the first the body leaves, over the running table `xo`, the running table
    plus the product of the two input blocks: its one covering store's payload. -/
theorem out_B (c : Dev nD) (i : grid1.Coords) (a1 : Memref sig .tc .vmem S2048x1024 .f32) (h1 : a1.IsWhole)
    (a2 : Memref sig .tc .vmem S1024x259 .f32) (h2 : a2.IsWhole) (a3 : Memref sig .tc .vmem S2048x259 .f32) (h3 : a3.IsWhole)
    (hc : ¬cond1_0 i) (x0 : Vec F S2048x1024 .f32) (x1 : Vec F S1024x259 .f32) (xo : Vec F S2048x259 .f32) :
    out1_B_2 c i a1 h1 a2 h2 a3 h3 hc x0 x1 xo = k1_pay2 x0 x1 xo := by
  unfold out1_B_2
  rw [View.read_writes_eq_canon _ _ _ (cover1_B_2 c i a1 h1 a2 h2 a3 h3 hc x0 x1 xo)]
  unfold kernelRun1_B
  dsimp only
  sl_unfold_words
  rw [View.canon_unit_zero hz]
  simp only [View.readAt_eq_ld, h1.read_unread, h2.read_unread, h3.read_unread,
    View.ld_unit_zero (S := S2048x1024) hz, View.ld_unit_zero (S := S1024x259) hz, View.ld_unit_zero (S := S2048x259) hz]

/-- At the first point the body stores the zero table, reads it back, and leaves zero plus the product
    of the two input blocks: the later of its two stores covers the block. -/
theorem out_A (c : Dev nD) (i : grid1.Coords) (a1 : Memref sig .tc .vmem S2048x1024 .f32) (h1 : a1.IsWhole)
    (a2 : Memref sig .tc .vmem S1024x259 .f32) (h2 : a2.IsWhole) (a3 : Memref sig .tc .vmem S2048x259 .f32) (h3 : a3.IsWhole)
    (hc : cond1_0 i) (x0 : Vec F S2048x1024 .f32) (x1 : Vec F S1024x259 .f32) :
    out1_A_2 c i a1 h1 a2 h2 a3 h3 hc x0 x1 = k1_pay2 x0 x1 (k1_pay1 (F := F)) := by
  unfold out1_A_2
  rw [View.read_writes_eq_canon _ _ _ (cover1_A_2 c i a1 h1 a2 h2 a3 h3 hc x0 x1)]
  unfold kernelRun1_A
  dsimp only
  sl_unfold_words
  rw [View.canon_cons_unit_zero (S := S2048x259) hz, View.readCov_unit_zero (S := S2048x259) _ hz]
  simp only [View.readAt_eq_ld, h1.read_unread, h2.read_unread,
    View.ld_unit_zero (S := S2048x1024) hz, View.ld_unit_zero (S := S1024x259) hz]

end Pieces

/-! ## The payloads at an entry, over the extended reals -/

/-- The dimension numbers of the block product are the plain matrix product's. -/
theorem d_eq : dot_S2048x1024_S1024x259_S2048x259_1_0_0_1_n_n
    = Dot2.mmDims 2048 1024 259 dot_S2048x1024_S1024x259_S2048x259_1_0_0_1_n_n.wf := rfl

/-- The zero table's entries are zero. -/
theorem pay1_apply (p : Fin 2048) (q : Fin 259) : (k1_pay1 (F := Ideal)) (ix2 p q) = 0 := by
  unfold k1_pay1
  exact Ideal.ofBits_zero_f32

/-- The update at entry (p, q): the running entry plus the row-by-column product of the two blocks
    (the narrowing to half precision is the identity on the extended reals, and the product accumulates
    into zero). -/
theorem pay2_apply (v3 : Vec Ideal S2048x1024 .f32) (v5 : Vec Ideal S1024x259 .f32) (v8 : Vec Ideal S2048x259 .f32)
    (p : Fin 2048) (q : Fin 259) :
    k1_pay2 (F := Ideal) v3 v5 v8 (ix2 p q) = v8 (ix2 p q) + ∑ k : Fin 1024, v3 (ix2 p k) * v5 (ix2 k q) := by
  unfold k1_pay2
  rw [shapeCast_self, shapeCast_self, d_eq]
  refine congrArg (v8 (ix2 p q) + ·) ?_
  exact Dot2.matmul_zero_mm_apply _ none _ _ p q

/-! ## The blocks of the two operands

Grid point t reads columns 1024 t … 1024 t + 1023 of the incidence matrix and the same rows of the
edge table. -/

section Agg
variable (V : (c : Dev nD) → (b : Ref sig .tc) → Buf (Elt Ideal) ((c : Thread nD τ).loc b))

/-- The incidence matrix as the region finds it. -/
abbrev rarr (c : Dev nD) : Vec Ideal S2048x32768 .f32 := V c main_arg3
/-- The edge table as the region finds it. -/
abbrev tarr (c : Dev nD) : Vec Ideal S32768x259 .f32 := V c main_v21
/-- The incidence matrix's block at point t. -/
abbrev rblk (c : Dev nD) (t : Fin cfg1.N) : Vec Ideal S2048x1024 .f32 := iblk1 V c 0 t
/-- The edge table's block at point t. -/
abbrev tblk (c : Dev nD) (t : Fin cfg1.N) : Vec Ideal S1024x259 .f32 := iblk1 V c 1 t

/-- The block indices: the incidence matrix's block at point t is (0, t), the edge table's (t, 0). -/
theorem idx_facts : ∀ t : Fin cfg1.N, win1_0.index t (0 : Fin 2) = 0 ∧ win1_0.index t (1 : Fin 2) = t.val
      ∧ win1_1.index t (0 : Fin 2) = t.val ∧ win1_1.index t (1 : Fin 2) = 0 :=
  (by decide +kernel : ∀ t : Fin grid1.N, win1_0.index t (0 : Fin 2) = 0 ∧ win1_0.index t (1 : Fin 2) = t.val
      ∧ win1_1.index t (0 : Fin 2) = t.val ∧ win1_1.index t (1 : Fin 2) = 0)

/-- Entry (p, k) of the incidence matrix's block t is entry (p, 1024 t + k) of the matrix. -/
theorem rblk_apply (c : Dev nD) (t : Fin cfg1.N) (p : Fin 2048) (k : Fin 1024) (e : Fin 32768)
    (he : e.val = 1024 * t.val + k.val) : rblk V c t (ix2 p k) = rarr V c (ix2 p e) := by
  obtain ⟨h00, h01, -, -⟩ := idx_facts t
  unfold rblk rarr iblk1
  rw [View.read_apply]
  show V c main_arg3 _ = V c main_arg3 _
  congr 1
  funext a
  apply Fin.ext
  match a with
  | ⟨0, _⟩ => show win1_0.index t 0 * 2048 + 1 * p.val = p.val; rw [h00]; omega
  | ⟨1, _⟩ => show win1_0.index t 1 * 1024 + 1 * k.val = e.val; rw [h01, he]; omega

/-- Entry (k, q) of the edge table's block t is entry (1024 t + k, q) of the table. -/
theorem tblk_apply (c : Dev nD) (t : Fin cfg1.N) (k : Fin 1024) (q : Fin 259) (e : Fin 32768)
    (he : e.val = 1024 * t.val + k.val) : tblk V c t (ix2 k q) = tarr V c (ix2 e q) := by
  obtain ⟨-, -, h10, h11⟩ := idx_facts t
  unfold tblk tarr iblk1
  rw [View.read_apply]
  show V c main_v21 _ = V c main_v21 _
  congr 1
  funext a
  apply Fin.ext
  match a with
  | ⟨0, _⟩ => show win1_1.index t 0 * 1024 + 1 * k.val = e.val; rw [h10, he]; omega
  | ⟨1, _⟩ => show win1_1.index t 1 * 259 + 1 * q.val = q.val; rw [h11]; omega

/-! ## The running table after each point -/

/-- The product of the two blocks of point s at entry (p, q): Σₖ R[p, 1024 s + k] · T[1024 s + k, q];
    zero past the last point. -/
def blockDot (c : Dev nD) (p : Fin 2048) (q : Fin 259) (s : ℕ) : EReal :=
  if hs : s < cfg1.N then ∑ k : Fin 1024, rblk V c ⟨s, hs⟩ (ix2 p k) * tblk V c ⟨s, hs⟩ (ix2 k q) else 0

/-- After point n the output block holds, at (p, q), the sum of the block products of points 0 … n:
    the first point starts from zero, each later one adds its block product to what the point before
    left. By induction on the point. -/
theorem outsAt_apply (c : Dev nD) (p : Fin 2048) (q : Fin 259) :
    ∀ (n : ℕ) (h : n < cfg1.N), outsAt1 V c n h (ix2 p q) = ∑ s ∈ Finset.range (n + 1), blockDot V c p q s
  | 0, h => by
    refine (congrFun (outsAt1_A V c ⟨0, h⟩ rfl) (ix2 p q)).trans ?_
    refine (congrFun (out_A (F := Ideal) c (grid1.coords ⟨0, h⟩) (ms1_0 ⟨0, h⟩) (hs1_0 ⟨0, h⟩) (ms1_1 ⟨0, h⟩) (hs1_1 ⟨0, h⟩)
      (ms1_2 ⟨0, h⟩) (hs1_2 ⟨0, h⟩) ((hcond1_0 ⟨0, h⟩).mpr rfl) (rblk V c ⟨0, h⟩) (tblk V c ⟨0, h⟩)) (ix2 p q)).trans ?_
    refine (pay2_apply (rblk V c ⟨0, h⟩) (tblk V c ⟨0, h⟩) (k1_pay1 (F := Ideal)) p q).trans ?_
    rw [pay1_apply, zero_add, Finset.sum_range_one, blockDot, dif_pos h]
  | n + 1, h => by
    have hN : cfg1.N = 32 := N_1
    have hB : ¬(⟨n + 1, h⟩ : Fin cfg1.N).val % 32 = 0 := by dsimp only; omega
    rw [outsAt1_B V c ⟨n + 1, h⟩ hB]
    dsimp only
    refine (congrFun (out_B (F := Ideal) c (grid1.coords ⟨n + 1, h⟩) (ms1_0 ⟨n + 1, h⟩) (hs1_0 ⟨n + 1, h⟩) (ms1_1 ⟨n + 1, h⟩) (hs1_1 ⟨n + 1, h⟩)
      (ms1_2 ⟨n + 1, h⟩) (hs1_2 ⟨n + 1, h⟩) (fun h' => hB ((hcond1_0 ⟨n + 1, h⟩).mp h')) (rblk V c ⟨n + 1, h⟩) (tblk V c ⟨n + 1, h⟩)
      (outsAt1 V c n (Nat.lt_of_succ_lt h))) (ix2 p q)).trans ?_
    refine (pay2_apply (rblk V c ⟨n + 1, h⟩) (tblk V c ⟨n + 1, h⟩) (outsAt1 V c n (Nat.lt_of_succ_lt h)) p q).trans ?_
    rw [outsAt_apply c p q n (Nat.lt_of_succ_lt h), Finset.sum_range_succ _ (n + 1), blockDot, dif_pos h]

/-! ## The sum over the edges, block by block

An edge index e below 32768 is 1024 s + k for exactly one block s below 32 and one position k below
1024; sums in the extended reals are commutative, so the sum over the edges is the sum over the
blocks of the sums inside each block. -/

/-- The pair (block, position inside the block) of an edge index, and back. -/
def blockEquiv : Fin 32 × Fin 1024 ≃ Fin 32768 where
  toFun x := ⟨1024 * x.1.val + x.2.val, by have := x.1.isLt; have := x.2.isLt; omega⟩
  invFun e := (⟨e.val / 1024, by have := e.isLt; omega⟩, ⟨e.val % 1024, by omega⟩)
  left_inv := by
    rintro ⟨s, k⟩
    have := s.isLt; have := k.isLt
    refine Prod.ext (Fin.ext ?_) (Fin.ext ?_)
    · show (1024 * s.val + k.val) / 1024 = s.val; omega
    · show (1024 * s.val + k.val) % 1024 = k.val; omega
  right_inv := by
    intro e
    refine Fin.ext ?_
    show 1024 * (e.val / 1024) + e.val % 1024 = e.val; omega

/-- The sum of the 32 block products at (p, q) is the full row-by-column product Σₑ R[p, e] · T[e, q]. -/
theorem sum_blocks (c : Dev nD) (p : Fin 2048) (q : Fin 259) :
    ∑ s ∈ Finset.range 32, blockDot V c p q s = ∑ e : Fin 32768, rarr V c (ix2 p e) * tarr V c (ix2 e q) := by
  rw [Finset.sum_range, ← Equiv.sum_comp blockEquiv, Fintype.sum_prod_type]
  refine Finset.sum_congr rfl fun s _ => ?_
  have hs : s.val < cfg1.N := lt_of_lt_of_eq s.isLt (show cfg1.N = 32 from N_1).symm
  rw [blockDot, dif_pos hs]
  refine Finset.sum_congr rfl fun k _ => ?_
  exact congrArg₂ (· * ·) (rblk_apply V c ⟨s.val, hs⟩ p k (blockEquiv (s, k)) rfl)
    (tblk_apply V c ⟨s.val, hs⟩ k q (blockEquiv (s, k)) rfl)

/-! ## The result array -/

/-- The last grid point. -/
abbrev tLast : Fin cfg1.N := ⟨31, by rw [show cfg1.N = 32 from N_1]; decide⟩

/-- The full product as a table: entry i is Σₑ R[i₀, e] · T[e, i₁]. -/
abbrev aggTable (c : Dev nD) : Vec Ideal S2048x259 .f32 :=
  fun i => Egcl.agg (fun a b => rarr V c (ix2 a b)) (fun a b => tarr V c (ix2 a b)) (i 0) (i 1)

/-- The same table as contents of the result array. -/
abbrev aggArr (c : Dev nD) : Buf (Elt Ideal) ((c : Thread nD τ).loc main_v22) := aggTable V c

/-- After the last point the output block holds the full product. -/
theorem outsAt_last (c : Dev nD) : outsAt1 V c tLast.val tLast.isLt = aggTable V c := by
  funext i
  obtain ⟨p, q, rfl⟩ : ∃ (p : Fin 2048) (q : Fin 259), i = ix2 p q := ⟨i 0, i 1, eq_ix2 i⟩
  refine (outsAt_apply V c p q 31 tLast.isLt).trans ?_
  exact sum_blocks V c p q

/-- The one write-back, after the last point, writes the full product: the output's one block is the
    whole array, read through zero offsets. -/
theorem flushed_eq (c : Dev nD) (t : Fin cfg1.N) (hf : (cfg1.win 2).flush t = true) :
    (dat1 V c).flushed 2 t = ((cfg1.win 2).blk t).view.read (Elt Ideal) (aggArr V c) := by
  have hN : cfg1.N = 32 := N_1
  have h31 : t.val = 31 := by have := (flush1_2 t).mp hf; have := t.isLt; omega
  obtain rfl : t = tLast := Fin.ext h31
  show (cfg1.win 2).cut (grid1.coords tLast) ((dat1 V c).after 2 tLast) = _
  rw [after1_2, outsAt_last]
  have hz' : (fun a => win1_2.index tLast a * main_v22.ty.shape.size a) = fun _ => 0 :=
    funext fun a => by fin_cases a <;> decide +kernel
  exact (Memref.read_access_unit_zero (Elt Ideal) main_v22 hz' (fun a => by rw [congrFun hz' a]; simp) (aggArr V c)).symm

/-- So the result array ends holding the full product: the last point's block covers it. -/
theorem final_agg (c : Dev nD) : (dat1 V c).arrAt 2 cfg1.N = aggArr V c :=
  (dat1 V c).arrAt_eq_of_cover 2 (aggArr V c) (flushed_eq V c) fun i =>
    ⟨tLast, (flush1_2 tLast).mpr rfl, by
      show i ∈ ((View.whole main_v22).slice (win1_2.rect tLast)).set
      rw [View.set_slice_whole, Rect.mem_set_unit]
      intro a
      have h0 : (i 0 : Nat) < 2048 := (i 0).isLt
      have h1 : (i 1 : Nat) < 259 := (i 1).isLt
      match a with
      | ⟨0, _⟩ =>
        show win1_2.index tLast 0 * win1_2.size 0 ≤ (i 0 : Nat)
          ∧ (i 0 : Nat) < win1_2.index tLast 0 * win1_2.size 0 + win1_2.xsize (grid1.coords tLast) 0
        rw [show win1_2.index tLast 0 * win1_2.size 0 = 0 from by decide +kernel,
          show win1_2.xsize (grid1.coords tLast) 0 = 2048 from by decide +kernel]; omega
      | ⟨1, _⟩ =>
        show win1_2.index tLast 1 * win1_2.size 1 ≤ (i 1 : Nat)
          ∧ (i 1 : Nat) < win1_2.index tLast 1 * win1_2.size 1 + win1_2.xsize (grid1.coords tLast) 1
        rw [show win1_2.index tLast 1 * win1_2.size 1 = 0 from by decide +kernel,
          show win1_2.xsize (grid1.coords tLast) 1 = 259 from by decide +kernel]; omega⟩

/-- The second call leaves in its output the aggregate of every node: entry (i, j) of the result array
    is Σₑ R[i, e] · T[e, j] over all 32768 edges, R the incidence matrix and T the edge table as the
    region finds them. -/
theorem agg_table (c : Dev nD) (i : Fin 2048) (j : Fin 259) :
    (dat1 (F := Ideal) V c).arrAt 2 cfg1.N (ix2 i j)
      = Egcl.agg (fun a b => V c main_arg3 (ix2 a b)) (fun a b => V c main_v21 (ix2 a b)) i j :=
  congrFun (final_agg V c) (ix2 i j)

end Agg

end Cert.KernelIdeal.KAgg

end
-- ==== Proof.KNode.lean ====
import proofs.«179171_j8203387535901_1_alg».proof.Proof.Gen.KernelIdeal.Frame
import proofs.«179171_j8203387535901_1_alg».proof.Proof.Egcl
import proofs.«179171_j8203387535901_1_alg».proof.Proof.LibDot2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.KNode

open Cert.KernelIdeal Cert.KernelIdeal.Gen Idealize.ShloMosaic Idealize.ShloMosaic.TcCoe Idealize.ShloMosaic.ValueIdx Idealize.SL.Sem

/-- The zero offsets of a rank-2 whole-buffer access, however they are spelt. -/
theorem hz2 : (![0, 0] : Fin 2 → Nat) = fun _ => 0 := funext fun a => by fin_cases a <;> rfl

/-- The zero offset of a rank-1 whole-buffer access. -/
theorem hz1 : (![0] : Fin 1 → Nat) = fun _ => 0 := funext fun a => by fin_cases a; rfl

/-! ## The coordinate output -/

/-- The coordinate output at (i, j): the node's coordinate plus entry 256 + j of its aggregate row
    (the columns 256..258 of the aggregate are a slice at column offset 256). -/
theorem coord_pay (x0 : Vec Ideal S2048x256 .f32) (x1 : Vec Ideal S2048x259 .f32) (x2 : Vec Ideal S2048x8 .f32)
    (x3 : Vec Ideal S2048x3 .f32) (x4 : Vec Ideal S520x256 .f32) (x5 : Vec Ideal S256 .f32)
    (x6 : Vec Ideal S256x256 .f32) (x7 : Vec Ideal S256 .f32) (i : Fin 2048) (j : Fin 3) :
    out2_9 (F := Ideal) x0 x1 x2 x3 x4 x5 x6 x7 (ix2 i j)
      = x3 (ix2 i j) + x1 (ix2 i ⟨256 + j.val, by have := j.isLt; omega⟩) := by
  unfold out2_9
  rw [View.canon_unit_zero hz2]
  simp only [View.ld_unit_zero (S := S2048x259) hz2, View.ld_unit_zero (S := S2048x3) hz2]
  unfold k2_pay3 k2_pay1
  refine (addf_apply _ _ _).trans ?_
  refine congrArg (x3 (ix2 i j) + ·) ?_
  rw [shapeCast_self]
  exact slice2_axis1_apply 256 x1 _ i j ⟨256 + j.val, by have := j.isLt; omega⟩ rfl

/-! ## The feature output -/

/-- The first product's dimension numbers are those of the plain [2048,520] by [520,256] product. -/
theorem d1_eq : dot_S2048x520_S520x256_S2048x256_1_0_0_1_n_n
    = Dot2.mmDims 2048 520 256 dot_S2048x520_S520x256_S2048x256_1_0_0_1_n_n.wf := rfl

/-- The second product's dimension numbers are those of the plain [2048,256] by [256,256] product. -/
theorem d2_eq : dot_S2048x256_S256x256_S2048x256_1_0_0_1_n_n
    = Dot2.mmDims 2048 256 256 dot_S2048x256_S256x256_S2048x256_1_0_0_1_n_n.wf := rfl

/-- One affine layer as the kernel writes it — both operands' formats narrowed (the identity on
    extended reals), multiplied into the zero accumulator, the bias row [N] recast to [1, N] and
    broadcast over the rows, added — read at (p, q): (Σₖ l[p, k] · r[k, q]) + b[q]. -/
theorem affine_apply {M K N : Nat} (D : DotDims ⟨2, ![M, K]⟩ ⟨2, ![K, N]⟩ ⟨2, ![M, N]⟩)
    (wf : DotDims.WF ⟨2, ![M, K]⟩ ⟨2, ![K, N]⟩ ⟨2, ![M, N]⟩ [1] [0] [0] [1] [] [])
    (hD : D = Dot2.mmDims M K N wf)
    (l : FVec Ideal ⟨2, ![M, K]⟩ .f32) (r : FVec Ideal ⟨2, ![K, N]⟩ .f32) (b : FVec Ideal ⟨1, ![N]⟩ .f32)
    (hlt : FTy.bits .bf16 < FTy.bits .f32)
    (hs : (⟨1, ![N]⟩ : Shape).ShapeCasts ⟨2, ![1, N]⟩) (hb : (⟨2, ![1, N]⟩ : Shape).Broadcasts ⟨2, ![M, N]⟩)
    (p : Fin M) (q : Fin N) :
    addf (matmul D none (truncf .bf16 l hlt) (truncf .bf16 r hlt)
        (constant (F := Ideal) ⟨2, ![M, N]⟩ .f32 0x00000000#32))
      (broadcastTo ⟨2, ![M, N]⟩ (shapeCast ⟨2, ![1, N]⟩ b hs) hb) (ix2 p q)
      = Egcl.dense (fun k j => r (ix2 k j)) (fun j => b (ix1 j)) (fun k => l (ix2 p k)) q := by
  subst hD
  refine (addf_apply _ _ _).trans ?_
  unfold Egcl.dense
  refine congrArg₂ (· + ·) ?_ ?_
  · exact Dot2.matmul_zero_mm_apply wf none (truncf .bf16 l hlt) (truncf .bf16 r hlt) p q
  · exact (broadcastTo_1b_ab_apply _ hb p q).trans (shapeCast_a_1a_apply b hs 0 q)

/-- The node perceptron's input rows as the kernel assembles them: the features, the aggregate's
    first 256 columns and the attributes, side by side along the column axis. -/
def catRows (x0 : Vec Ideal S2048x256 .f32) (x1 : Vec Ideal S2048x259 .f32) (x2 : Vec Ideal S2048x8 .f32) :
    FVec Ideal S2048x520 .f32 :=
  concatenate S2048x520 1 [⟨S2048x256, x0⟩,
    ⟨S2048x256, extractStridedSlice S2048x256 ![0, 0] (shapeCast S2048x259 x1 shapeCasts_S2048x259_S2048x259)
      slices_S2048x259_o0_0_S2048x256⟩, ⟨S2048x8, x2⟩] concatenates_S2048x256_S2048x256_S2048x8_S2048x520_d1

/-- Row i of the assembled input at column k is the specification's input row: columns below 256
    fall in the first piece, those below 512 in the second (the aggregate's column k − 256), the
    last 8 in the third. -/
theorem catRows_apply (x0 : Vec Ideal S2048x256 .f32) (x1 : Vec Ideal S2048x259 .f32) (x2 : Vec Ideal S2048x8 .f32)
    (i : Fin 2048) (k : Fin 520) :
    catRows x0 x1 x2 (ix2 i k)
      = Egcl.nodeIn (fun k => x0 (ix2 i k)) (fun k => x1 (ix2 i ⟨k.val, by have := k.isLt; omega⟩))
          (fun k => x2 (ix2 i k)) k := by
  unfold catRows Egcl.nodeIn
  by_cases h1 : k.val < 256
  · rw [dif_pos h1]
    exact concatenate_apply_piece _ _ _ (ix2 i k) 0 (by show (0 : ℕ) < 3; omega) S2048x256 x0 rfl rfl 0 rfl (ix2 i ⟨k.val, h1⟩)
      (fun b hb => by
        match b with
        | ⟨0, _⟩ => rfl
        | ⟨1, _⟩ => exact absurd rfl hb)
      (by show 0 + k.val = k.val; omega)
  · rw [dif_neg h1]
    by_cases h2 : k.val < 512
    · rw [dif_pos h2]
      refine (concatenate_apply_piece _ _ _ (ix2 i k) 1 (by show (1 : ℕ) < 3; omega) S2048x256 _ rfl rfl 256 rfl
        (ix2 i ⟨k.val - 256, by omega⟩)
        (fun b hb => by
          match b with
          | ⟨0, _⟩ => rfl
          | ⟨1, _⟩ => exact absurd rfl hb)
        (by show 256 + (k.val - 256) = k.val; omega)).trans ?_
      rw [shapeCast_self]
      exact slice2_axis1_apply 0 x1 _ i ⟨k.val - 256, by omega⟩ ⟨k.val - 256, by omega⟩ (by simp)
    · rw [dif_neg h2]
      exact concatenate_apply_piece _ _ _ (ix2 i k) 2 (by show (2 : ℕ) < 3; omega) S2048x8 x2 rfl rfl 512 rfl
        (ix2 i ⟨k.val - 512, by have := k.isLt; omega⟩)
        (fun b hb => by
          match b with
          | ⟨0, _⟩ => rfl
          | ⟨1, _⟩ => exact absurd rfl hb)
        (by show 512 + (k.val - 512) = k.val; omega)

/-- The hidden layer before its activation, as the kernel writes it: the assembled input rows
    through the first affine layer. -/
def hidden (x0 : Vec Ideal S2048x256 .f32) (x1 : Vec Ideal S2048x259 .f32) (x2 : Vec Ideal S2048x8 .f32)
    (x4 : Vec Ideal S520x256 .f32) (x5 : Vec Ideal S256 .f32) : FVec Ideal S2048x256 .f32 :=
  addf (matmul dot_S2048x520_S520x256_S2048x256_1_0_0_1_n_n none (truncf .bf16 (catRows x0 x1 x2) bitsLt_bf16_f32)
      (truncf .bf16 x4 bitsLt_bf16_f32) (constant S2048x256 .f32 0x00000000#32))
    (broadcastTo S2048x256 (shapeCast S1x256 x5 shapeCasts_S256_S1x256) broadcasts_S1x256_S2048x256)

/-- The hidden layer at (i, k): the first affine layer of the specification on node i's input row. -/
theorem hidden_apply (x0 : Vec Ideal S2048x256 .f32) (x1 : Vec Ideal S2048x259 .f32) (x2 : Vec Ideal S2048x8 .f32)
    (x4 : Vec Ideal S520x256 .f32) (x5 : Vec Ideal S256 .f32) (i : Fin 2048) (k : Fin 256) :
    hidden x0 x1 x2 x4 x5 (ix2 i k)
      = Egcl.dense (fun k j => x4 (ix2 k j)) (fun j => x5 (ix1 j))
          (Egcl.nodeIn (fun k => x0 (ix2 i k)) (fun k => x1 (ix2 i ⟨k.val, by have := k.isLt; omega⟩))
            (fun k => x2 (ix2 i k))) k := by
  unfold hidden
  refine (affine_apply _ _ d1_eq (catRows x0 x1 x2) x4 x5 _ _ _ i k).trans ?_
  exact congrArg (fun u => Egcl.dense _ _ u k) (funext fun k' => catRows_apply x0 x1 x2 i k')

/-- The body's payload for the feature output is the second affine layer on the activated hidden
    layer, added to the features. -/
theorem pay2_eq (x0 : Vec Ideal S2048x256 .f32) (x1 : Vec Ideal S2048x259 .f32) (x2 : Vec Ideal S2048x8 .f32)
    (x4 : Vec Ideal S520x256 .f32) (x5 : Vec Ideal S256 .f32) (x6 : Vec Ideal S256x256 .f32) (x7 : Vec Ideal S256 .f32) :
    k2_pay2 (F := Ideal) x0 x1 x2 x4 x5 x6 x7
      = addf x0 (addf (matmul dot_S2048x256_S256x256_S2048x256_1_0_0_1_n_n none
            (truncf .bf16 (mulf (hidden x0 x1 x2 x4 x5) (logistic (hidden x0 x1 x2 x4 x5))) bitsLt_bf16_f32)
            (truncf .bf16 x6 bitsLt_bf16_f32) (constant S2048x256 .f32 0x00000000#32))
          (broadcastTo S2048x256 (shapeCast S1x256 x7 shapeCasts_S256_S1x256) broadcasts_S1x256_S2048x256)) := rfl

/-- The feature output at (i, j): the specification's updated feature j of node i, from the node's
    feature row, the first 256 entries of its aggregate row and its attribute row. -/
theorem feat_pay (x0 : Vec Ideal S2048x256 .f32) (x1 : Vec Ideal S2048x259 .f32) (x2 : Vec Ideal S2048x8 .f32)
    (x3 : Vec Ideal S2048x3 .f32) (x4 : Vec Ideal S520x256 .f32) (x5 : Vec Ideal S256 .f32)
    (x6 : Vec Ideal S256x256 .f32) (x7 : Vec Ideal S256 .f32) (i : Fin 2048) (j : Fin 256) :
    out2_8 (F := Ideal) x0 x1 x2 x3 x4 x5 x6 x7 (ix2 i j)
      = Egcl.featOut (Egcl.NodeW.ofArrays x4 x5 x6 x7) (fun k => x0 (ix2 i k))
          (fun k => x1 (ix2 i ⟨k.val, by have := k.isLt; omega⟩)) (fun k => x2 (ix2 i k)) j := by
  unfold out2_8
  rw [View.canon_unit_zero hz2]
  simp only [View.ld_unit_zero (S := S2048x256) hz2, View.ld_unit_zero (S := S2048x259) hz2,
    View.ld_unit_zero (S := S2048x8) hz2, View.ld_unit_zero (S := S520x256) hz2,
    View.ld_unit_zero (S := S256x256) hz2, View.ld_unit_zero (S := S256) hz1]
  rw [pay2_eq]
  refine (addf_apply _ _ _).trans ?_
  unfold Egcl.featOut
  refine congrArg (x0 (ix2 i j) + ·) ?_
  refine (affine_apply _ _ d2_eq (mulf (hidden x0 x1 x2 x4 x5) (logistic (hidden x0 x1 x2 x4 x5))) x6 x7 _ _ _ i j).trans ?_
  refine congrArg (fun u => Egcl.dense _ _ u j) (funext fun k => ?_)
  show hidden x0 x1 x2 x4 x5 (ix2 i k) * Ideal.logistic (hidden x0 x1 x2 x4 x5 (ix2 i k)) = _
  rw [hidden_apply]
  rfl

/-! ## From the one block of each window to its array

The pipeline has one grid point and every window's block index map is constantly zero, so each
window's one block, read through zero offsets, is its whole array. -/

section Table

variable (V : (c : Dev nD) → (b : Ref sig .tc) → Buf (Elt Ideal) ((c : Thread nD τ).loc b))

/-- Window 0's block is the feature array. -/
theorem blk0 (c : Dev nD) : iblk2 (F := Ideal) V c 0 t2_0 = V c main_arg1 := by
  unfold iblk2
  have hz' : (fun a => win2_0.index t2_0 a * main_arg1.ty.shape.size a) = fun _ => 0 :=
    funext fun a => by fin_cases a <;> decide
  exact Memref.read_access_unit_zero (Elt Ideal) main_arg1 hz' (fun a => by rw [congrFun hz' a]; simp) (V c main_arg1)

/-- Window 1's block is the aggregate array. -/
theorem blk1 (c : Dev nD) : iblk2 (F := Ideal) V c 1 t2_0 = V c main_v22 := by
  unfold iblk2
  have hz' : (fun a => win2_1.index t2_0 a * main_v22.ty.shape.size a) = fun _ => 0 :=
    funext fun a => by fin_cases a <;> decide
  exact Memref.read_access_unit_zero (Elt Ideal) main_v22 hz' (fun a => by rw [congrFun hz' a]; simp) (V c main_v22)

/-- Window 2's block is the attribute array. -/
theorem blk2 (c : Dev nD) : iblk2 (F := Ideal) V c 2 t2_0 = V c main_arg4 := by
  unfold iblk2
  have hz' : (fun a => win2_2.index t2_0 a * main_arg4.ty.shape.size a) = fun _ => 0 :=
    funext fun a => by fin_cases a <;> decide
  exact Memref.read_access_unit_zero (Elt Ideal) main_arg4 hz' (fun a => by rw [congrFun hz' a]; simp) (V c main_arg4)

/-- Window 3's block is the coordinate array. -/
theorem blk3 (c : Dev nD) : iblk2 (F := Ideal) V c 3 t2_0 = V c main_arg0 := by
  unfold iblk2
  have hz' : (fun a => win2_3.index t2_0 a * main_arg0.ty.shape.size a) = fun _ => 0 :=
    funext fun a => by fin_cases a <;> decide
  exact Memref.read_access_unit_zero (Elt Ideal) main_arg0 hz' (fun a => by rw [congrFun hz' a]; simp) (V c main_arg0)

/-- Window 4's block is the first weight matrix. -/
theorem blk4 (c : Dev nD) : iblk2 (F := Ideal) V c 4 t2_0 = V c main_arg15 := by
  unfold iblk2
  have hz' : (fun a => win2_4.index t2_0 a * main_arg15.ty.shape.size a) = fun _ => 0 :=
    funext fun a => by fin_cases a <;> decide
  exact Memref.read_access_unit_zero (Elt Ideal) main_arg15 hz' (fun a => by rw [congrFun hz' a]; simp) (V c main_arg15)

/-- Window 5's block is the first bias. -/
theorem blk5 (c : Dev nD) : iblk2 (F := Ideal) V c 5 t2_0 = V c main_arg16 := by
  unfold iblk2
  have hz' : (fun a => win2_5.index t2_0 a * main_arg16.ty.shape.size a) = fun _ => 0 :=
    funext fun a => by fin_cases a <;> decide
  exact Memref.read_access_unit_zero (Elt Ideal) main_arg16 hz' (fun a => by rw [congrFun hz' a]; simp) (V c main_arg16)

/-- Window 6's block is the second weight matrix. -/
theorem blk6 (c : Dev nD) : iblk2 (F := Ideal) V c 6 t2_0 = V c main_arg17 := by
  unfold iblk2
  have hz' : (fun a => win2_6.index t2_0 a * main_arg17.ty.shape.size a) = fun _ => 0 :=
    funext fun a => by fin_cases a <;> decide
  exact Memref.read_access_unit_zero (Elt Ideal) main_arg17 hz' (fun a => by rw [congrFun hz' a]; simp) (V c main_arg17)

/-- Window 7's block is the second bias. -/
theorem blk7 (c : Dev nD) : iblk2 (F := Ideal) V c 7 t2_0 = V c main_arg18 := by
  unfold iblk2
  have hz' : (fun a => win2_7.index t2_0 a * main_arg18.ty.shape.size a) = fun _ => 0 :=
    funext fun a => by fin_cases a <;> decide
  exact Memref.read_access_unit_zero (Elt Ideal) main_arg18 hz' (fun a => by rw [congrFun hz' a]; simp) (V c main_arg18)

end Table

section Final

variable (V : (c : Dev nD) → (b : Ref sig .tc) → Buf (Elt Ideal) ((c : Thread nD τ).loc b))

/-- The feature output as ONE array: the body's store for window 8, of the whole input arrays. -/
def featArr (c : Dev nD) : Vec Ideal S2048x256 .f32 :=
  out2_8 (F := Ideal) (V c main_arg1) (V c main_v22) (V c main_arg4) (V c main_arg0) (V c main_arg15)
    (V c main_arg16) (V c main_arg17) (V c main_arg18)

/-- The coordinate output as ONE array: the body's store for window 9, of the whole input arrays. -/
def coordArr (c : Dev nD) : Vec Ideal S2048x3 .f32 :=
  out2_9 (F := Ideal) (V c main_arg1) (V c main_v22) (V c main_arg4) (V c main_arg0) (V c main_arg15)
    (V c main_arg16) (V c main_arg17) (V c main_arg18)

/-- What the one point writes back for window 8 is the one block, i.e. all, of the feature output. -/
theorem flushed8 (c : Dev nD) (t : Fin cfg2.N) :
    (dat2 (F := Ideal) V c).flushed 8 t = ((cfg2.win 8).blk t).view.read (Elt Ideal) (featArr V c) := by
  obtain rfl := fin_N2 t
  show (cfg2.win 8).cut (grid2.coords t2_0) ((dat2 V c).after 8 t2_0) = _
  rw [after2_8, blk0, blk1, blk2, blk3, blk4, blk5, blk6, blk7]
  have hz' : (fun a => win2_8.index t2_0 a * main_v23_0.ty.shape.size a) = fun _ => 0 :=
    funext fun a => by fin_cases a <;> decide
  exact (Memref.read_access_unit_zero (Elt Ideal) main_v23_0 hz' (fun a => by rw [congrFun hz' a]; simp)
    (featArr V c)).symm

/-- What the one point writes back for window 9 is the one block, i.e. all, of the coordinate output. -/
theorem flushed9 (c : Dev nD) (t : Fin cfg2.N) :
    (dat2 (F := Ideal) V c).flushed 9 t = ((cfg2.win 9).blk t).view.read (Elt Ideal) (coordArr V c) := by
  obtain rfl := fin_N2 t
  show (cfg2.win 9).cut (grid2.coords t2_0) ((dat2 V c).after 9 t2_0) = _
  rw [after2_9, blk0, blk1, blk2, blk3, blk4, blk5, blk6, blk7]
  have hz' : (fun a => win2_9.index t2_0 a * main_v23_1.ty.shape.size a) = fun _ => 0 :=
    funext fun a => by fin_cases a <;> decide
  exact (Memref.read_access_unit_zero (Elt Ideal) main_v23_1 hz' (fun a => by rw [congrFun hz' a]; simp)
    (coordArr V c)).symm

/-- Every index of the feature output is in the one point's block: the block starts at (0, 0) and
    has the array's extents. -/
theorem cover8 (i : S2048x256.Idx) :
    ∃ t : Fin cfg2.N, (cfg2.win 8).flush t = true ∧ i ∈ ((cfg2.win 8).blk t).view.set := by
  refine ⟨t2_0, flush2_8 t2_0, ?_⟩
  show i ∈ ((View.whole main_v23_0).slice (win2_8.rect t2_0)).set
  rw [View.set_slice_whole, Rect.mem_set_unit]
  have h0 : (i 0 : Nat) < 2048 := (i 0).isLt
  have h1 : (i 1 : Nat) < 256 := (i 1).isLt
  have o0 : win2_8.index t2_0 0 * win2_8.size 0 = 0 := by decide +kernel
  have o1 : win2_8.index t2_0 1 * win2_8.size 1 = 0 := by decide +kernel
  have e0 : win2_8.xsize (grid2.coords t2_0) 0 = 2048 := by decide +kernel
  have e1 : win2_8.xsize (grid2.coords t2_0) 1 = 256 := by decide +kernel
  intro a
  match a with
  | ⟨0, _⟩ =>
    show win2_8.index t2_0 0 * win2_8.size 0 ≤ (i 0 : Nat)
      ∧ (i 0 : Nat) < win2_8.index t2_0 0 * win2_8.size 0 + win2_8.xsize (grid2.coords t2_0) 0
    rw [o0, e0]; omega
  | ⟨1, _⟩ =>
    show win2_8.index t2_0 1 * win2_8.size 1 ≤ (i 1 : Nat)
      ∧ (i 1 : Nat) < win2_8.index t2_0 1 * win2_8.size 1 + win2_8.xsize (grid2.coords t2_0) 1
    rw [o1, e1]; omega

/-- Every index of the coordinate output is in the one point's block. -/
theorem cover9 (i : S2048x3.Idx) :
    ∃ t : Fin cfg2.N, (cfg2.win 9).flush t = true ∧ i ∈ ((cfg2.win 9).blk t).view.set := by
  refine ⟨t2_0, flush2_9 t2_0, ?_⟩
  show i ∈ ((View.whole main_v23_1).slice (win2_9.rect t2_0)).set
  rw [View.set_slice_whole, Rect.mem_set_unit]
  have h0 : (i 0 : Nat) < 2048 := (i 0).isLt
  have h1 : (i 1 : Nat) < 3 := (i 1).isLt
  have o0 : win2_9.index t2_0 0 * win2_9.size 0 = 0 := by decide +kernel
  have o1 : win2_9.index t2_0 1 * win2_9.size 1 = 0 := by decide +kernel
  have e0 : win2_9.xsize (grid2.coords t2_0) 0 = 2048 := by decide +kernel
  have e1 : win2_9.xsize (grid2.coords t2_0) 1 = 3 := by decide +kernel
  intro a
  match a with
  | ⟨0, _⟩ =>
    show win2_9.index t2_0 0 * win2_9.size 0 ≤ (i 0 : Nat)
      ∧ (i 0 : Nat) < win2_9.index t2_0 0 * win2_9.size 0 + win2_9.xsize (grid2.coords t2_0) 0
    rw [o0, e0]; omega
  | ⟨1, _⟩ =>
    show win2_9.index t2_0 1 * win2_9.size 1 ≤ (i 1 : Nat)
      ∧ (i 1 : Nat) < win2_9.index t2_0 1 * win2_9.size 1 + win2_9.xsize (grid2.coords t2_0) 1
    rw [o1, e1]; omega

/-- The feature array after the region's write-backs is the body's store of the whole inputs. -/
theorem featArr_final (c : Dev nD) : (dat2 (F := Ideal) V c).arrAt 8 cfg2.N = featArr V c :=
  (dat2 (F := Ideal) V c).arrAt_eq_of_cover 8 (featArr V c) (fun t _ => flushed8 V c t) cover8

/-- The coordinate array after the region's write-backs is the body's store of the whole inputs. -/
theorem coordArr_final (c : Dev nD) : (dat2 (F := Ideal) V c).arrAt 9 cfg2.N = coordArr V c :=
  (dat2 (F := Ideal) V c).arrAt_eq_of_cover 9 (coordArr V c) (fun t _ => flushed9 V c t) cover9

/-- THE FEATURE TABLE: after the third region the feature output at (i, j) is the specification's
    updated feature j of node i, from the region-entry arrays. -/
theorem feat_table (c : Dev nD) (i : Fin 2048) (j : Fin 256) :
    (dat2 (F := Ideal) V c).arrAt 8 cfg2.N (ix2 i j)
      = Egcl.featOut (Egcl.NodeW.ofArrays (V c main_arg15) (V c main_arg16) (V c main_arg17) (V c main_arg18))
          (fun k => V c main_arg1 (ix2 i k))
          (fun k => V c main_v22 (ix2 i ⟨k.val, by have := k.isLt; omega⟩))
          (fun k => V c main_arg4 (ix2 i k)) j :=
  (congrFun (featArr_final V c) (ix2 i j)).trans
    (feat_pay (V c main_arg1) (V c main_v22) (V c main_arg4) (V c main_arg0) (V c main_arg15)
      (V c main_arg16) (V c main_arg17) (V c main_arg18) i j)

/-- THE COORDINATE TABLE: after the third region the coordinate output at (i, j) is the node's
    coordinate plus entry 256 + j of its aggregate row. -/
theorem coord_table (c : Dev nD) (i : Fin 2048) (j : Fin 3) :
    (dat2 (F := Ideal) V c).arrAt 9 cfg2.N (ix2 i j)
      = FloatOps.addf (F := Ideal) (φ := .f32) (V c main_arg0 (ix2 i j))
          (V c main_v22 (ix2 i ⟨256 + j.val, by have := j.isLt; omega⟩)) :=
  (congrFun (coordArr_final V c) (ix2 i j)).trans
    (coord_pay (V c main_arg1) (V c main_v22) (V c main_arg4) (V c main_arg0) (V c main_arg15)
      (V c main_arg16) (V c main_arg17) (V c main_arg18) i j)

end Final

end Cert.KernelIdeal.KNode

end
-- ==== Proof.KChain.lean ====
/-
  The kernel program's two results as functions of the launch memory. The program is three kernel
  regions after a stretch of host operations. The first region turns the gathered rows into the edge
  table (one specification row per edge); the second multiplies the incidence matrix by that table, block
  of 1024 edges by block, which is the aggregate of every node; the third reads the aggregate's first 256
  columns into the node perceptron and adds its last 3 columns to the coordinates. Each region's array
  after the region is the next region's array at entry, and no region or host operation writes an
  argument, so the weights, the incidence matrix, the features, the attributes and the coordinates are
  read as launched throughout.
-/
import proofs.«179171_j8203387535901_1_alg».proof.Proof.Gen.KernelIdeal.Frame
import proofs.«179171_j8203387535901_1_alg».proof.Proof.Egcl
import proofs.«179171_j8203387535901_1_alg».proof.Proof.EgclRows
import proofs.«179171_j8203387535901_1_alg».proof.Proof.KHost
import proofs.«179171_j8203387535901_1_alg».proof.Proof.KEdgeArr
import proofs.«179171_j8203387535901_1_alg».proof.Proof.KAgg
import proofs.«179171_j8203387535901_1_alg».proof.Proof.KNode
import Idealize.ShloMosaic.Lib.ValueIdx

set_option maxRecDepth 16384

noncomputable section

open scoped BigOperators

namespace Cert.KernelIdeal.KChain

open Cert.KernelIdeal Cert.KernelIdeal.Gen Idealize.ShloMosaic Idealize.ShloMosaic.TcCoe Idealize.ShloMosaic.ValueIdx Idealize.SL.Sem
open Cert.KernelIdeal.KEdge Cert.KernelIdeal.KAgg Cert.KernelIdeal.KNode

variable (m : (ℓ : Loc nD τ sig) → Buf (Elt Ideal) ℓ) (ρ : Dev nD → PrngReg)

/-! ## What each region is entered with -/

/-- The edge perceptrons' weights as launched. -/
abbrev edgeW (c : Dev nD) : Egcl.EdgeW :=
  Egcl.EdgeW.ofArrays (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14))
    (m ((c : Thread nD τ).loc main_arg19)) (m ((c : Thread nD τ).loc main_arg20))

/-- The node perceptron's weights as launched. -/
abbrev nodeW (c : Dev nD) : Egcl.NodeW :=
  Egcl.NodeW.ofArrays (m ((c : Thread nD τ).loc main_arg15)) (m ((c : Thread nD τ).loc main_arg16))
    (m ((c : Thread nD τ).loc main_arg17)) (m ((c : Thread nD τ).loc main_arg18))

/-- The incidence matrix as launched, entry by entry. -/
abbrev incid (c : Dev nD) : Fin 2048 → Fin 32768 → EReal := fun a b => m ((c : Thread nD τ).loc main_arg3) (ix2 a b)

/-- Edge e's gathered feature row, offset and attributes, as the host operations leave them for the first region. -/
abbrev hRow (c : Dev nD) (e : Fin 32768) : Fin 512 → EReal := fun k => V1 m ρ c main_v19 (ix2 e k)
abbrev dRow (c : Dev nD) (e : Fin 32768) : Fin 3 → EReal := fun k => V1 m ρ c main_v20 (ix2 e ⟨k.val, by have := k.isLt; omega⟩)
abbrev aRow (c : Dev nD) (e : Fin 32768) : Fin 4 → EReal := fun k => V1 m ρ c main_v20 (ix2 e ⟨k.val + 3, by have := k.isLt; omega⟩)

/-- The edge table: row e is the specification's edge row. -/
abbrev table (c : Dev nD) : Fin 32768 → Fin 259 → EReal :=
  fun e q => Egcl.edgeOut (edgeW m c) (hRow m ρ c e) (dRow m ρ c e) (aRow m ρ c e) q

/-- After the first region its output array is the edge table. -/
theorem V2_table (c : Dev nD) (e : Fin 32768) (q : Fin 259) : V2 m ρ c main_v21 (ix2 e q) = table m ρ c e q := by
  show W2 m ρ c (Proc.devRef .tc main_v21) (ix2 e q) = _
  rw [show W2 m ρ c (Proc.devRef .tc main_v21) = (dat0 (V1 m ρ) c).arrAt 13 cfg0.N from W2_arr m ρ c 13]
  rw [edge_table (V1 m ρ) c e q]
  simp only [table, edgeW, hRow, dRow, aRow,
    KHost.entry_of_not_written m ρ c main_arg6 (by decide), KHost.entry_of_not_written m ρ c main_arg7 (by decide),
    KHost.entry_of_not_written m ρ c main_arg8 (by decide), KHost.entry_of_not_written m ρ c main_arg9 (by decide),
    KHost.entry_of_not_written m ρ c main_arg10 (by decide), KHost.entry_of_not_written m ρ c main_arg11 (by decide),
    KHost.entry_of_not_written m ρ c main_arg12 (by decide), KHost.entry_of_not_written m ρ c main_arg13 (by decide),
    KHost.entry_of_not_written m ρ c main_arg14 (by decide), KHost.entry_of_not_written m ρ c main_arg19 (by decide),
    KHost.entry_of_not_written m ρ c main_arg20 (by decide)]

/-- The second region reads the incidence matrix as launched. -/
theorem V2_incid (c : Dev nD) : V2 m ρ c main_arg3 = m ((c : Thread nD τ).loc main_arg3) :=
  (W2_of_ne m ρ c main_arg3 (by decide)).trans (KHost.entry_of_not_written m ρ c main_arg3 (by decide))

/-- After the second region its output array is the aggregate of the edge table. -/
theorem V3_agg (c : Dev nD) (i : Fin 2048) (q : Fin 259) :
    V3 m ρ c main_v22 (ix2 i q) = Egcl.agg (incid m c) (table m ρ c) i q := by
  show W3 m ρ c (Proc.devRef .tc main_v22) (ix2 i q) = _
  rw [show W3 m ρ c (Proc.devRef .tc main_v22) = (dat1 (V2 m ρ) c).arrAt 2 cfg1.N from W3_arr m ρ c 2]
  rw [agg_table (V2 m ρ) c i q, V2_incid m ρ c]
  exact Egcl.agg_congr _ _ _ (fun e q' => V2_table m ρ c e q') i q

/-- A buffer no region before the third writes and no host operation writes is as launched at the third region's entry. -/
theorem V3_of_arg (c : Dev nD) (b : Ref sig .tc) (h1 : ∀ w, Pipeline.arrRef spec1 w ≠ b) (h0 : ∀ w, Pipeline.arrRef spec0 w ≠ b)
    (hb : ∀ r ∈ KHost.written, b ≠ r) : V3 m ρ c b = m ((c : Thread nD τ).loc b) :=
  (W3_of_ne m ρ c b h1).trans ((W2_of_ne m ρ c b h0).trans (KHost.entry_of_not_written m ρ c b hb))

/-! ## The two results -/

/-- The updated coordinates: each coordinate plus the aggregate of the scaled offsets. -/
theorem coords_at (c : Dev nD) (i : Fin 2048) (j : Fin 3) :
    W4 m ρ c (Proc.devRef .tc main_v23_1) (ix2 i j)
      = FloatOps.addf (F := Ideal) (φ := .f32) (m ((c : Thread nD τ).loc main_arg0) (ix2 i j))
          (Egcl.agg (incid m c) (fun e q => Egcl.shift (edgeW m c) (Egcl.edgeIn (hRow m ρ c e) (Egcl.sqlen (dRow m ρ c e)) (aRow m ρ c e))
            (dRow m ρ c e) (Ideal.sqrt (Egcl.sqlen (dRow m ρ c e))) q) i j) := by
  rw [show W4 m ρ c (Proc.devRef .tc main_v23_1) = (dat2 (V3 m ρ) c).arrAt 9 cfg2.N from W4_arr m ρ c 9]
  rw [coord_table (V3 m ρ) c i j, V3_of_arg m ρ c main_arg0 (by decide) (by decide) (by decide)]
  refine congrArg (FloatOps.addf (F := Ideal) (φ := .f32) (m ((c : Thread nD τ).loc main_arg0) (ix2 i j))) ?_
  rw [V3_agg m ρ c i _]
  refine (show Egcl.agg (incid m c) (table m ρ c) i ⟨256 + j.val, by have := j.isLt; omega⟩
      = Egcl.agg (incid m c) (fun e (q : Fin 3) => table m ρ c e ⟨256 + q.val, by have := q.isLt; omega⟩) i j from rfl).trans ?_
  exact Egcl.agg_congr _ _ _ (fun e q => Egcl.edgeOut_right _ _ _ _ q) i j

/-- The updated features: the node perceptron of the features, the aggregate of the gated messages and the attributes, added to the features. -/
theorem feats_at (c : Dev nD) (i : Fin 2048) (j : Fin 256) :
    W4 m ρ c (Proc.devRef .tc main_v23_0) (ix2 i j)
      = Egcl.featOut (nodeW m c) (fun k => m ((c : Thread nD τ).loc main_arg1) (ix2 i k))
          (fun k => Egcl.agg (incid m c) (fun e q => Egcl.msg (edgeW m c)
            (Egcl.msgPre (edgeW m c) (Egcl.edgeIn (hRow m ρ c e) (Egcl.sqlen (dRow m ρ c e)) (aRow m ρ c e))) q) i k)
          (fun k => m ((c : Thread nD τ).loc main_arg4) (ix2 i k)) j := by
  rw [show W4 m ρ c (Proc.devRef .tc main_v23_0) = (dat2 (V3 m ρ) c).arrAt 8 cfg2.N from W4_arr m ρ c 8]
  rw [feat_table (V3 m ρ) c i j]
  simp only [nodeW, V3_of_arg m ρ c main_arg15 (by decide) (by decide) (by decide), V3_of_arg m ρ c main_arg16 (by decide) (by decide) (by decide),
    V3_of_arg m ρ c main_arg17 (by decide) (by decide) (by decide), V3_of_arg m ρ c main_arg18 (by decide) (by decide) (by decide),
    V3_of_arg m ρ c main_arg1 (by decide) (by decide) (by decide), V3_of_arg m ρ c main_arg4 (by decide) (by decide) (by decide)]
  have hagg : ∀ k : Fin 256, V3 m ρ c main_v22 (ix2 i ⟨k.val, by have := k.isLt; omega⟩)
      = Egcl.agg (incid m c) (fun e q => Egcl.msg (edgeW m c)
          (Egcl.msgPre (edgeW m c) (Egcl.edgeIn (hRow m ρ c e) (Egcl.sqlen (dRow m ρ c e)) (aRow m ρ c e))) q) i k := fun k => by
    rw [V3_agg m ρ c i _]
    refine (show Egcl.agg (incid m c) (table m ρ c) i ⟨k.val, by have := k.isLt; omega⟩
        = Egcl.agg (incid m c) (fun e (q : Fin 256) => table m ρ c e ⟨q.val, by have := q.isLt; omega⟩) i k from rfl).trans ?_
    exact Egcl.agg_congr _ _ _ (fun e q => Egcl.edgeOut_left _ _ _ _ q) i k
  simp only [hagg]

end Cert.KernelIdeal.KChain

end
-- ==== Proof.RefIn.lean ====
import proofs.«179171_j8203387535901_1_alg».proof.Proof.Gen.ReferenceIdeal.Read
import proofs.«179171_j8203387535901_1_alg».proof.Proof.Egcl
import proofs.«179171_j8203387535901_1_alg».proof.Proof.LibDot2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefIn

open Cert.ReferenceIdeal Cert.ReferenceIdeal.Read Idealize.ShloMosaic Idealize.ShloMosaic.TcCoe Idealize.ShloMosaic.ValueIdx

variable (x0 : (⟨S2048x3, .f32⟩ : BufTy).Contents (Elt Ideal)) (x1 : (⟨S2048x256, .f32⟩ : BufTy).Contents (Elt Ideal)) (x2 : (⟨S32768x2, .i32⟩ : BufTy).Contents (Elt Ideal)) (x5 : (⟨S32768x4, .f32⟩ : BufTy).Contents (Elt Ideal))

/-- Edge e's gathered feature row (both ends' features, 512 numbers). -/
def hRow (e : Fin 32768) : Fin 512 → EReal := fun k => val_main_v14 (F := Ideal) x1 x2 (ix2 e k)
/-- Edge e's offset between its two ends' coordinates. -/
def dRow (e : Fin 32768) : Fin 3 → EReal := fun k => val_main_v19 (F := Ideal) x0 x2 (ix2 e k)
/-- Edge e's attributes. -/
def aRow (e : Fin 32768) : Fin 4 → EReal := fun k => x5 (ix2 e k)
/-- Edge e's perceptron input row. -/
def uRow (e : Fin 32768) : Fin 517 → EReal := Egcl.edgeIn (hRow x1 x2 e) (Egcl.sqlen (dRow x0 x2 e)) (aRow x5 e)

/-- A square is never negative in the extended reals: x² for a real x, and ⊤ for either infinity. -/
theorem mul_self_nonneg' (x : EReal) : 0 ≤ x * x := by
  induction x using EReal.rec with
  | bot => rw [EReal.bot_mul_bot]; exact le_top
  | coe r => rw [← EReal.coe_mul]; exact EReal.coe_nonneg.2 (mul_self_nonneg r)
  | top => rw [EReal.top_mul_top]; exact le_top

/-- A squared length is never negative: it is a sum of squares. -/
theorem sqlen_nonneg (d : Fin 3 → EReal) : 0 ≤ Egcl.sqlen d :=
  Finset.sum_nonneg fun k _ => mul_self_nonneg' (d k)

/-- For s ≥ 0 the square root squares back to s: the real law for a real s, and ⊤ · ⊤ = ⊤ at ⊤. -/
theorem sqrt_mul_sqrt {s : EReal} (hs : 0 ≤ s) : Ideal.sqrt s * Ideal.sqrt s = s := by
  induction s using EReal.rec with
  | bot => exact absurd hs (by simp)
  | coe r =>
    have hr : 0 ≤ r := EReal.coe_nonneg.1 hs
    rw [Ideal.sqrt_coe, if_neg (not_lt.2 hr), ← EReal.coe_mul, Real.mul_self_sqrt hr]
  | top => rw [Ideal.sqrt_top]; exact EReal.top_mul_top

/-- The summed array is read at (e, k): the broadcast and the reduction keep the row. -/
theorem idx_len (e : Fin 32768) (k : Fin 3) :
    idx_main_call0_v1 (idx_main_call0_v2 (ix2 e (0 : Fin 1))) k = ix2 e k :=
  funext fun a => Fin.ext (by match a with | ⟨0, _⟩ => rfl | ⟨1, _⟩ => rfl)

theorem ref_len (e : Fin 32768) :
    val_main_v20 (F := Ideal) x0 x2 (ix2 e 0) = Ideal.sqrt (Egcl.sqlen (dRow x0 x2 e)) := by
  rw [val_main_v20_apply, val_main_call0_v2_apply, val_main_call0_v1_apply]
  simp only [idx_len, val_main_call0_v0_apply, val_main_call0_cst_apply, Ideal.hostUnary_sqrt_def,
    Ideal.mulf_def, Ideal.ofBits_def, Ideal.ofBits_zero_f32, zero_add]
  rfl

/-- Three pieces of 512, 1 and 4 columns joined along the columns: a column below 512 reads the
    first piece at the same place. -/
theorem cat_feat (y0 : S32768x512.Idx → EReal) (y1 : S32768x1.Idx → EReal) (y2 : S32768x4.Idx → EReal)
    (e : Fin 32768) (k : Fin 517) (hk : k.val < 512) :
    concatenate S32768x517 1 [⟨S32768x512, y0⟩, ⟨S32768x1, y1⟩, ⟨S32768x4, y2⟩]
        Gen.concatenates_S32768x512_S32768x1_S32768x4_S32768x517_d1 (ix2 e k)
      = y0 (ix2 e ⟨k.val, hk⟩) := by
  refine concatenate_apply_piece (t := S32768x517) 1 [⟨S32768x512, y0⟩, ⟨S32768x1, y1⟩, ⟨S32768x4, y2⟩]
    Gen.concatenates_S32768x512_S32768x1_S32768x4_S32768x517_d1 (ix2 e k)
    0 (by simp) S32768x512 y0 rfl rfl 0 rfl (ix2 e ⟨k.val, hk⟩) ?_ ?_
  · intro b hb
    match b with
    | ⟨0, _⟩ => rfl
    | ⟨1, _⟩ => exact absurd (Fin.ext rfl) hb
  · show 0 + k.val = k.val
    omega

/-- Column 512 reads the second piece's one column. -/
theorem cat_sq (y0 : S32768x512.Idx → EReal) (y1 : S32768x1.Idx → EReal) (y2 : S32768x4.Idx → EReal)
    (e : Fin 32768) (k : Fin 517) (h1 : ¬ k.val < 512) (h2 : k.val < 513) :
    concatenate S32768x517 1 [⟨S32768x512, y0⟩, ⟨S32768x1, y1⟩, ⟨S32768x4, y2⟩]
        Gen.concatenates_S32768x512_S32768x1_S32768x4_S32768x517_d1 (ix2 e k)
      = y1 (ix2 e 0) := by
  refine concatenate_apply_piece (t := S32768x517) 1 [⟨S32768x512, y0⟩, ⟨S32768x1, y1⟩, ⟨S32768x4, y2⟩]
    Gen.concatenates_S32768x512_S32768x1_S32768x4_S32768x517_d1 (ix2 e k)
    1 (by simp) S32768x1 y1 rfl rfl 512 rfl (ix2 e 0) ?_ ?_
  · intro b hb
    match b with
    | ⟨0, _⟩ => rfl
    | ⟨1, _⟩ => exact absurd (Fin.ext rfl) hb
  · show 512 + 0 = k.val
    omega

/-- A column from 513 on reads the third piece, 513 columns to the left. -/
theorem cat_attr (y0 : S32768x512.Idx → EReal) (y1 : S32768x1.Idx → EReal) (y2 : S32768x4.Idx → EReal)
    (e : Fin 32768) (k : Fin 517) (h2 : ¬ k.val < 513) :
    concatenate S32768x517 1 [⟨S32768x512, y0⟩, ⟨S32768x1, y1⟩, ⟨S32768x4, y2⟩]
        Gen.concatenates_S32768x512_S32768x1_S32768x4_S32768x517_d1 (ix2 e k)
      = y2 (ix2 e ⟨k.val - 513, by have := k.isLt; omega⟩) := by
  refine concatenate_apply_piece (t := S32768x517) 1 [⟨S32768x512, y0⟩, ⟨S32768x1, y1⟩, ⟨S32768x4, y2⟩]
    Gen.concatenates_S32768x512_S32768x1_S32768x4_S32768x517_d1 (ix2 e k)
    2 (by simp) S32768x4 y2 rfl rfl 513 rfl (ix2 e ⟨k.val - 513, by have := k.isLt; omega⟩) ?_ ?_
  · intro b hb
    match b with
    | ⟨0, _⟩ => rfl
    | ⟨1, _⟩ => exact absurd (Fin.ext rfl) hb
  · show 513 + (k.val - 513) = k.val
    omega

/-- Columns 0 … 511 of the joined row are the gathered features. -/
theorem ref_in_feat (e : Fin 32768) (k : Fin 517) (hk : k.val < 512) :
    val_main_v22 (F := Ideal) x0 x1 x2 x5 (ix2 e k) = val_main_v14 (F := Ideal) x1 x2 (ix2 e ⟨k.val, hk⟩) := by
  unfold val_main_v22
  exact cat_feat _ _ _ e k hk

/-- Column 512 of the joined row is the product of the length with itself. -/
theorem ref_in_sq (e : Fin 32768) (k : Fin 517) (h1 : ¬ k.val < 512) (h2 : k.val < 513) :
    val_main_v22 (F := Ideal) x0 x1 x2 x5 (ix2 e k) = val_main_v21 (F := Ideal) x0 x2 (ix2 e 0) := by
  unfold val_main_v22
  exact cat_sq _ _ _ e k h1 h2

/-- Columns 513 … 516 of the joined row are the edge's attributes. -/
theorem ref_in_attr (e : Fin 32768) (k : Fin 517) (h2 : ¬ k.val < 513) :
    val_main_v22 (F := Ideal) x0 x1 x2 x5 (ix2 e k)
      = x5 (ix2 e ⟨k.val - 513, by have := k.isLt; omega⟩) := by
  unfold val_main_v22
  exact cat_attr _ _ _ e k h2

theorem ref_in (e : Fin 32768) (k : Fin 517) :
    val_main_v22 (F := Ideal) x0 x1 x2 x5 (ix2 e k) = uRow x0 x1 x2 x5 e k := by
  unfold uRow Egcl.edgeIn
  by_cases h1 : k.val < 512
  · rw [dif_pos h1, ref_in_feat x0 x1 x2 x5 e k h1]
    rfl
  · rw [dif_neg h1]
    by_cases h2 : k.val < 513
    · rw [dif_pos h2, ref_in_sq x0 x1 x2 x5 e k h1 h2, val_main_v21_apply, Ideal.mulf_def, ref_len]
      exact sqrt_mul_sqrt (sqlen_nonneg _)
    · rw [dif_neg h2, ref_in_attr x0 x1 x2 x5 e k h2]
      rfl

end Cert.ReferenceIdeal.RefIn

end
-- ==== Proof.RefMsg.lean ====
import proofs.«179171_j8203387535901_1_alg».proof.Proof.Gen.ReferenceIdeal.Read
import proofs.«179171_j8203387535901_1_alg».proof.Proof.Egcl
import proofs.«179171_j8203387535901_1_alg».proof.Proof.LibDot2
import Idealize.ShloMosaic.Lib.Pipeline.Value
import Idealize.ShloMosaic.Lib.ValueIdx
import Idealize.ShloMosaic.Lib.ValueLayout
import Idealize.ShloMosaic.PureOps.Ideal.Laws
import proofs.«179171_j8203387535901_1_alg».proof.Proof.RefIn

noncomputable section

open scoped BigOperators

namespace Cert.ReferenceIdeal.RefMsg

open Cert.ReferenceIdeal Cert.ReferenceIdeal.Read Idealize.ShloMosaic Idealize.ShloMosaic.TcCoe Idealize.ShloMosaic.ValueIdx Cert.ReferenceIdeal.RefIn

/-- The single-precision word 0x3F800000 denotes the number one. -/
theorem one_word : Ideal.ofBits .f32 0x3F800000#32 = 1 := IdealRules.sign_bit.ideal_onePat .f32

/-- x · (1 / (1 + exp (−x))), its ones written as words, is silu x = x · σ(x). -/
theorem silu_words (x : EReal) :
    x * Ideal.div (Ideal.ofBits .f32 0x3F800000#32) (Ideal.ofBits .f32 0x3F800000#32 + Ideal.exp (-x))
      = Egcl.silu x := by
  rw [one_word]
  rfl

/-- 1 / (1 + exp (−x)), its ones written as words, is σ(x). -/
theorem logistic_words (x : EReal) :
    Ideal.div (Ideal.ofBits .f32 0x3F800000#32) (Ideal.ofBits .f32 0x3F800000#32 + Ideal.exp (-x))
      = Ideal.logistic x := by
  rw [one_word]
  rfl

section Stages

variable (x0 : (⟨S2048x3, .f32⟩ : BufTy).Contents (Elt Ideal)) (x1 : (⟨S2048x256, .f32⟩ : BufTy).Contents (Elt Ideal)) (x2 : (⟨S32768x2, .i32⟩ : BufTy).Contents (Elt Ideal)) (x5 : (⟨S32768x4, .f32⟩ : BufTy).Contents (Elt Ideal)) (x6 : (⟨S517x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x19 : (⟨S256x1, .f32⟩ : BufTy).Contents (Elt Ideal)) (x20 : (⟨S1, .f32⟩ : BufTy).Contents (Elt Ideal))

/-- The message branch's first layer before its activation, at entry k: (W₁ · u + b₁)ₖ. -/
def lay1 (e : Fin 32768) (k : Fin 256) : EReal :=
  Egcl.dense (fun k j => x6 (ix2 k j)) (fun j => x7 (ix1 j)) (uRow x0 x1 x2 x5 e) k

/-- The message branch before its last activation, at entry j: (W₂ · silu (W₁ · u + b₁) + b₂)ⱼ. -/
def pre (e : Fin 32768) (j : Fin 256) : EReal :=
  Egcl.dense (fun k j => x8 (ix2 k j)) (fun j => x9 (ix1 j))
    (fun k => Egcl.silu (lay1 x0 x1 x2 x5 x6 x7 e k)) j

/-- The gate's argument: (Σₖ silu (pre k) · i[k]) + ι. -/
def gateArg (e : Fin 32768) : EReal :=
  (∑ k : Fin 256, Egcl.silu (pre x0 x1 x2 x5 x6 x7 x8 x9 e k) * x19 (ix2 k 0)) + x20 (ix1 0)

/-- The first product at (e, j): Σₖ u[k] · W₁[k, j], the input row read through the joined array. -/
theorem v23_at (e : Fin 32768) (j : Fin 256) :
    val_main_v23 (F := Ideal) x0 x1 x2 x5 x6 (ix2 e j)
      = ∑ k : Fin 517, uRow x0 x1 x2 x5 e k * x6 (ix2 k j) := by
  rw [val_main_v23_apply]
  refine Finset.sum_congr rfl fun k _ => ?_
  have hl : lidx_main_v23 (ix2 e j) k = ix2 e k :=
    funext fun a => Fin.ext (by match a with | ⟨0, _⟩ => rfl | ⟨1, _⟩ => rfl)
  have hr : ridx_main_v23 (ix2 e j) k = ix2 k j :=
    funext fun a => Fin.ext (by match a with | ⟨0, _⟩ => rfl | ⟨1, _⟩ => rfl)
  rw [hl, hr, ref_in]

/-- Adding the bias row, broadcast over the edges, gives the first layer. -/
theorem v26_at (e : Fin 32768) (j : Fin 256) :
    val_main_v26 (F := Ideal) x0 x1 x2 x5 x6 x7 (ix2 e j) = lay1 x0 x1 x2 x5 x6 x7 e j := by
  have hb : idx_main_v24 (idx_main_v25 (ix2 e j)) = ix1 j :=
    funext fun a => Fin.ext (by match a with | ⟨0, _⟩ => rfl)
  rw [val_main_v26_apply, val_main_v25_apply, val_main_v24_apply, hb, v23_at, Ideal.addf_def]
  rfl

/-- The expanded activation of the first layer is silu of it. -/
theorem v27_at (e : Fin 32768) (j : Fin 256) :
    val_main_v27 (F := Ideal) x0 x1 x2 x5 x6 x7 (ix2 e j) = Egcl.silu (lay1 x0 x1 x2 x5 x6 x7 e j) := by
  rw [val_main_v27_apply, val_main_call1_v5_apply, val_main_call1_v4_apply, val_main_call1_cst_0_apply,
    val_main_call1_v3_apply, val_main_call1_v2_apply, val_main_call1_cst_apply, val_main_call1_v1_apply,
    val_main_call1_v0_apply, v26_at]
  simp only [Ideal.mulf_def, Ideal.hostDivf_def, Ideal.addf_def, Ideal.hostUnary_exp_def, Ideal.hostNegf_def,
    Ideal.negf_def, Ideal.ofBits_def]
  exact silu_words _

/-- The second product at (e, j): Σₖ silu (lay1 k) · W₂[k, j]. -/
theorem v28_at (e : Fin 32768) (j : Fin 256) :
    val_main_v28 (F := Ideal) x0 x1 x2 x5 x6 x7 x8 (ix2 e j)
      = ∑ k : Fin 256, Egcl.silu (lay1 x0 x1 x2 x5 x6 x7 e k) * x8 (ix2 k j) := by
  rw [val_main_v28_apply]
  refine Finset.sum_congr rfl fun k _ => ?_
  have hl : lidx_main_v28 (ix2 e j) k = ix2 e k :=
    funext fun a => Fin.ext (by match a with | ⟨0, _⟩ => rfl | ⟨1, _⟩ => rfl)
  have hr : ridx_main_v28 (ix2 e j) k = ix2 k j :=
    funext fun a => Fin.ext (by match a with | ⟨0, _⟩ => rfl | ⟨1, _⟩ => rfl)
  rw [hl, hr, v27_at]

/-- Adding the second bias row gives the message's pre-activation. -/
theorem v31_at (e : Fin 32768) (j : Fin 256) :
    val_main_v31 (F := Ideal) x0 x1 x2 x5 x6 x7 x8 x9 (ix2 e j) = pre x0 x1 x2 x5 x6 x7 x8 x9 e j := by
  have hb : idx_main_v29 (idx_main_v30 (ix2 e j)) = ix1 j :=
    funext fun a => Fin.ext (by match a with | ⟨0, _⟩ => rfl)
  rw [val_main_v31_apply, val_main_v30_apply, val_main_v29_apply, hb, v28_at, Ideal.addf_def]
  rfl

/-- The expanded activation of the pre-activation is silu of it: the message φ. -/
theorem v32_at (e : Fin 32768) (j : Fin 256) :
    val_main_v32 (F := Ideal) x0 x1 x2 x5 x6 x7 x8 x9 (ix2 e j)
      = Egcl.silu (pre x0 x1 x2 x5 x6 x7 x8 x9 e j) := by
  rw [val_main_v32_apply, val_main_call2_v5_apply, val_main_call2_v4_apply, val_main_call2_cst_0_apply,
    val_main_call2_v3_apply, val_main_call2_v2_apply, val_main_call2_cst_apply, val_main_call2_v1_apply,
    val_main_call2_v0_apply, v31_at]
  simp only [Ideal.mulf_def, Ideal.hostDivf_def, Ideal.addf_def, Ideal.hostUnary_exp_def, Ideal.hostNegf_def,
    Ideal.negf_def, Ideal.ofBits_def]
  exact silu_words _

/-- The gate's product at edge e: Σₖ φ[k] · i[k]. -/
theorem v44_at (e : Fin 32768) :
    val_main_v44 (F := Ideal) x0 x1 x2 x5 x6 x7 x8 x9 x19 (ix2 e 0)
      = ∑ k : Fin 256, Egcl.silu (pre x0 x1 x2 x5 x6 x7 x8 x9 e k) * x19 (ix2 k 0) := by
  rw [val_main_v44_apply]
  refine Finset.sum_congr rfl fun k _ => ?_
  have hl : lidx_main_v44 (ix2 e (0 : Fin 1)) k = ix2 e k :=
    funext fun a => Fin.ext (by match a with | ⟨0, _⟩ => rfl | ⟨1, _⟩ => rfl)
  have hr : ridx_main_v44 (ix2 e (0 : Fin 1)) k = ix2 k (0 : Fin 1) :=
    funext fun a => Fin.ext (by match a with | ⟨0, _⟩ => rfl | ⟨1, _⟩ => rfl)
  rw [hl, hr, v32_at]

/-- Adding the gate's bias, broadcast over the edges, gives the gate's argument. -/
theorem v47_at (e : Fin 32768) :
    val_main_v47 (F := Ideal) x0 x1 x2 x5 x6 x7 x8 x9 x19 x20 (ix2 e 0)
      = gateArg x0 x1 x2 x5 x6 x7 x8 x9 x19 x20 e := by
  have hb : idx_main_v45 (idx_main_v46 (ix2 e (0 : Fin 1))) = ix1 (0 : Fin 1) :=
    funext fun a => Fin.ext (by match a with | ⟨0, _⟩ => rfl)
  rw [val_main_v47_apply, val_main_v46_apply, val_main_v45_apply, hb, v44_at, Ideal.addf_def]
  rfl

/-- The expanded sigmoid of the gate's argument is σ of it: the gate. -/
theorem v53_at (e : Fin 32768) :
    val_main_v53 (F := Ideal) x0 x1 x2 x5 x6 x7 x8 x9 x19 x20 (ix2 e 0)
      = Ideal.logistic (gateArg x0 x1 x2 x5 x6 x7 x8 x9 x19 x20 e) := by
  rw [val_main_v53_apply, val_main_v52_apply, val_main_cst_3_apply, val_main_v51_apply, val_main_v50_apply,
    val_main_cst_apply, val_main_v49_apply, val_main_v48_apply, v47_at]
  simp only [Ideal.mulf_def, Ideal.hostDivf_def, Ideal.addf_def, Ideal.hostUnary_exp_def, Ideal.hostNegf_def,
    Ideal.negf_def, Ideal.ofBits_def]
  exact logistic_words _

/-- The gate broadcast along the 256 columns. -/
theorem v54_at (e : Fin 32768) (j : Fin 256) :
    val_main_v54 (F := Ideal) x0 x1 x2 x5 x6 x7 x8 x9 x19 x20 (ix2 e j)
      = Ideal.logistic (gateArg x0 x1 x2 x5 x6 x7 x8 x9 x19 x20 e) := by
  have hi : idx_main_v54 (ix2 e j) = ix2 e (0 : Fin 1) :=
    funext fun a => Fin.ext (by match a with | ⟨0, _⟩ => rfl | ⟨1, _⟩ => rfl)
  rw [val_main_v54_apply, hi, v53_at]

/-- The gated message at (e, j): φ[j] · σ(gate argument). -/
theorem v55_at (e : Fin 32768) (j : Fin 256) :
    val_main_v55 (F := Ideal) x0 x1 x2 x5 x6 x7 x8 x9 x19 x20 (ix2 e j)
      = Egcl.silu (pre x0 x1 x2 x5 x6 x7 x8 x9 e j)
        * Ideal.logistic (gateArg x0 x1 x2 x5 x6 x7 x8 x9 x19 x20 e) := by
  rw [val_main_v55_apply, v32_at, v54_at, Ideal.mulf_def]

end Stages

theorem ref_msg (x0 : (⟨S2048x3, .f32⟩ : BufTy).Contents (Elt Ideal)) (x1 : (⟨S2048x256, .f32⟩ : BufTy).Contents (Elt Ideal)) (x2 : (⟨S32768x2, .i32⟩ : BufTy).Contents (Elt Ideal)) (x5 : (⟨S32768x4, .f32⟩ : BufTy).Contents (Elt Ideal)) (x6 : (⟨S517x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S517x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256x1, .f32⟩ : BufTy).Contents (Elt Ideal)) (x19 : (⟨S256x1, .f32⟩ : BufTy).Contents (Elt Ideal)) (x20 : (⟨S1, .f32⟩ : BufTy).Contents (Elt Ideal)) (e : Fin 32768) (j : Fin 256) :
      val_main_v55 (F := Ideal) x0 x1 x2 x5 x6 x7 x8 x9 x19 x20 (ix2 e j)
        = Egcl.msg (Egcl.EdgeW.ofArrays x6 x7 x8 x9 x10 x11 x12 x13 x14 x19 x20) (Egcl.msgPre (Egcl.EdgeW.ofArrays x6 x7 x8 x9 x10 x11 x12 x13 x14 x19 x20) (uRow x0 x1 x2 x5 e)) j := by
  rw [v55_at]
  rfl

end Cert.ReferenceIdeal.RefMsg

end
-- ==== Proof.RefShift.lean ====
import proofs.«179171_j8203387535901_1_alg».proof.Proof.Gen.ReferenceIdeal.Read
import proofs.«179171_j8203387535901_1_alg».proof.Proof.Egcl
import proofs.«179171_j8203387535901_1_alg».proof.Proof.LibDot2
import Idealize.ShloMosaic.Lib.Pipeline.Value
import Idealize.ShloMosaic.Lib.ValueIdx
import Idealize.ShloMosaic.Lib.ValueLayout
import Idealize.ShloMosaic.PureOps.Ideal.Laws
import proofs.«179171_j8203387535901_1_alg».proof.Proof.RefIn

noncomputable section

open scoped BigOperators

namespace Cert.ReferenceIdeal.RefShift

open Cert.ReferenceIdeal Cert.ReferenceIdeal.Read Idealize.ShloMosaic Idealize.ShloMosaic.TcCoe Idealize.ShloMosaic.ValueIdx Cert.ReferenceIdeal.RefIn

section Stages

variable (x0 : (⟨S2048x3, .f32⟩ : BufTy).Contents (Elt Ideal)) (x1 : (⟨S2048x256, .f32⟩ : BufTy).Contents (Elt Ideal)) (x2 : (⟨S32768x2, .i32⟩ : BufTy).Contents (Elt Ideal)) (x5 : (⟨S32768x4, .f32⟩ : BufTy).Contents (Elt Ideal)) (x10 : (⟨S517x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256x1, .f32⟩ : BufTy).Contents (Elt Ideal))

/-- The single-precision word 0x3F800000 is the number one. -/
theorem one_word : Ideal.ofBits .f32 0x3F800000#32 = (1 : EReal) :=
  IdealRules.sign_bit.ideal_onePat .f32

/-- x · (1 / (1 + exp (−x))), both ones given by their word, is silu x = x · σ(x):
    σ(x) is by definition 1 / (1 + exp (−x)). -/
theorem silu_word (x : EReal) :
    x * Ideal.div (Ideal.ofBits .f32 0x3F800000#32) (Ideal.ofBits .f32 0x3F800000#32 + Ideal.exp (-x))
      = Egcl.silu x := by
  rw [one_word]; rfl

/-- The coordinate branch's first affine layer at edge e: C₁ · u + c₁, u the edge's input row. -/
def c1 (e : Fin 32768) (k : Fin 256) : EReal :=
  Egcl.dense (fun a b => x10 (ix2 a b)) (fun b => x11 (ix1 b)) (uRow x0 x1 x2 x5 e) k

/-- The coordinate branch's second affine layer at edge e: C₂ · silu (C₁ · u + c₁) + c₂. -/
def c2 (e : Fin 32768) (k : Fin 256) : EReal :=
  Egcl.dense (fun a b => x12 (ix2 a b)) (fun b => x13 (ix1 b))
    (fun k' => Egcl.silu (c1 x0 x1 x2 x5 x10 x11 e k')) k

/-- The first layer before its activation, at (e, k): row e of the input table against column k of C₁
    (the contraction runs over the 517 input entries, each of which is the edge's input row by the
    input table's reading), plus entry k of the bias, which is broadcast along the edges. -/
theorem ref_c1 (e : Fin 32768) (k : Fin 256) :
    val_main_v36 (F := Ideal) x0 x1 x2 x5 x10 x11 (ix2 e k) = c1 x0 x1 x2 x5 x10 x11 e k := by
  rw [val_main_v36_apply, val_main_v33_apply, val_main_v35_apply, val_main_v34_apply]
  have hl : ∀ k' : Fin 517, (lidx_main_v33 (ix2 e k) k' : S32768x517.Idx) = ix2 e k' := fun k' =>
    funext fun a => Fin.ext (by match a with | ⟨0, _⟩ => rfl | ⟨1, _⟩ => rfl)
  have hr : ∀ k' : Fin 517, (ridx_main_v33 (ix2 e k) k' : S517x256.Idx) = ix2 k' k := fun k' =>
    funext fun a => Fin.ext (by match a with | ⟨0, _⟩ => rfl | ⟨1, _⟩ => rfl)
  have hb : (idx_main_v34 (idx_main_v35 (ix2 e k)) : S256.Idx) = ix1 k :=
    funext fun a => Fin.ext (by match a with | ⟨0, _⟩ => rfl)
  simp only [hl, hr, hb, ref_in]
  rfl

/-- The first layer after its activation, at (e, k): the expanded negate, exponential, add one,
    reciprocal, multiply is silu of the entry. -/
theorem ref_s1 (e : Fin 32768) (k : Fin 256) :
    val_main_v37 (F := Ideal) x0 x1 x2 x5 x10 x11 (ix2 e k) = Egcl.silu (c1 x0 x1 x2 x5 x10 x11 e k) := by
  rw [val_main_v37_apply, val_main_call3_v5_apply, val_main_call3_v4_apply, val_main_call3_cst_0_apply,
    val_main_call3_v3_apply, val_main_call3_v2_apply, val_main_call3_cst_apply, val_main_call3_v1_apply,
    val_main_call3_v0_apply, ref_c1]
  exact silu_word _

/-- The second layer before its activation, at (e, k): row e of the activated first layer against
    column k of C₂, plus entry k of the bias. -/
theorem ref_c2 (e : Fin 32768) (k : Fin 256) :
    val_main_v41 (F := Ideal) x0 x1 x2 x5 x10 x11 x12 x13 (ix2 e k) = c2 x0 x1 x2 x5 x10 x11 x12 x13 e k := by
  rw [val_main_v41_apply, val_main_v38_apply, val_main_v40_apply, val_main_v39_apply]
  have hl : ∀ k' : Fin 256, (lidx_main_v38 (ix2 e k) k' : S32768x256.Idx) = ix2 e k' := fun k' =>
    funext fun a => Fin.ext (by match a with | ⟨0, _⟩ => rfl | ⟨1, _⟩ => rfl)
  have hr : ∀ k' : Fin 256, (ridx_main_v38 (ix2 e k) k' : S256x256.Idx) = ix2 k' k := fun k' =>
    funext fun a => Fin.ext (by match a with | ⟨0, _⟩ => rfl | ⟨1, _⟩ => rfl)
  have hb : (idx_main_v39 (idx_main_v40 (ix2 e k)) : S256.Idx) = ix1 k :=
    funext fun a => Fin.ext (by match a with | ⟨0, _⟩ => rfl)
  simp only [hl, hr, hb, ref_s1]
  rfl

/-- The second layer after its activation, at (e, k): silu of the entry. -/
theorem ref_s2 (e : Fin 32768) (k : Fin 256) :
    val_main_v42 (F := Ideal) x0 x1 x2 x5 x10 x11 x12 x13 (ix2 e k)
      = Egcl.silu (c2 x0 x1 x2 x5 x10 x11 x12 x13 e k) := by
  rw [val_main_v42_apply, val_main_call4_v5_apply, val_main_call4_v4_apply, val_main_call4_cst_0_apply,
    val_main_call4_v3_apply, val_main_call4_v2_apply, val_main_call4_cst_apply, val_main_call4_v1_apply,
    val_main_call4_v0_apply, ref_c2]
  exact silu_word _

/-- The coordinate scalar ψ of edge e: row e of the activated second layer against the single
    column of C₃. -/
theorem ref_psi (e : Fin 32768) :
    val_main_v43 (F := Ideal) x0 x1 x2 x5 x10 x11 x12 x13 x14 (ix2 e 0)
      = ∑ k : Fin 256, Egcl.silu (c2 x0 x1 x2 x5 x10 x11 x12 x13 e k) * x14 (ix2 k 0) := by
  rw [val_main_v43_apply]
  have hl : ∀ k' : Fin 256, (lidx_main_v43 (ix2 e 0) k' : S32768x256.Idx) = ix2 e k' := fun k' =>
    funext fun a => Fin.ext (by match a with | ⟨0, _⟩ => rfl | ⟨1, _⟩ => rfl)
  have hr : ∀ k' : Fin 256, (ridx_main_v43 (ix2 e 0) k' : S256x1.Idx) = ix2 k' 0 := fun k' =>
    funext fun a => Fin.ext (by match a with | ⟨0, _⟩ => rfl | ⟨1, _⟩ => rfl)
  simp only [hl, hr, ref_s2]

/-- The scale of edge e: fifteen, by its word and as the left factor, times tanh ψ. -/
theorem ref_scale (e : Fin 32768) :
    val_main_v70 (F := Ideal) x0 x1 x2 x5 x10 x11 x12 x13 x14 (ix2 e 0)
      = Egcl.c15 * Ideal.tanh (∑ k : Fin 256, Egcl.silu (c2 x0 x1 x2 x5 x10 x11 x12 x13 e k) * x14 (ix2 k 0)) := by
  rw [val_main_v70_apply, val_main_v69_apply, val_main_cst_4_apply, val_main_v68_apply, ref_psi]
  rfl

/-- The denominator of edge e: the offset's length floored at ε, plus one; ε and one stay words. -/
theorem ref_den (e : Fin 32768) :
    val_main_v74 (F := Ideal) x0 x2 (ix2 e 0)
      = max (Ideal.sqrt (Egcl.sqlen (dRow x0 x2 e))) Egcl.cEps + Egcl.cOne := by
  rw [val_main_v74_apply, val_main_v72_apply, val_main_v73_apply, val_main_cst_6_apply, val_main_v71_apply,
    val_main_cst_5_apply, ref_len]
  rfl

/-- The quotient at (e, j): the offset's entry j over the denominator, which is broadcast to all
    three columns. -/
theorem ref_quot (e : Fin 32768) (j : Fin 3) :
    val_main_v76 (F := Ideal) x0 x2 (ix2 e j)
      = Ideal.div (dRow x0 x2 e j) (max (Ideal.sqrt (Egcl.sqlen (dRow x0 x2 e))) Egcl.cEps + Egcl.cOne) := by
  rw [val_main_v76_apply, val_main_v75_apply]
  have h75 : (idx_main_v75 (ix2 e j) : S32768x1.Idx) = ix2 e 0 :=
    funext fun a => Fin.ext (by match a with | ⟨0, _⟩ => rfl | ⟨1, _⟩ => rfl)
  rw [h75, ref_den]
  rfl

end Stages

/-- The reference's scaled offset at (e, j) is the layer's: the scale 15 · tanh ψ, broadcast to all
    three columns, times dⱼ / (max(|d|, ε) + 1). The weights read off the arrays give back the two
    affine layers entry by entry, so ψ is the layer's coordinate scalar of the edge's input row. -/
theorem ref_shift (x0 : (⟨S2048x3, .f32⟩ : BufTy).Contents (Elt Ideal)) (x1 : (⟨S2048x256, .f32⟩ : BufTy).Contents (Elt Ideal)) (x2 : (⟨S32768x2, .i32⟩ : BufTy).Contents (Elt Ideal)) (x5 : (⟨S32768x4, .f32⟩ : BufTy).Contents (Elt Ideal)) (x6 : (⟨S517x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S517x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256x1, .f32⟩ : BufTy).Contents (Elt Ideal)) (x19 : (⟨S256x1, .f32⟩ : BufTy).Contents (Elt Ideal)) (x20 : (⟨S1, .f32⟩ : BufTy).Contents (Elt Ideal)) (e : Fin 32768) (j : Fin 3) :
    val_main_v78 (F := Ideal) x0 x1 x2 x5 x10 x11 x12 x13 x14 (ix2 e j)
      = Egcl.shift (Egcl.EdgeW.ofArrays x6 x7 x8 x9 x10 x11 x12 x13 x14 x19 x20) (uRow x0 x1 x2 x5 e) (dRow x0 x2 e) (Ideal.sqrt (Egcl.sqlen (dRow x0 x2 e))) j := by
  rw [val_main_v78_apply, val_main_v77_apply]
  have h77 : (idx_main_v77 (ix2 e j) : S32768x1.Idx) = ix2 e 0 :=
    funext fun a => Fin.ext (by match a with | ⟨0, _⟩ => rfl | ⟨1, _⟩ => rfl)
  rw [h77, ref_scale, ref_quot]
  rfl

end Cert.ReferenceIdeal.RefShift

end
-- ==== Proof.RefNode.lean ====
import proofs.«179171_j8203387535901_1_alg».proof.Proof.Gen.ReferenceIdeal.Read
import proofs.«179171_j8203387535901_1_alg».proof.Proof.Egcl
import proofs.«179171_j8203387535901_1_alg».proof.Proof.LibDot2
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefNode

open Cert.ReferenceIdeal Cert.ReferenceIdeal.Read Idealize.ShloMosaic Idealize.ShloMosaic.TcCoe Idealize.ShloMosaic.ValueIdx

/-- The single-precision word 0x3F800000 denotes the number one. -/
theorem one_f32 : Ideal.ofBits .f32 0x3F800000#32 = (1 : EReal) :=
  IdealRules.sign_bit.ideal_onePat .f32

/-- x · (1 / (1 + exp (-x))), with the two ones given by their single-precision word, is silu x. -/
theorem silu_word (v : EReal) :
    v * Ideal.div (Ideal.ofBits .f32 0x3F800000#32) (Ideal.ofBits .f32 0x3F800000#32 + Ideal.exp (-v)) = Egcl.silu v := by
  rw [one_f32]; rfl

section Stages

variable (x0 : (⟨S2048x3, .f32⟩ : BufTy).Contents (Elt Ideal)) (x1 : (⟨S2048x256, .f32⟩ : BufTy).Contents (Elt Ideal)) (x2 : (⟨S32768x2, .i32⟩ : BufTy).Contents (Elt Ideal)) (x3 : (⟨S2048x32768, .f32⟩ : BufTy).Contents (Elt Ideal)) (x4 : (⟨S2048x8, .f32⟩ : BufTy).Contents (Elt Ideal)) (x5 : (⟨S32768x4, .f32⟩ : BufTy).Contents (Elt Ideal)) (x6 : (⟨S517x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S517x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256x1, .f32⟩ : BufTy).Contents (Elt Ideal)) (x15 : (⟨S520x256, .f32⟩ : BufTy).Contents (Elt Ideal)) (x16 : (⟨S256, .f32⟩ : BufTy).Contents (Elt Ideal)) (x17 : (⟨S256x256, .f32⟩ : BufTy).Contents (Elt Ideal)) (x18 : (⟨S256, .f32⟩ : BufTy).Contents (Elt Ideal)) (x19 : (⟨S256x1, .f32⟩ : BufTy).Contents (Elt Ideal)) (x20 : (⟨S1, .f32⟩ : BufTy).Contents (Elt Ideal))

/-- The aggregate over edges: entry (i, c) of the incidence matrix times the message table is Σₑ R[i, e] · T[e, c]. -/
theorem v56_at (i : Fin 2048) (c : Fin 256) :
    val_main_v56 (F := Ideal) x0 x1 x2 x3 x5 x6 x7 x8 x9 x19 x20 (ix2 i c)
      = Egcl.agg (fun a b => x3 (ix2 a b)) (fun a b => val_main_v55 (F := Ideal) x0 x1 x2 x5 x6 x7 x8 x9 x19 x20 (ix2 a b)) i c := by
  rw [val_main_v56_apply]
  unfold Egcl.agg
  refine Finset.sum_congr rfl fun e _ => ?_
  have el : lidx_main_v56 (ix2 i c) e = ix2 i e := funext fun a => Fin.ext (by match a with | ⟨0, _⟩ => rfl | ⟨1, _⟩ => rfl)
  have er : ridx_main_v56 (ix2 i c) e = ix2 e c := funext fun a => Fin.ext (by match a with | ⟨0, _⟩ => rfl | ⟨1, _⟩ => rfl)
  rw [el, er]

/-- The same aggregate for the coordinate update: Σₑ R[i, e] · S[e, c] over the scaled offsets S. -/
theorem v79_at (i : Fin 2048) (c : Fin 3) :
    val_main_v79 (F := Ideal) x0 x1 x2 x3 x5 x10 x11 x12 x13 x14 (ix2 i c)
      = Egcl.agg (fun a b => x3 (ix2 a b)) (fun a b => val_main_v78 (F := Ideal) x0 x1 x2 x5 x10 x11 x12 x13 x14 (ix2 a b)) i c := by
  rw [val_main_v79_apply]
  unfold Egcl.agg
  refine Finset.sum_congr rfl fun e _ => ?_
  have el : lidx_main_v79 (ix2 i c) e = ix2 i e := funext fun a => Fin.ext (by match a with | ⟨0, _⟩ => rfl | ⟨1, _⟩ => rfl)
  have er : ridx_main_v79 (ix2 i c) e = ix2 e c := funext fun a => Fin.ext (by match a with | ⟨0, _⟩ => rfl | ⟨1, _⟩ => rfl)
  rw [el, er]

/-- The joined row [features, aggregated messages, attributes] of node i is the node perceptron's input row:
    column k comes from the piece whose span holds k (0 ≤ k < 256, 256 ≤ k < 512, 512 ≤ k < 520). -/
theorem v57_at (i : Fin 2048) (k : Fin 520) :
    val_main_v57 (F := Ideal) x0 x1 x2 x3 x4 x5 x6 x7 x8 x9 x19 x20 (ix2 i k) = (Egcl.nodeIn (fun c => x1 (ix2 i c)) (fun c => Egcl.agg (fun a b => x3 (ix2 a b)) (fun a b => val_main_v55 (F := Ideal) x0 x1 x2 x5 x6 x7 x8 x9 x19 x20 (ix2 a b)) i c) (fun c => x4 (ix2 i c))) k := by
  have ea : (fun c => Egcl.agg (fun a b => x3 (ix2 a b)) (fun a b => val_main_v55 (F := Ideal) x0 x1 x2 x5 x6 x7 x8 x9 x19 x20 (ix2 a b)) i c) = fun c => val_main_v56 (F := Ideal) x0 x1 x2 x3 x5 x6 x7 x8 x9 x19 x20 (ix2 i c) :=
    funext fun c => (v56_at x0 x1 x2 x3 x5 x6 x7 x8 x9 x19 x20 i c).symm
  rw [ea]
  unfold val_main_v57
  generalize val_main_v56 (F := Ideal) x0 x1 x2 x3 x5 x6 x7 x8 x9 x19 x20 = y
  unfold Egcl.nodeIn
  by_cases h1 : k.val < 256
  · rw [dif_pos h1]
    refine concatenate_apply_piece (t := S2048x520) 1 _ _ (ix2 i k) 0 ?_ S2048x256 x1 ?_ rfl 0 ?_
      (ix2 i ⟨k.val, h1⟩) ?_ ?_
    · show (0 : Nat) < 3
      omega
    · rfl
    · rfl
    · intro b hb
      match b with
      | ⟨0, _⟩ => rfl
      | ⟨1, _⟩ => exact absurd (Fin.ext rfl) hb
    · exact Nat.zero_add _
  · rw [dif_neg h1]
    by_cases h2 : k.val < 512
    · rw [dif_pos h2]
      refine concatenate_apply_piece (t := S2048x520) 1 _ _ (ix2 i k) 1 ?_ S2048x256 y ?_ rfl 256 ?_
        (ix2 i ⟨k.val - 256, by omega⟩) ?_ ?_
      · show (1 : Nat) < 3
        omega
      · rfl
      · rfl
      · intro b hb
        match b with
        | ⟨0, _⟩ => rfl
        | ⟨1, _⟩ => exact absurd (Fin.ext rfl) hb
      · show 256 + (k.val - 256) = k.val
        omega
    · rw [dif_neg h2]
      have hk := k.isLt
      refine concatenate_apply_piece (t := S2048x520) 1 _ _ (ix2 i k) 2 ?_ S2048x8 x4 ?_ rfl 512 ?_
        (ix2 i ⟨k.val - 512, by omega⟩) ?_ ?_
      · show (2 : Nat) < 3
        omega
      · rfl
      · rfl
      · intro b hb
        match b with
        | ⟨0, _⟩ => rfl
        | ⟨1, _⟩ => exact absurd (Fin.ext rfl) hb
      · show 512 + (k.val - 512) = k.val
        omega

/-- The first layer's product at (i, j): Σₖ row k · N₁[k, j]. -/
theorem v58_at (i : Fin 2048) (j : Fin 256) :
    val_main_v58 (F := Ideal) x0 x1 x2 x3 x4 x5 x6 x7 x8 x9 x15 x19 x20 (ix2 i j) = ∑ k : Fin 520, (Egcl.nodeIn (fun c => x1 (ix2 i c)) (fun c => Egcl.agg (fun a b => x3 (ix2 a b)) (fun a b => val_main_v55 (F := Ideal) x0 x1 x2 x5 x6 x7 x8 x9 x19 x20 (ix2 a b)) i c) (fun c => x4 (ix2 i c))) k * x15 (ix2 k j) := by
  rw [val_main_v58_apply]
  refine Finset.sum_congr rfl fun k _ => ?_
  have el : lidx_main_v58 (ix2 i j) k = ix2 i k := funext fun a => Fin.ext (by match a with | ⟨0, _⟩ => rfl | ⟨1, _⟩ => rfl)
  have er : ridx_main_v58 (ix2 i j) k = ix2 k j := funext fun a => Fin.ext (by match a with | ⟨0, _⟩ => rfl | ⟨1, _⟩ => rfl)
  rw [el, er, v57_at]

/-- The first layer before its activation: the product plus the bias row, broadcast over the nodes. -/
theorem v61_at (i : Fin 2048) (j : Fin 256) :
    val_main_v61 (F := Ideal) x0 x1 x2 x3 x4 x5 x6 x7 x8 x9 x15 x16 x19 x20 (ix2 i j)
      = Egcl.dense (fun k j => x15 (ix2 k j)) (fun j => x16 (ix1 j)) (Egcl.nodeIn (fun c => x1 (ix2 i c)) (fun c => Egcl.agg (fun a b => x3 (ix2 a b)) (fun a b => val_main_v55 (F := Ideal) x0 x1 x2 x5 x6 x7 x8 x9 x19 x20 (ix2 a b)) i c) (fun c => x4 (ix2 i c))) j := by
  rw [val_main_v61_apply, v58_at, val_main_v60_apply, val_main_v59_apply]
  have e : idx_main_v59 (idx_main_v60 (ix2 i j)) = ix1 j :=
    funext fun a => Fin.ext (by match a with | ⟨0, _⟩ => rfl)
  rw [e]
  rfl

/-- The first layer's activation, spelt as negate, exponential, add one, divide, multiply, is silu. -/
theorem v62_at (i : Fin 2048) (j : Fin 256) :
    val_main_v62 (F := Ideal) x0 x1 x2 x3 x4 x5 x6 x7 x8 x9 x15 x16 x19 x20 (ix2 i j) = (fun k => Egcl.silu (Egcl.dense (fun k j => x15 (ix2 k j)) (fun j => x16 (ix1 j)) (Egcl.nodeIn (fun c => x1 (ix2 i c)) (fun c => Egcl.agg (fun a b => x3 (ix2 a b)) (fun a b => val_main_v55 (F := Ideal) x0 x1 x2 x5 x6 x7 x8 x9 x19 x20 (ix2 a b)) i c) (fun c => x4 (ix2 i c))) k)) j := by
  rw [val_main_v62_apply, val_main_call5_v5_apply, val_main_call5_v4_apply, val_main_call5_cst_0_apply,
    val_main_call5_v3_apply, val_main_call5_v2_apply, val_main_call5_cst_apply, val_main_call5_v1_apply,
    val_main_call5_v0_apply, v61_at]
  exact silu_word _

/-- The second layer's product at (i, j): Σₖ hidden k · N₂[k, j]. -/
theorem v63_at (i : Fin 2048) (j : Fin 256) :
    val_main_v63 (F := Ideal) x0 x1 x2 x3 x4 x5 x6 x7 x8 x9 x15 x16 x17 x19 x20 (ix2 i j) = ∑ k : Fin 256, (fun k => Egcl.silu (Egcl.dense (fun k j => x15 (ix2 k j)) (fun j => x16 (ix1 j)) (Egcl.nodeIn (fun c => x1 (ix2 i c)) (fun c => Egcl.agg (fun a b => x3 (ix2 a b)) (fun a b => val_main_v55 (F := Ideal) x0 x1 x2 x5 x6 x7 x8 x9 x19 x20 (ix2 a b)) i c) (fun c => x4 (ix2 i c))) k)) k * x17 (ix2 k j) := by
  rw [val_main_v63_apply]
  refine Finset.sum_congr rfl fun k _ => ?_
  have el : lidx_main_v63 (ix2 i j) k = ix2 i k := funext fun a => Fin.ext (by match a with | ⟨0, _⟩ => rfl | ⟨1, _⟩ => rfl)
  have er : ridx_main_v63 (ix2 i j) k = ix2 k j := funext fun a => Fin.ext (by match a with | ⟨0, _⟩ => rfl | ⟨1, _⟩ => rfl)
  rw [el, er, v62_at]

end Stages

/-- The reference's updated features at (i, j): the node's feature plus the node perceptron of its input row. -/
theorem ref_feat (x0 : (⟨S2048x3, .f32⟩ : BufTy).Contents (Elt Ideal)) (x1 : (⟨S2048x256, .f32⟩ : BufTy).Contents (Elt Ideal)) (x2 : (⟨S32768x2, .i32⟩ : BufTy).Contents (Elt Ideal)) (x3 : (⟨S2048x32768, .f32⟩ : BufTy).Contents (Elt Ideal)) (x4 : (⟨S2048x8, .f32⟩ : BufTy).Contents (Elt Ideal)) (x5 : (⟨S32768x4, .f32⟩ : BufTy).Contents (Elt Ideal)) (x6 : (⟨S517x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S517x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256x1, .f32⟩ : BufTy).Contents (Elt Ideal)) (x15 : (⟨S520x256, .f32⟩ : BufTy).Contents (Elt Ideal)) (x16 : (⟨S256, .f32⟩ : BufTy).Contents (Elt Ideal)) (x17 : (⟨S256x256, .f32⟩ : BufTy).Contents (Elt Ideal)) (x18 : (⟨S256, .f32⟩ : BufTy).Contents (Elt Ideal)) (x19 : (⟨S256x1, .f32⟩ : BufTy).Contents (Elt Ideal)) (x20 : (⟨S1, .f32⟩ : BufTy).Contents (Elt Ideal)) (i : Fin 2048) (j : Fin 256) :
      val_main_v67 (F := Ideal) x0 x1 x2 x3 x4 x5 x6 x7 x8 x9 x15 x16 x17 x18 x19 x20 (ix2 i j)
        = Egcl.featOut (Egcl.NodeW.ofArrays x15 x16 x17 x18) (fun k => x1 (ix2 i k))
            (fun k => Egcl.agg (fun a b => x3 (ix2 a b)) (fun a b => val_main_v55 (F := Ideal) x0 x1 x2 x5 x6 x7 x8 x9 x19 x20 (ix2 a b)) i k)
            (fun k => x4 (ix2 i k)) j := by
  rw [val_main_v67_apply, val_main_v66_apply, v63_at, val_main_v65_apply, val_main_v64_apply]
  have e : idx_main_v64 (idx_main_v65 (ix2 i j)) = ix1 j :=
    funext fun a => Fin.ext (by match a with | ⟨0, _⟩ => rfl)
  rw [e]
  rfl

/-- The reference's updated coordinates at (i, j): the node's coordinate plus its aggregated scaled offsets. -/
theorem ref_coord (x0 : (⟨S2048x3, .f32⟩ : BufTy).Contents (Elt Ideal)) (x1 : (⟨S2048x256, .f32⟩ : BufTy).Contents (Elt Ideal)) (x2 : (⟨S32768x2, .i32⟩ : BufTy).Contents (Elt Ideal)) (x3 : (⟨S2048x32768, .f32⟩ : BufTy).Contents (Elt Ideal)) (x4 : (⟨S2048x8, .f32⟩ : BufTy).Contents (Elt Ideal)) (x5 : (⟨S32768x4, .f32⟩ : BufTy).Contents (Elt Ideal)) (x6 : (⟨S517x256, .f32⟩ : BufTy).Contents (Elt Ideal)) (x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S517x256, .f32⟩ : BufTy).Contents (Elt Ideal)) (x11 : (⟨S256, .f32⟩ : BufTy).Contents (Elt Ideal)) (x12 : (⟨S256x256, .f32⟩ : BufTy).Contents (Elt Ideal)) (x13 : (⟨S256, .f32⟩ : BufTy).Contents (Elt Ideal)) (x14 : (⟨S256x1, .f32⟩ : BufTy).Contents (Elt Ideal)) (x15 : (⟨S520x256, .f32⟩ : BufTy).Contents (Elt Ideal)) (x16 : (⟨S256, .f32⟩ : BufTy).Contents (Elt Ideal)) (x17 : (⟨S256x256, .f32⟩ : BufTy).Contents (Elt Ideal)) (x18 : (⟨S256, .f32⟩ : BufTy).Contents (Elt Ideal)) (x19 : (⟨S256x1, .f32⟩ : BufTy).Contents (Elt Ideal)) (x20 : (⟨S1, .f32⟩ : BufTy).Contents (Elt Ideal)) (i : Fin 2048) (j : Fin 3) :
      val_main_v80 (F := Ideal) x0 x1 x2 x3 x5 x10 x11 x12 x13 x14 (ix2 i j)
        = x0 (ix2 i j) + Egcl.agg (fun a b => x3 (ix2 a b)) (fun a b => val_main_v78 (F := Ideal) x0 x1 x2 x5 x10 x11 x12 x13 x14 (ix2 a b)) i j := by
  rw [val_main_v80_apply, v79_at]
  rfl

end Cert.ReferenceIdeal.RefNode

end
-- ==== Proof.Bridge.lean ====
/-
  The two programs compute one function. Both gather the same rows with the same host operations
  (the feature rows of an edge's two ends, and the offset between their coordinates), so an edge's
  input row, offset and attributes are the same numbers on both sides. The kernel program's results
  are, entry by entry, the specification's node update of the aggregated edge table; the reference's
  stages are the same specification read stage by stage. The aggregate over 32768 edges is one sum on
  both sides: the kernel's blocks of 1024 edges only group it.
-/
import proofs.«179171_j8203387535901_1_alg».proof.Defs
import proofs.«179171_j8203387535901_1_alg».proof.Proof.Gen.Kernel.Frame
import proofs.«179171_j8203387535901_1_alg».proof.Proof.Gen.KernelIdeal.Frame
import proofs.«179171_j8203387535901_1_alg».proof.Proof.Gen.ReferenceIdeal.Run
import proofs.«179171_j8203387535901_1_alg».proof.Proof.Gen.ReferenceIdeal.Read
import proofs.«179171_j8203387535901_1_alg».proof.Proof.Gen.Pre_finite_inputs
import proofs.«179171_j8203387535901_1_alg».proof.Proof.EgclRows
import proofs.«179171_j8203387535901_1_alg».proof.Proof.KRun
import proofs.«179171_j8203387535901_1_alg».proof.Proof.KHost
import proofs.«179171_j8203387535901_1_alg».proof.Proof.KChain
import proofs.«179171_j8203387535901_1_alg».proof.Proof.RefIn
import proofs.«179171_j8203387535901_1_alg».proof.Proof.RefMsg
import proofs.«179171_j8203387535901_1_alg».proof.Proof.RefShift
import proofs.«179171_j8203387535901_1_alg».proof.Proof.RefNode
import Idealize.ShloMosaic.Lib.StableHlo.Run
import Idealize.ShloMosaic.Lib.Pipeline.Value
import Idealize.ShloMosaic.Lib.ValueIdx

set_option maxRecDepth 16384

noncomputable section

open scoped BigOperators

namespace Cert.Bridge
open Idealize.ShloMosaic Idealize.ShloMosaic.TcCoe Idealize.ShloMosaic.ValueIdx Idealize.SL.Sem

/-! ## The host operations before the first region: the reference's own gathers -/

section Host
variable {F : FTy → Type} [FloatOps F]

/-- The kernel program gathers both ends' feature rows by the very operations the reference uses. -/
theorem featTerm_eq (x1 : (⟨Cert.KernelIdeal.S2048x256, .f32⟩ : BufTy).Contents (Elt F)) (x2 : (⟨Cert.KernelIdeal.S32768x2, .i32⟩ : BufTy).Contents (Elt F)) :
    Cert.KernelIdeal.KHost.featTerm x1 x2 = Cert.ReferenceIdeal.Read.val_main_v14 (F := F) x1 x2 := by
  unfold Cert.KernelIdeal.KHost.featTerm Cert.KernelIdeal.KHost.idxTerm Cert.ReferenceIdeal.Read.val_main_v14 Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_c_1 Cert.ReferenceIdeal.Read.val_main_c_2
  rfl

/-- The kernel program forms the coordinate offsets by the very operations the reference uses. -/
theorem diffTerm_eq (x0 : (⟨Cert.KernelIdeal.S2048x3, .f32⟩ : BufTy).Contents (Elt F)) (x2 : (⟨Cert.KernelIdeal.S32768x2, .i32⟩ : BufTy).Contents (Elt F)) :
    Cert.KernelIdeal.KHost.diffTerm x0 x2 = Cert.ReferenceIdeal.Read.val_main_v19 (F := F) x0 x2 := by
  unfold Cert.KernelIdeal.KHost.diffTerm Cert.KernelIdeal.KHost.idxTerm Cert.ReferenceIdeal.Read.val_main_v19 Cert.ReferenceIdeal.Read.val_main_v18 Cert.ReferenceIdeal.Read.val_main_v17 Cert.ReferenceIdeal.Read.val_main_v16 Cert.ReferenceIdeal.Read.val_main_v15 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0 Cert.ReferenceIdeal.Read.val_main_c Cert.ReferenceIdeal.Read.val_main_c_0
  rfl
end Host

/-! ## The rows of an edge are the same numbers on both sides -/

section Values
variable (m : (ℓ : Loc Cert.KernelIdeal.nD Cert.KernelIdeal.τ Cert.KernelIdeal.sig) → Buf (Elt Ideal) ℓ) (ρ : Dev Cert.KernelIdeal.nD → PrngReg)

/-- A kernel-program buffer's launch contents. -/
abbrev at0 (c : Dev Cert.KernelIdeal.nD) (b : Ref Cert.KernelIdeal.sig .tc) : Buf (Elt Ideal) ((c : Thread Cert.KernelIdeal.nD Cert.KernelIdeal.τ).loc b) :=
  m ((c : Thread Cert.KernelIdeal.nD Cert.KernelIdeal.τ).loc b)

/-- An edge's gathered feature row. -/
theorem hRow_eq (c : Dev Cert.KernelIdeal.nD) (e : Fin 32768) :
    Cert.KernelIdeal.KChain.hRow m ρ c e = Cert.ReferenceIdeal.RefIn.hRow (at0 m c Cert.KernelIdeal.main_arg1) (at0 m c Cert.KernelIdeal.main_arg2) e := by
  funext k
  show Cert.KernelIdeal.Gen.V1 m ρ c Cert.KernelIdeal.main_v19 (ix2 e k) = Cert.ReferenceIdeal.Read.val_main_v14 (F := Ideal) _ _ (ix2 e k)
  rw [Cert.KernelIdeal.KHost.entry_feats m ρ c, featTerm_eq]

/-- An edge's offset: the first three columns of the seven-column array. -/
theorem dRow_eq (c : Dev Cert.KernelIdeal.nD) (e : Fin 32768) :
    Cert.KernelIdeal.KChain.dRow m ρ c e = Cert.ReferenceIdeal.RefIn.dRow (at0 m c Cert.KernelIdeal.main_arg0) (at0 m c Cert.KernelIdeal.main_arg2) e := by
  funext k
  show Cert.KernelIdeal.Gen.V1 m ρ c Cert.KernelIdeal.main_v20 (ix2 e ⟨k.val, by have := k.isLt; omega⟩) = Cert.ReferenceIdeal.Read.val_main_v19 (F := Ideal) _ _ (ix2 e k)
  rw [Cert.KernelIdeal.KHost.entry_offsets m ρ c, ← diffTerm_eq]
  refine concatenate_pair_apply_left (t := Cert.KernelIdeal.S32768x7) (s₁ := Cert.KernelIdeal.S32768x3) (s₂ := Cert.KernelIdeal.S32768x4) (1 : Fin 2) _ _ _
    (ix2 e (⟨k.val, by have := k.isLt; omega⟩ : Fin 7)) rfl (ix2 e k) ?_
  intro b
  match b with
  | ⟨0, _⟩ => rfl
  | ⟨1, _⟩ => rfl

/-- An edge's attributes: the last four columns of the seven-column array. -/
theorem aRow_eq (c : Dev Cert.KernelIdeal.nD) (e : Fin 32768) :
    Cert.KernelIdeal.KChain.aRow m ρ c e = Cert.ReferenceIdeal.RefIn.aRow (at0 m c Cert.KernelIdeal.main_arg5) e := by
  funext k
  show Cert.KernelIdeal.Gen.V1 m ρ c Cert.KernelIdeal.main_v20 (ix2 e ⟨k.val + 3, by have := k.isLt; omega⟩) = at0 m c Cert.KernelIdeal.main_arg5 (ix2 e k)
  rw [Cert.KernelIdeal.KHost.entry_offsets m ρ c]
  refine concatenate_pair_apply_right (t := Cert.KernelIdeal.S32768x7) (s₁ := Cert.KernelIdeal.S32768x3) (s₂ := Cert.KernelIdeal.S32768x4) (1 : Fin 2) _ _ _
    (ix2 e (⟨k.val + 3, by have := k.isLt; omega⟩ : Fin 7)) rfl rfl (ix2 e k) ?_ ?_
  · intro b hb
    match b, hb with
    | ⟨0, _⟩, _ => rfl
    | ⟨1, _⟩, hb => exact absurd rfl hb
  · rfl

/-- So an edge's perceptron input row is the same on both sides. -/
theorem uRow_eq (c : Dev Cert.KernelIdeal.nD) (e : Fin 32768) :
    Egcl.edgeIn (Cert.KernelIdeal.KChain.hRow m ρ c e) (Egcl.sqlen (Cert.KernelIdeal.KChain.dRow m ρ c e)) (Cert.KernelIdeal.KChain.aRow m ρ c e)
      = Cert.ReferenceIdeal.RefIn.uRow (at0 m c Cert.KernelIdeal.main_arg0) (at0 m c Cert.KernelIdeal.main_arg1) (at0 m c Cert.KernelIdeal.main_arg2) (at0 m c Cert.KernelIdeal.main_arg5) e := by
  unfold Cert.ReferenceIdeal.RefIn.uRow
  rw [hRow_eq m ρ c e, dRow_eq m ρ c e, aRow_eq m ρ c e]

/-! ## The two results -/

/-- The kernel program's updated coordinates are the reference's last stage of the same arguments. -/
theorem coords_eq (c : Dev Cert.KernelIdeal.nD) :
    Cert.KernelIdeal.Gen.W4 m ρ c (Proc.devRef .tc Cert.KernelIdeal.main_v23_1)
      = Cert.ReferenceIdeal.Read.val_main_v80 (F := Ideal) (at0 m c Cert.KernelIdeal.main_arg0) (at0 m c Cert.KernelIdeal.main_arg1) (at0 m c Cert.KernelIdeal.main_arg2) (at0 m c Cert.KernelIdeal.main_arg3) (at0 m c Cert.KernelIdeal.main_arg5) (at0 m c Cert.KernelIdeal.main_arg10) (at0 m c Cert.KernelIdeal.main_arg11) (at0 m c Cert.KernelIdeal.main_arg12) (at0 m c Cert.KernelIdeal.main_arg13) (at0 m c Cert.KernelIdeal.main_arg14) := by
  funext idx
  obtain ⟨i, j, rfl⟩ : ∃ (i : Fin 2048) (j : Fin 3), idx = ix2 i j := ⟨idx 0, idx 1, eq_ix2 idx⟩
  rw [Cert.KernelIdeal.KChain.coords_at m ρ c i j, Cert.ReferenceIdeal.RefNode.ref_coord (at0 m c Cert.KernelIdeal.main_arg0) (at0 m c Cert.KernelIdeal.main_arg1) (at0 m c Cert.KernelIdeal.main_arg2) (at0 m c Cert.KernelIdeal.main_arg3) (at0 m c Cert.KernelIdeal.main_arg4) (at0 m c Cert.KernelIdeal.main_arg5) (at0 m c Cert.KernelIdeal.main_arg6) (at0 m c Cert.KernelIdeal.main_arg7) (at0 m c Cert.KernelIdeal.main_arg8) (at0 m c Cert.KernelIdeal.main_arg9) (at0 m c Cert.KernelIdeal.main_arg10) (at0 m c Cert.KernelIdeal.main_arg11) (at0 m c Cert.KernelIdeal.main_arg12) (at0 m c Cert.KernelIdeal.main_arg13) (at0 m c Cert.KernelIdeal.main_arg14) (at0 m c Cert.KernelIdeal.main_arg15) (at0 m c Cert.KernelIdeal.main_arg16) (at0 m c Cert.KernelIdeal.main_arg17) (at0 m c Cert.KernelIdeal.main_arg18) (at0 m c Cert.KernelIdeal.main_arg19) (at0 m c Cert.KernelIdeal.main_arg20) i j]
  refine congrArg (FloatOps.addf (F := Ideal) (φ := .f32) _) (Egcl.agg_congr _ _ _ (fun e q => ?_) i j)
  rw [Cert.ReferenceIdeal.RefShift.ref_shift (at0 m c Cert.KernelIdeal.main_arg0) (at0 m c Cert.KernelIdeal.main_arg1) (at0 m c Cert.KernelIdeal.main_arg2) (at0 m c Cert.KernelIdeal.main_arg5) (at0 m c Cert.KernelIdeal.main_arg6) (at0 m c Cert.KernelIdeal.main_arg7) (at0 m c Cert.KernelIdeal.main_arg8) (at0 m c Cert.KernelIdeal.main_arg9) (at0 m c Cert.KernelIdeal.main_arg10) (at0 m c Cert.KernelIdeal.main_arg11) (at0 m c Cert.KernelIdeal.main_arg12) (at0 m c Cert.KernelIdeal.main_arg13) (at0 m c Cert.KernelIdeal.main_arg14) (at0 m c Cert.KernelIdeal.main_arg19) (at0 m c Cert.KernelIdeal.main_arg20) e q, uRow_eq m ρ c e, dRow_eq m ρ c e]

/-- The kernel program's updated features are the reference's stage of the same arguments. -/
theorem feats_eq (c : Dev Cert.KernelIdeal.nD) :
    Cert.KernelIdeal.Gen.W4 m ρ c (Proc.devRef .tc Cert.KernelIdeal.main_v23_0)
      = Cert.ReferenceIdeal.Read.val_main_v67 (F := Ideal) (at0 m c Cert.KernelIdeal.main_arg0) (at0 m c Cert.KernelIdeal.main_arg1) (at0 m c Cert.KernelIdeal.main_arg2) (at0 m c Cert.KernelIdeal.main_arg3) (at0 m c Cert.KernelIdeal.main_arg4) (at0 m c Cert.KernelIdeal.main_arg5) (at0 m c Cert.KernelIdeal.main_arg6) (at0 m c Cert.KernelIdeal.main_arg7) (at0 m c Cert.KernelIdeal.main_arg8) (at0 m c Cert.KernelIdeal.main_arg9) (at0 m c Cert.KernelIdeal.main_arg15) (at0 m c Cert.KernelIdeal.main_arg16) (at0 m c Cert.KernelIdeal.main_arg17) (at0 m c Cert.KernelIdeal.main_arg18) (at0 m c Cert.KernelIdeal.main_arg19) (at0 m c Cert.KernelIdeal.main_arg20) := by
  funext idx
  obtain ⟨i, j, rfl⟩ : ∃ (i : Fin 2048) (j : Fin 256), idx = ix2 i j := ⟨idx 0, idx 1, eq_ix2 idx⟩
  rw [Cert.KernelIdeal.KChain.feats_at m ρ c i j, Cert.ReferenceIdeal.RefNode.ref_feat (at0 m c Cert.KernelIdeal.main_arg0) (at0 m c Cert.KernelIdeal.main_arg1) (at0 m c Cert.KernelIdeal.main_arg2) (at0 m c Cert.KernelIdeal.main_arg3) (at0 m c Cert.KernelIdeal.main_arg4) (at0 m c Cert.KernelIdeal.main_arg5) (at0 m c Cert.KernelIdeal.main_arg6) (at0 m c Cert.KernelIdeal.main_arg7) (at0 m c Cert.KernelIdeal.main_arg8) (at0 m c Cert.KernelIdeal.main_arg9) (at0 m c Cert.KernelIdeal.main_arg10) (at0 m c Cert.KernelIdeal.main_arg11) (at0 m c Cert.KernelIdeal.main_arg12) (at0 m c Cert.KernelIdeal.main_arg13) (at0 m c Cert.KernelIdeal.main_arg14) (at0 m c Cert.KernelIdeal.main_arg15) (at0 m c Cert.KernelIdeal.main_arg16) (at0 m c Cert.KernelIdeal.main_arg17) (at0 m c Cert.KernelIdeal.main_arg18) (at0 m c Cert.KernelIdeal.main_arg19) (at0 m c Cert.KernelIdeal.main_arg20) i j]
  refine congrArg (fun a => Egcl.featOut (Cert.KernelIdeal.KChain.nodeW m c) (fun k => at0 m c Cert.KernelIdeal.main_arg1 (ix2 i k)) a
      (fun k => at0 m c Cert.KernelIdeal.main_arg4 (ix2 i k)) j) (funext fun k => Egcl.agg_congr _ _ _ (fun e q => ?_) i k)
  rw [Cert.ReferenceIdeal.RefMsg.ref_msg (at0 m c Cert.KernelIdeal.main_arg0) (at0 m c Cert.KernelIdeal.main_arg1) (at0 m c Cert.KernelIdeal.main_arg2) (at0 m c Cert.KernelIdeal.main_arg5) (at0 m c Cert.KernelIdeal.main_arg6) (at0 m c Cert.KernelIdeal.main_arg7) (at0 m c Cert.KernelIdeal.main_arg8) (at0 m c Cert.KernelIdeal.main_arg9) (at0 m c Cert.KernelIdeal.main_arg10) (at0 m c Cert.KernelIdeal.main_arg11) (at0 m c Cert.KernelIdeal.main_arg12) (at0 m c Cert.KernelIdeal.main_arg13) (at0 m c Cert.KernelIdeal.main_arg14) (at0 m c Cert.KernelIdeal.main_arg19) (at0 m c Cert.KernelIdeal.main_arg20) e q, uRow_eq m ρ c e]

end Values

end Cert.Bridge

/-! ## The claims -/

namespace Cert.Proof.Claims

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both idealized programs run, and from memories that agree on the arguments their results agree: the kernel
    program's two result arrays are the reference's two last stages of the same arguments. -/
theorem algebraic : Cert.algebraic_KernelIdeal_ReferenceIdeal := by
  intro m ρ m' ρ' _ hagree
  refine ⟨fun c => Cert.KernelIdeal.Gen.W4 m ρ c (Proc.devRef .tc Cert.KernelIdeal.main_v23_1),
    fun c => Cert.KernelIdeal.Gen.W4 m ρ c (Proc.devRef .tc Cert.KernelIdeal.main_v23_0), Cert.KernelIdeal.KRun.run (F := Ideal) m ρ, ?_⟩
  refine (θ_run Cert.ReferenceIdeal.defs _ _).mono (fun _ h c => ?_) (Cert.ReferenceIdeal.Value.run (F := Ideal) m' ρ')
  obtain ⟨h80, h67, hargs⟩ := h c
  obtain ⟨a0, a1, a2, a3, a4, a5, a6, a7, a8, a9, a10, a11, a12, a13, a14, a15, a16, a17, a18, a19, a20⟩ := hagree c
  refine ⟨h80.trans ?_, h67.trans ?_, hargs⟩
  · rw [Cert.ReferenceIdeal.Read.val_main_v80_eq, a0, a1, a2, a3, a5, a10, a11, a12, a13, a14]
    exact (Cert.Bridge.coords_eq m ρ c).symm
  · rw [Cert.ReferenceIdeal.Read.val_main_v67_eq, a0, a1, a2, a3, a4, a5, a6, a7, a8, a9, a15, a16, a17, a18, a19, a20]
    exact (Cert.Bridge.feats_eq m ρ c).symm

end Cert.Proof.Claims

end
-- ==== Proof.lean ====
/-
  The certificate of one equivariant graph-convolution layer: a three-call accelerator kernel against its
  plain array reference.

  The kernel gathers, on the host, the feature rows and the coordinate offset of every edge; its first call
  runs the two edge perceptrons on blocks of 1024 edges and writes the edge table (256 gated message entries
  and 3 scaled offset entries per edge); its second call multiplies the node-by-edge incidence matrix by the
  edge table, 1024 edges at a time, accumulating in one output block; its third call runs the node
  perceptron on the aggregate's first 256 columns and adds the last 3 columns to the coordinates.

  At the ideal instance (floats are extended reals, every operation exact, a change of float format the
  identity) this is the reference's function. The differences between the two texts are: the kernel feeds
  the squared length of the offset to the perceptrons where the reference squares the square root of the
  same sum of squares (equal, the sum being nonnegative); the kernel's products pass through a narrower
  float format (the identity here); the kernel's one sigmoid operation is the reference's 1 / (1 + e^(-x));
  the kernel sums the aggregate block by block and for both tables at once (a regrouping of one sum in a
  commutative monoid). No law used needs the inputs to be finite, so the precondition is never opened.

  Proof/Egcl.lean states the layer as mathematics; Proof/KEdgePay.lean, KEdgeArr.lean, KAgg.lean,
  KNode.lean read the three calls' results back as that mathematics; Proof/KChain.lean threads them through
  the program; Proof/RefIn.lean, RefMsg.lean, RefShift.lean, RefNode.lean read the reference's stages as the
  same mathematics; Proof/Bridge.lean joins the two and proves the claims.
-/
import proofs.«179171_j8203387535901_1_alg».proof.Proof.Bridge

noncomputable section

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
